-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S8x1024x4096 : Shape := ⟨3, ![8, 1024, 4096]⟩
abbrev S8x4096 : Shape := ⟨2, ![8, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v13 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v13 main_v16
  let main_c_6 : IVec S_ 32 := constantI S_ 32 8#32
  let main_v18 : IVec S8192 32 := broadcastInDim S8192 ![] bcast_S_S8192 main_c_6
  let main_v19 : IVec S8192 1 := cmpi .slt main_arg1 main_v18
  let main_c_7 : IVec S_ 1 := constantI S_ 1 1#1
  let main_v20 : IVec S_ 1 := (fun x v => Host.reduce IntOp.andi x v reducesTo_S8192_S_d0 h_S_) main_v19 main_c_7
  let main_v21 : IVec S_ 1 := andi main_v17 main_v20
  main_v21

def fn {F : FTy → Type} [FloatOps F] (main_arg0 : FVec F S8192x1024 .f32) (main_arg1 : IVec S8192 32) (main_arg2 : FVec F S8x1024x4096 .f32) (main_arg3 : FVec F S8x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_c_4 : IVec S_ 32 := constantI S_ 32 0#32
  let main_v14 : IVec S8192 32 := broadcastInDim S8192 ![] bcast_S_S8192 main_c_4
  let main_v15 : IVec S8192 1 := cmpi .sge main_arg1 main_v14
  let main_c_5 : IVec S_ 1 := constantI S_ 1 1#1
  fn_part1 (F := F) main_arg1 main_v13 main_v15 main_c_5
-- ==== Kernel.lean ====
abbrev S8192x1024 : Shape := ⟨2, ![8192, 1024]⟩
abbrev S8192 : Shape := ⟨1, ![8192]⟩
abbrev S8x1024x4096 : Shape := ⟨3, ![8, 1024, 4096]⟩
abbrev S8x4096 : Shape := ⟨2, ![8, 4096]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S24 : Shape := ⟨1, ![24]⟩
abbrev S24x1 : Shape := ⟨2, ![24, 1]⟩
abbrev S24x8 : Shape := ⟨2, ![24, 8]⟩
abbrev S12288x1024 : Shape := ⟨2, ![12288, 1024]⟩
abbrev S8x1x4096 : Shape := ⟨3, ![8, 1, 4096]⟩
abbrev S12288x4096 : Shape := ⟨2, ![12288, 4096]⟩
abbrev S512x1024 : Shape := ⟨2, ![512, 1024]⟩
abbrev S1x1024x2048 : Shape := ⟨3, ![1, 1024, 2048]⟩
abbrev S1 : Shape := ⟨1, ![1]⟩
abbrev S1x1x2048 : Shape := ⟨3, ![1, 1, 2048]⟩
abbrev S512x2048 : Shape := ⟨2, ![512, 2048]⟩
abbrev S1024x2048 : Shape := ⟨2, ![1024, 2048]⟩
abbrev S1x2048 : Shape := ⟨2, ![1, 2048]⟩
abbrev S8192x4096 : Shape := ⟨2, ![8192, 4096]⟩

abbrev nBuf : Space → Nat
  | .hbm => 144
  | .vmem => 8
  | .smem => 1
  | _ => 0

abbrev hbmTy0_0 (i : Nat) : BufTy := match i % 128 with
  | 0 => ⟨S8192x1024, .f32⟩
  | 1 => ⟨S8192, .i32⟩
  | 2 => ⟨S8x1024x4096, .f32⟩
  | 3 => ⟨S8x4096, .f32⟩
  | 4 => ⟨S8, .i32⟩
  | 5 => ⟨S8192x1, .i32⟩
  | 6 => ⟨S1x8, .i32⟩
  | 7 => ⟨S8192x8, .i32⟩
  | 8 => ⟨S8192x8, .i32⟩
  | 9 => ⟨S8192x8, .i1⟩
  | 10 => ⟨S8192x8, .i32⟩
  | 11 => ⟨S_, .i32⟩
  | 12 => ⟨S8, .i32⟩
  | 13 => ⟨S_, .i32⟩
  | 14 => ⟨S8, .i32⟩
  | 15 => ⟨S8, .i32⟩
  | 16 => ⟨S_, .i32⟩
  | 17 => ⟨S8, .i32⟩
  | 18 => ⟨S8, .i32⟩
  | 19 => ⟨S_, .i32⟩
  | 20 => ⟨S_, .i32⟩
  | 21 => ⟨S8, .i32⟩
  | 22 => ⟨S8, .i32⟩
  | 23 => ⟨S8, .i32⟩
  | 24 => ⟨S_, .i32⟩
  | 25 => ⟨S8, .i32⟩
  | 26 => ⟨S8, .i1⟩
  | 27 => ⟨S8, .i32⟩
  | 28 => ⟨S8, .i32⟩
  | 29 => ⟨S_, .i32⟩
  | 30 => ⟨S8, .i32⟩
  | 31 => ⟨S8, .i1⟩
  | 32 => ⟨S8, .i1⟩
  | 33 => ⟨S_, .i32⟩
  | 34 => ⟨S8, .i32⟩
  | 35 => ⟨S8, .i32⟩
  | 36 => ⟨S8, .i32⟩
  | 37 => ⟨S_, .i32⟩
  | 38 => ⟨S_, .i32⟩
  | 39 => ⟨S8, .i32⟩
  | 40 => ⟨S8, .i32⟩
  | 41 => ⟨S_, .i32⟩
  | 42 => ⟨S_, .i32⟩
  | 43 => ⟨S8, .i32⟩
  | 44 => ⟨S8, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192, .i32⟩
  | 67 => ⟨S8192, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192, .i32⟩
  | 77 => ⟨S_, .i32⟩
  | 78 => ⟨S8192, .i32⟩
  | 79 => ⟨S8192, .i32⟩
  | 80 => ⟨S8192, .i32⟩
  | 81 => ⟨S24, .i32⟩
  | 82 => ⟨S24x1, .i32⟩
  | 83 => ⟨S1x8, .i32⟩
  | 84 => ⟨S24x8, .i32⟩
  | 85 => ⟨S24x8, .i32⟩
  | 86 => ⟨S24x8, .i1⟩
  | 87 => ⟨S24x8, .i32⟩
  | 88 => ⟨S_, .i32⟩
  | 89 => ⟨S24, .i32⟩
  | 90 => ⟨S_, .i32⟩
  | 91 => ⟨S24, .i32⟩
  | 92 => ⟨S24, .i32⟩
  | 93 => ⟨S_, .i32⟩
  | 94 => ⟨S_, .i32⟩
  | 95 => ⟨S_, .i32⟩
  | 96 => ⟨S24, .i32⟩
  | 97 => ⟨S24, .i32⟩
  | 98 => ⟨S_, .i32⟩
  | 99 => ⟨S24, .i32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192x1024, .f32⟩
  | 109 => ⟨S8192x1024, .bf16⟩
  | 110 => ⟨S_, .bf16⟩
  | 111 => ⟨S12288x1024, .bf16⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S12288x1024, .bf16⟩
  | 121 => ⟨S8x1024x4096, .bf16⟩
  | 122 => ⟨S8x1x4096, .f32⟩
  | 123 => ⟨S12288x4096, .f32⟩
  | 124 => ⟨S_, .i32⟩
  | 125 => ⟨S8192, .i32⟩
  | 126 => ⟨S8192, .i1⟩
  | 127 => ⟨S_, .i32⟩
  | _ => ⟨S8192x1024, .f32⟩

abbrev hbmTy0_1 (i : Nat) : BufTy := match i % 128 with
  | 0 => ⟨S8192, .i32⟩
  | 1 => ⟨S8192, .i32⟩
  | 2 => ⟨S8192, .i32⟩
  | 3 => ⟨S8192x1, .i32⟩
  | 4 => ⟨S8192x4096, .f32⟩
  | 5 => ⟨S_, .f32⟩
  | 6 => ⟨S8192x4096, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x4096, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S512x2048, .f32⟩
  | .local _ .vmem, ⟨7, _⟩ => ⟨S512x2048, .f32⟩
  | .local _ .smem, ⟨0, _⟩ => ⟨S24, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_call1_call0_c : Ref sig .tc := ⟨.hbm, 37, rfl⟩
abbrev main_call1_call0_v0 : Ref sig .tc := ⟨.hbm, 38, rfl⟩
abbrev main_v13 : Ref sig .tc := ⟨.hbm, 39, rfl⟩
abbrev main_v14 : Ref sig .tc := ⟨.hbm, 40, rfl⟩
abbrev main_call2_call0_c : Ref sig .tc := ⟨.hbm, 41, rfl⟩
abbrev main_call2_call0_v0 : Ref sig .tc := ⟨.hbm, 42, rfl⟩
abbrev main_v15 : Ref sig .tc := ⟨.hbm, 43, rfl⟩
abbrev main_v16 : Ref sig .tc := ⟨.hbm, 44, rfl⟩
abbrev main_call3_v0 : Ref sig .tc := ⟨.hbm, 45, rfl⟩
abbrev main_call3_v1_0 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_c_8 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_10 : Ref sig .tc := ⟨.hbm, 88, rfl⟩
abbrev main_v51 : Ref sig .tc := ⟨.hbm, 89, rfl⟩
abbrev main_c_11 : Ref sig .tc := ⟨.hbm, 90, rfl⟩
abbrev main_v52 : Ref sig .tc := ⟨.hbm, 91, rfl⟩
abbrev main_v53 : Ref sig .tc := ⟨.hbm, 92, rfl⟩
abbrev main_c_12 : Ref sig .tc := ⟨.hbm, 93, rfl⟩
abbrev main_c_13 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_c_14 : Ref sig .tc := ⟨.hbm, 100, rfl⟩
abbrev main_v55 : Ref sig .tc := ⟨.hbm, 101, rfl⟩
abbrev main_v56 : Ref sig .tc := ⟨.hbm, 102, rfl⟩
abbrev main_c_15 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst : Ref sig .tc := ⟨.hbm, 110, rfl⟩
abbrev main_v63 : Ref sig .tc := ⟨.hbm, 111, rfl⟩
abbrev main_c_16 : Ref sig .tc := ⟨.hbm, 112, rfl⟩
abbrev main_v64 : Ref sig .tc := ⟨.hbm, 113, rfl⟩
abbrev main_v65 : Ref sig .tc := ⟨.hbm, 114, rfl⟩
abbrev main_c_17 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_18 : Ref sig .tc := ⟨.hbm, 124, rfl⟩
abbrev main_v74 : Ref sig .tc := ⟨.hbm, 125, rfl⟩
abbrev main_v75 : Ref sig .tc := ⟨.hbm, 126, rfl⟩
abbrev main_c_19 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_20 : Ref sig .tc := ⟨.hbm, 133, rfl⟩
abbrev main_v81 : Ref sig .tc := ⟨.hbm, 134, rfl⟩
abbrev main_c_21 : Ref sig .tc := ⟨.hbm, 135, rfl⟩
abbrev main_v82 : Ref sig .tc := ⟨.hbm, 136, rfl⟩
abbrev main_v83 : Ref sig .tc := ⟨.hbm, 137, rfl⟩
abbrev main_c_22 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v54 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 24], ![false, false]⟩

abbrev pre0 : Pipeline.Prefetch sig := ⟨1, ![main_v54.idx], fun | 0 => main_v54.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8192_S8192x1_0 : S8192.BroadcastsInDim S8192x1 (![0] : Fin 1 → Fin S8192x1.rank)
  bcast_S8_S1x8_1 : S8.BroadcastsInDim S1x8 (![1] : Fin 1 → Fin S1x8.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  reducesTo_S8192x8_S8_d0 : S8192x8.ReducesTo [0] S8
  h_S_ : 0 < S_.numel
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  bcast_S_S8192 : S_.BroadcastsInDim S8192 (![] : Fin 0 → Fin S8192.rank)
  bcast_S24_S24x1_0 : S24.BroadcastsInDim S24x1 (![0] : Fin 1 → Fin S24x1.rank)
  bcast_S24x1_S24x8_0_1 : S24x1.BroadcastsInDim S24x8 (![0, 1] : Fin 2 → Fin S24x8.rank)
  bcast_S1x8_S24x8_0_1 : S1x8.BroadcastsInDim S24x8 (![0, 1] : Fin 2 → Fin S24x8.rank)
  reducesTo_S24x8_S24_d1 : S24x8.ReducesTo [1] S24
  bcast_S_S24 : S_.BroadcastsInDim S24 (![] : Fin 0 → Fin S24.rank)
  bitsLt_bf16_f32 : FTy.bits .bf16 < FTy.bits .f32
  bcast_S_S12288x1024 : S_.BroadcastsInDim S12288x1024 (![] : Fin 0 → Fin S12288x1024.rank)
  shapeCasts_S8x4096_S8x1x4096 : S8x4096.ShapeCasts S8x1x4096
  numel1_S1 : S1.numel = 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  bcast_S_S8192x4096 : S_.BroadcastsInDim S8192x4096 (![] : Fin 0 → Fin S8192x4096.rank)
  gather_S8192_S8192x1_S8192_n_0_n_n_0_1_1_wf : GatherDims.WF S8192 S8192x1 S8192 [] [0] [] [0] [] 1 ![1]
  gather_S8_S8192x1_S8192_n_0_n_n_0_1_1_wf : GatherDims.WF S8 S8192x1 S8192 [] [0] [] [0] [] 1 ![1]
  gather_S8192x1024_S8192x1_S8192x1024_1_0_n_n_0_1_11024_wf : GatherDims.WF S8192x1024 S8192x1 S8192x1024 [1] [0] [] [0] [] 1 ![1, 1024]
  scatter_S12288x1024_S8192x1_S8192x1024_1_0_0_1_wf : ScatterDims.WF S12288x1024 S8192x1 S8192x1024 [1] [0] [0] 1
  dot_S512x1024_S1024x2048_S512x2048_1_0_0_1_n_n_wf : DotDims.WF S512x1024 S1024x2048 S512x2048 [1] [0] [0] [1] [] []
  gather_S12288x4096_S8192x1_S8192x4096_1_0_n_n_0_1_14096_wf : GatherDims.WF S12288x4096 S8192x1 S8192x4096 [1] [0] [] [0] [] 1 ![1, 4096]
  scatter_S8192x4096_S8192x1_S8192x4096_1_0_0_1_wf : ScatterDims.WF S8192x4096 S8192x1 S8192x4096 [1] [0] [0] 1
  hrank0 : 0 < grid0.rank
  k0_off1_inb : ∀ i : grid0.Coords, ∀ a, (k0_off1 i) a + S1.size a ≤ S24.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S12288x1024.size a
  hwx0_0 : ∀ i : grid0.Coords, EltTy.bits .bf16 = 32 ∨ (Rect.block (s := S12288x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S12288x4096.size a
  hwx0_3 : ∀ i : grid0.Coords, EltTy.bits .f32 = 32 ∨ (Rect.block (s := S12288x4096) S512x2048.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S8_S8192x1_S8192_n_0_n_n_0_1_1 : GatherDims S8 S8192x1 S8192 where
  offsetDims := []
  collapsedSliceDims := [0]
  operandBatchingDims := []
  startIndicesBatchingDims := []
  startIndexMap := [0]
  indexVectorDim := 1
  sliceSizes := ![1]
  wf := gather_S8_S8192x1_S8192_n_0_n_n_0_1_1_wf
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def scatter_S12288x1024_S8192x1_S8192x1024_1_0_0_1 : ScatterDims S12288x1024 S8192x1 S8192x1024 where
  updateWindowDims := [1]
  insertedWindowDims := [0]
  scatterDimsToOperandDims := [0]
  indexVectorDim := 1
  wf := scatter_S12288x1024_S8192x1_S8192x1024_1_0_0_1_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def gather_S12288x4096_S8192x1_S8192x4096_1_0_n_n_0_1_14096 : GatherDims S12288x4096 S8192x1 S8192x4096 where
  offsetDims := [1]
  collapsedSliceDims := [0]
  operandBatchingDims := []
  startIndicesBatchingDims := []
  startIndexMap := [0]
  indexVectorDim := 1
  sliceSizes := ![1, 4096]
  wf := gather_S12288x4096_S8192x1_S8192x4096_1_0_n_n_0_1_14096_wf
def scatter_S8192x4096_S8192x1_S8192x4096_1_0_0_1 : ScatterDims S8192x4096 S8192x1 S8192x4096 where
  updateWindowDims := [1]
  insertedWindowDims := [0]
  scatterDimsToOperandDims := [0]
  indexVectorDim := 1
  wf := scatter_S8192x4096_S8192x1_S8192x4096_1_0_0_1_wf

abbrev spec0_0 : Pipeline.WinSpec sig grid0.rank :=
  Pipeline.WinSpec.ofSpec (Memref.whole main_v70) S512x1024.size reads0_0 false false 2 stage0_0 sem0_0 nbuf0_0 hstage0_0

abbrev spec0_1 : Pipeline.WinSpec sig grid0.rank :=
  Pipeline.WinSpec.ofSpec (Memref.whole main_v71) S1x1024x2048.size reads0_1 false false 2 stage0_1 sem0_1 nbuf0_1 hstage0_1

abbrev spec0_2 : Pipeline.WinSpec sig grid0.rank :=
  Pipeline.WinSpec.ofSpec (Memref.whole main_v72) S1x1x2048.size reads0_2 false false 2 stage0_2 sem0_2 nbuf0_2 hstage0_2

abbrev spec0_3 : Pipeline.WinSpec sig grid0.rank :=
  Pipeline.WinSpec.ofSpec (Memref.whole main_v73) S512x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x2048.size a ≤ S8x1024x4096.size a), EltTy.bits .bf16 = 32 ∨ (Rect.block (s := S8x1024x4096) S1x1024x2048.size (cc0_transform_1 k0_off1_inb numel1_S1 pf i) h).WholeWords (EltTy.packing .bf16)) ∧
  (∀ i : grid0.Coords, ∃ h : (∀ a, (cc0_transform_2 k0_off1_inb numel1_S1 pf i a + 1) * S1x1x2048.size a ≤ S8x1x4096.size a), EltTy.bits .f32 = 32 ∨ (Rect.block (s := S8x1x4096) S1x1x2048.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8192x1024 : Shape := ⟨2, ![8192, 1024]⟩
abbrev S8192 : Shape := ⟨1, ![8192]⟩
abbrev S8x1024x4096 : Shape := ⟨3, ![8, 1024, 4096]⟩
abbrev S8x4096 : Shape := ⟨2, ![8, 4096]⟩
abbrev S_ : Shape := ⟨0, ![]⟩
abbrev S8192x4096 : Shape := ⟨2, ![8192, 4096]⟩
abbrev S8192x1 : Shape := ⟨2, ![8192, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩

abbrev nBuf : Space → Nat
  | .hbm => 182
  | .vmem => 0
  | .smem => 0
  | _ => 0

abbrev hbmTy0_0 (i : Nat) : BufTy := match i % 128 with
  | 0 => ⟨S8192x1024, .f32⟩
  | 1 => ⟨S8192, .i32⟩
  | 2 => ⟨S8x1024x4096, .f32⟩
  | 3 => ⟨S8x4096, .f32⟩
  | 4 => ⟨S_, .f32⟩
  | 5 => ⟨S8192x4096, .f32⟩
  | 6 => ⟨S_, .i32⟩
  | 7 => ⟨S8192, .i32⟩
  | 8 => ⟨S8192, .i1⟩
  | 9 => ⟨S8192x1, .i1⟩
  | 10 => ⟨S_, .i32⟩
  | 11 => ⟨S_, .f32⟩
  | 12 => ⟨S8192x1024, .i1⟩
  | 13 => ⟨S8192x1024, .f32⟩
  | 14 => ⟨S8192x1024, .f32⟩
  | 15 => ⟨S1x1024x4096, .f32⟩
  | 16 => ⟨S1024x4096, .f32⟩
  | 17 => ⟨S8192x4096, .f32⟩
  | 18 => ⟨S8192x4096, .f32⟩
  | 19 => ⟨S1x4096, .f32⟩
  | 20 => ⟨S4096, .f32⟩
  | 21 => ⟨S_, .i32⟩
  | 22 => ⟨S_, .f32⟩
  | 23 => ⟨S8192x4096, .i1⟩
  | 24 => ⟨S8192x4096, .f32⟩
  | 25 => ⟨S8192x4096, .f32⟩
  | 26 => ⟨S8192x4096, .f32⟩
  | 27 => ⟨S8192x4096, .f32⟩
  | 28 => ⟨S_, .i32⟩
  | 29 => ⟨S8192, .i32⟩
  | 30 => ⟨S8192, .i1⟩
  | 31 => ⟨S8192x1, .i1⟩
  | 32 => ⟨S_, .i32⟩
  | 33 => ⟨S_, .f32⟩
  | 34 => ⟨S8192x1024, .i1⟩
  | 35 => ⟨S8192x1024, .f32⟩
  | 36 => ⟨S8192x1024, .f32⟩
  | 37 => ⟨S1x1024x4096, .f32⟩
  | 38 => ⟨S1024x4096, .f32⟩
  | 39 => ⟨S8192x4096, .f32⟩
  | 40 => ⟨S8192x4096, .f32⟩
  | 41 => ⟨S1x4096, .f32⟩
  | 42 => ⟨S4096, .f32⟩
  | 43 => ⟨S_, .i32⟩
  | 44 => ⟨S_, .f32⟩
  | 45 => ⟨S8192x4096, .i1⟩
  | 46 => ⟨S8192x4096, .f32⟩
  | 47 => ⟨S8192x4096, .f32⟩
  | 48 => ⟨S8192x4096, .f32⟩
  | 49 => ⟨S8192x4096, .f32⟩
  | 50 => ⟨S_, .i32⟩
  | 51 => ⟨S8192, .i32⟩
  | 52 => ⟨S8192, .i1⟩
  | 53 => ⟨S8192x1, .i1⟩
  | 54 => ⟨S_, .i32⟩
  | 55 => ⟨S_, .f32⟩
  | 56 => ⟨S8192x1024, .i1⟩
  | 57 => ⟨S8192x1024, .f32⟩
  | 58 => ⟨S8192x1024, .f32⟩
  | 59 => ⟨S1x1024x4096, .f32⟩
  | 60 => ⟨S1024x4096, .f32⟩
  | 61 => ⟨S8192x4096, .f32⟩
  | 62 => ⟨S8192x4096, .f32⟩
  | 63 => ⟨S1x4096, .f32⟩
  | 64 => ⟨S4096, .f32⟩
  | 65 => ⟨S_, .i32⟩
  | 66 => ⟨S_, .f32⟩
  | 67 => ⟨S8192x4096, .i1⟩
  | 68 => ⟨S8192x4096, .f32⟩
  | 69 => ⟨S8192x4096, .f32⟩
  | 70 => ⟨S8192x4096, .f32⟩
  | 71 => ⟨S8192x4096, .f32⟩
  | 72 => ⟨S_, .i32⟩
  | 73 => ⟨S8192, .i32⟩
  | 74 => ⟨S8192, .i1⟩
  | 75 => ⟨S8192x1, .i1⟩
  | 76 => ⟨S_, .i32⟩
  | 77 => ⟨S_, .f32⟩
  | 78 => ⟨S8192x1024, .i1⟩
  | 79 => ⟨S8192x1024, .f32⟩
  | 80 => ⟨S8192x1024, .f32⟩
  | 81 => ⟨S1x1024x4096, .f32⟩
  | 82 => ⟨S1024x4096, .f32⟩
  | 83 => ⟨S8192x4096, .f32⟩
  | 84 => ⟨S8192x4096, .f32⟩
  | 85 => ⟨S1x4096, .f32⟩
  | 86 => ⟨S4096, .f32⟩
  | 87 => ⟨S_, .i32⟩
  | 88 => ⟨S_, .f32⟩
  | 89 => ⟨S8192x4096, .i1⟩
  | 90 => ⟨S8192x4096, .f32⟩
  | 91 => ⟨S8192x4096, .f32⟩
  | 92 => ⟨S8192x4096, .f32⟩
  | 93 => ⟨S8192x4096, .f32⟩
  | 94 => ⟨S_, .i32⟩
  | 95 => ⟨S8192, .i32⟩
  | 96 => ⟨S8192, .i1⟩
  | 97 => ⟨S8192x1, .i1⟩
  | 98 => ⟨S_, .i32⟩
  | 99 => ⟨S_, .f32⟩
  | 100 => ⟨S8192x1024, .i1⟩
  | 101 => ⟨S8192x1024, .f32⟩
  | 102 => ⟨S8192x1024, .f32⟩
  | 103 => ⟨S1x1024x4096, .f32⟩
  | 104 => ⟨S1024x4096, .f32⟩
  | 105 => ⟨S8192x4096, .f32⟩
  | 106 => ⟨S8192x4096, .f32⟩
  | 107 => ⟨S1x4096, .f32⟩
  | 108 => ⟨S4096, .f32⟩
  | 109 => ⟨S_, .i32⟩
  | 110 => ⟨S_, .f32⟩
  | 111 => ⟨S8192x4096, .i1⟩
  | 112 => ⟨S8192x4096, .f32⟩
  | 113 => ⟨S8192x4096, .f32⟩
  | 114 => ⟨S8192x4096, .f32⟩
  | 115 => ⟨S8192x4096, .f32⟩
  | 116 => ⟨S_, .i32⟩
  | 117 => ⟨S8192, .i32⟩
  | 118 => ⟨S8192, .i1⟩
  | 119 => ⟨S8192x1, .i1⟩
  | 120 => ⟨S_, .i32⟩
  | 121 => ⟨S_, .f32⟩
  | 122 => ⟨S8192x1024, .i1⟩
  | 123 => ⟨S8192x1024, .f32⟩
  | 124 => ⟨S8192x1024, .f32⟩
  | 125 => ⟨S1x1024x4096, .f32⟩
  | 126 => ⟨S1024x4096, .f32⟩
  | 127 => ⟨S8192x4096, .f32⟩
  | _ => ⟨S8192x1024, .f32⟩

abbrev hbmTy0_1 (i : Nat) : BufTy := match i % 128 with
  | 0 => ⟨S8192x4096, .f32⟩
  | 1 => ⟨S1x4096, .f32⟩
  | 2 => ⟨S4096, .f32⟩
  | 3 => ⟨S_, .i32⟩
  | 4 => ⟨S_, .f32⟩
  | 5 => ⟨S8192x4096, .i1⟩
  | 6 => ⟨S8192x4096, .f32⟩
  | 7 => ⟨S8192x4096, .f32⟩
  | 8 => ⟨S8192x4096, .f32⟩
  | 9 => ⟨S8192x4096, .f32⟩
  | 10 => ⟨S_, .i32⟩
  | 11 => ⟨S8192, .i32⟩
  | 12 => ⟨S8192, .i1⟩
  | 13 => ⟨S8192x1, .i1⟩
  | 14 => ⟨S_, .i32⟩
  | 15 => ⟨S_, .f32⟩
  | 16 => ⟨S8192x1024, .i1⟩
  | 17 => ⟨S8192x1024, .f32⟩
  | 18 => ⟨S8192x1024, .f32⟩
  | 19 => ⟨S1x1024x4096, .f32⟩
  | 20 => ⟨S1024x4096, .f32⟩
  | 21 => ⟨S8192x4096, .f32⟩
  | 22 => ⟨S8192x4096, .f32⟩
  | 23 => ⟨S1x4096, .f32⟩
  | 24 => ⟨S4096, .f32⟩
  | 25 => ⟨S_, .i32⟩
  | 26 => ⟨S_, .f32⟩
  | 27 => ⟨S8192x4096, .i1⟩
  | 28 => ⟨S8192x4096, .f32⟩
  | 29 => ⟨S8192x4096, .f32⟩
  | 30 => ⟨S8192x4096, .f32⟩
  | 31 => ⟨S8192x4096, .f32⟩
  | 32 => ⟨S_, .i32⟩
  | 33 => ⟨S8192, .i32⟩
  | 34 => ⟨S8192, .i1⟩
  | 35 => ⟨S8192x1, .i1⟩
  | 36 => ⟨S_, .i32⟩
  | 37 => ⟨S_, .f32⟩
  | 38 => ⟨S8192x1024, .i1⟩
  | 39 => ⟨S8192x1024, .f32⟩
  | 40 => ⟨S8192x1024, .f32⟩
  | 41 => ⟨S1x1024x4096, .f32⟩
  | 42 => ⟨S1024x4096, .f32⟩
  | 43 => ⟨S8192x4096, .f32⟩
  | 44 => ⟨S8192x4096, .f32⟩
  | 45 => ⟨S1x4096, .f32⟩
  | 46 => ⟨S4096, .f32⟩
  | 47 => ⟨S_, .i32⟩
  | 48 => ⟨S_, .f32⟩
  | 49 => ⟨S8192x4096, .i1⟩
  | 50 => ⟨S8192x4096, .f32⟩
  | 51 => ⟨S8192x4096, .f32⟩
  | 52 => ⟨S8192x4096, .f32⟩
  | 53 => ⟨S8192x4096, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_call5_v0 : Ref sig .tc := ⟨.hbm, 66, rfl⟩
abbrev main_call5_v1 : Ref sig .tc := ⟨.hbm, 67, rfl⟩
abbrev main_call5_v2 : Ref sig .tc := ⟨.hbm, 68, rfl⟩
abbrev main_call5_v3 : Ref sig .tc := ⟨.hbm, 69, rfl⟩
abbrev main_v35 : Ref sig .tc := ⟨.hbm, 70, rfl⟩
abbrev main_v36 : Ref sig .tc := ⟨.hbm, 71, rfl⟩
abbrev main_c_8 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_9 : Ref sig .tc := ⟨.hbm, 76, rfl⟩
abbrev main_call6_v0 : Ref sig .tc := ⟨.hbm, 77, rfl⟩
abbrev main_call6_v1 : Ref sig .tc := ⟨.hbm, 78, rfl⟩
abbrev main_call6_v2 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_10 : Ref sig .tc := ⟨.hbm, 87, rfl⟩
abbrev main_call7_v0 : Ref sig .tc := ⟨.hbm, 88, rfl⟩
abbrev main_call7_v1 : Ref sig .tc := ⟨.hbm, 89, rfl⟩
abbrev main_call7_v2 : Ref sig .tc := ⟨.hbm, 90, rfl⟩
abbrev main_call7_v3 : Ref sig .tc := ⟨.hbm, 91, rfl⟩
abbrev main_v47 : Ref sig .tc := ⟨.hbm, 92, rfl⟩
abbrev main_v48 : Ref sig .tc := ⟨.hbm, 93, rfl⟩
abbrev main_c_11 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_c_12 : Ref sig .tc := ⟨.hbm, 98, rfl⟩
abbrev main_call8_v0 : Ref sig .tc := ⟨.hbm, 99, rfl⟩
abbrev main_call8_v1 : Ref sig .tc := ⟨.hbm, 100, rfl⟩
abbrev main_call8_v2 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_13 : Ref sig .tc := ⟨.hbm, 109, rfl⟩
abbrev main_call9_v0 : Ref sig .tc := ⟨.hbm, 110, rfl⟩
abbrev main_call9_v1 : Ref sig .tc := ⟨.hbm, 111, rfl⟩
abbrev main_call9_v2 : Ref sig .tc := ⟨.hbm, 112, rfl⟩
abbrev main_call9_v3 : Ref sig .tc := ⟨.hbm, 113, rfl⟩
abbrev main_v59 : Ref sig .tc := ⟨.hbm, 114, rfl⟩
abbrev main_v60 : Ref sig .tc := ⟨.hbm, 115, rfl⟩
abbrev main_c_14 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_c_15 : Ref sig .tc := ⟨.hbm, 120, rfl⟩
abbrev main_call10_v0 : Ref sig .tc := ⟨.hbm, 121, rfl⟩
abbrev main_call10_v1 : Ref sig .tc := ⟨.hbm, 122, rfl⟩
abbrev main_call10_v2 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_c_16 : Ref sig .tc := ⟨.hbm, 131, rfl⟩
abbrev main_call11_v0 : Ref sig .tc := ⟨.hbm, 132, rfl⟩
abbrev main_call11_v1 : Ref sig .tc := ⟨.hbm, 133, rfl⟩
abbrev main_call11_v2 : Ref sig .tc := ⟨.hbm, 134, rfl⟩
abbrev main_call11_v3 : Ref sig .tc := ⟨.hbm, 135, rfl⟩
abbrev main_v71 : Ref sig .tc := ⟨.hbm, 136, rfl⟩
abbrev main_v72 : Ref sig .tc := ⟨.hbm, 137, rfl⟩
abbrev main_c_17 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_c_18 : Ref sig .tc := ⟨.hbm, 142, rfl⟩
abbrev main_call12_v0 : Ref sig .tc := ⟨.hbm, 143, rfl⟩
abbrev main_call12_v1 : Ref sig .tc := ⟨.hbm, 144, rfl⟩
abbrev main_call12_v2 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_c_19 : Ref sig .tc := ⟨.hbm, 153, rfl⟩
abbrev main_call13_v0 : Ref sig .tc := ⟨.hbm, 154, rfl⟩
abbrev main_call13_v1 : Ref sig .tc := ⟨.hbm, 155, rfl⟩
abbrev main_call13_v2 : Ref sig .tc := ⟨.hbm, 156, rfl⟩
abbrev main_call13_v3 : Ref sig .tc := ⟨.hbm, 157, rfl⟩
abbrev main_v83 : Ref sig .tc := ⟨.hbm, 158, rfl⟩
abbrev main_v84 : Ref sig .tc := ⟨.hbm, 159, rfl⟩
abbrev main_c_20 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_c_21 : Ref sig .tc := ⟨.hbm, 164, rfl⟩
abbrev main_call14_v0 : Ref sig .tc := ⟨.hbm, 165, rfl⟩
abbrev main_call14_v1 : Ref sig .tc := ⟨.hbm, 166, rfl⟩
abbrev main_call14_v2 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_c_22 : Ref sig .tc := ⟨.hbm, 175, rfl⟩
abbrev main_call15_v0 : Ref sig .tc := ⟨.hbm, 176, rfl⟩
abbrev main_call15_v1 : Ref sig .tc := ⟨.hbm, 177, rfl⟩
abbrev main_call15_v2 : Ref sig .tc := ⟨.hbm, 178, rfl⟩
abbrev main_call15_v3 : Ref sig .tc := ⟨.hbm, 179, rfl⟩
abbrev main_v95 : Ref sig .tc := ⟨.hbm, 180, rfl⟩
abbrev main_v96 : Ref sig .tc := ⟨.hbm, 181, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  slices_S8x1024x4096_S1x1024x4096_0_0_0 : S8x1024x4096.Slices ![0, 0, 0] S1x1024x4096
  shapeCasts_S1x1024x4096_S1024x4096 : S1x1024x4096.ShapeCasts S1024x4096
  slices_S8x4096_S1x4096_0_0 : S8x4096.Slices ![0, 0] S1x4096
  shapeCasts_S1x4096_S4096 : S1x4096.ShapeCasts S4096
  bcast_S8192x1_S8192x4096_0_1 : S8192x1.BroadcastsInDim S8192x4096 (![0, 1] : Fin 2 → Fin S8192x4096.rank)
  bcast_S4096_S8192x4096_1 : S4096.BroadcastsInDim S8192x4096 (![1] : Fin 1 → Fin S8192x4096.rank)
  slices_S8x1024x4096_S1x1024x4096_1_0_0 : S8x1024x4096.Slices ![1, 0, 0] S1x1024x4096
  slices_S8x4096_S1x4096_1_0 : S8x4096.Slices ![1, 0] S1x4096
  slices_S8x1024x4096_S1x1024x4096_2_0_0 : S8x1024x4096.Slices ![2, 0, 0] S1x1024x4096
  slices_S8x4096_S1x4096_2_0 : S8x4096.Slices ![2, 0] S1x4096
  slices_S8x1024x4096_S1x1024x4096_3_0_0 : S8x1024x4096.Slices ![3, 0, 0] S1x1024x4096
  slices_S8x4096_S1x4096_3_0 : S8x4096.Slices ![3, 0] S1x4096
  slices_S8x1024x4096_S1x1024x4096_4_0_0 : S8x1024x4096.Slices ![4, 0, 0] S1x1024x4096
  slices_S8x4096_S1x4096_4_0 : S8x4096.Slices ![4, 0] S1x4096
  slices_S8x1024x4096_S1x1024x4096_5_0_0 : S8x1024x4096.Slices ![5, 0, 0] S1x1024x4096
  slices_S8x4096_S1x4096_5_0 : S8x4096.Slices ![5, 0] S1x4096
  slices_S8x1024x4096_S1x1024x4096_6_0_0 : S8x1024x4096.Slices ![6, 0, 0] S1x1024x4096
  slices_S8x4096_S1x4096_6_0 : S8x4096.Slices ![6, 0] S1x4096
  slices_S8x1024x4096_S1x1024x4096_7_0_0 : S8x1024x4096.Slices ![7, 0, 0] S1x1024x4096
  slices_S8x4096_S1x4096_7_0 : S8x4096.Slices ![7, 0] S1x4096
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.PrefixWords.lean ====
/-
  The routing tables the program computes on the host before the kernel runs, as functions of the group words.

  From `gi` (one 32-bit word per row): the rows per group (`counts`), the tiles of 512 rows each group needs
  (`groupTiles`, a floor division of count + 511 by 512 in jnp's lowered form), the running totals before each group
  (`cumTiles`, `cumCount`: an inclusive prefix sum less the entry itself), the stable argsort of the rows by group
  (`perm`), the sorted groups (`sortedG`), each sorted row's padded position (`targetRow`: its group's first tile
  times 512 plus its offset inside the group), the group of each of the 24 tiles (`tileGroup`: how many groups
  start at or before the tile, less one, clipped to 0 … 7), and the padded input (`paddedX`: the sorted rows
  written at their padded positions into zeros). `wrap N` is jnp's normalisation of a possibly negative index.
-/
import proofs.«409940_j76802605187558_3_alg».proof.KernelIdeal
import proofs.«409940_j76802605187558_3_alg».proof.Proof.Gen.KernelIdeal

noncomputable section

namespace Cert.KernelIdeal.Words

open Idealize.ShloMosaic Cert.KernelIdeal Cert.KernelIdeal.Gen

variable {F : FTy → Type} [FloatOps F]

def zero8192 : IVec S8192 32 := broadcastInDim S8192 ![] bcast_S_S8192 (constantI S_ 32 0#32)

/-- jnp's index normalisation on 8192 positions: a negative word has `N` added. -/
def wrap (N : BitVec 32) (x : IVec S8192 32) : IVec S8192 32 :=
  select (cmpi .slt x zero8192) (addi x (broadcastInDim S8192 ![] bcast_S_S8192 (constantI S_ 32 N))) x

/-- A vector of 8192 words as the [8192 × 1] start-index column. -/
def col (x : IVec S8192 32) : IVec S8192x1 32 := broadcastInDim S8192x1 ![0] bcast_S8192_S8192x1_0 x

def counts (gi : IVec S8192 32) : IVec S8 32 :=
  Host.reduce IntOp.addi
    (extui 32
      (cmpi .eq
        (broadcastInDim S8192x8 ![0, 1] bcast_S8192x1_S8192x8_0_1 (broadcastInDim S8192x1 ![0] bcast_S8192_S8192x1_0 gi))
        (broadcastInDim S8192x8 ![0, 1] bcast_S1x8_S8192x8_0_1 (broadcastInDim S1x8 ![1] bcast_S8_S1x8_1 (iotaInDim S8 32 0))))
      natLt_1_32)
    (constantI S_ 32 0#32) reducesTo_S8192x8_S8_d0 h_S_

/-- count + 512 − 1, the dividend of the tile count. -/
def tilesArg (gi : IVec S8192 32) : IVec S8 32 :=
  subi (addi (counts gi) (broadcastInDim S8 ![] bcast_S_S8 (constantI S_ 32 512#32)))
    (broadcastInDim S8 ![] bcast_S_S8 (constantI S_ 32 1#32))

/-- jnp's lowered `floor_divide` by a scalar word: the truncated quotient, less one where the signs differ and the
    remainder is not zero. -/
def floorDiv (x : IVec S8 32) (d : IVec S_ 32) : IVec S8 32 :=
  select
    (andi
      (cmpi .ne (signi x) (broadcastInDim S8 ![] bcast_S_S8 (signi (id d))))
      (cmpi .ne (Host.remsi x (broadcastInDim S8 ![] bcast_S_S8 (id d))) (broadcastInDim S8 ![] bcast_S_S8 (constantI S_ 32 0#32))))
    (subi (Host.divsi x (broadcastInDim S8 ![] bcast_S_S8 (id d))) (broadcastInDim S8 ![] bcast_S_S8 (constantI S_ 32 1#32)))
    (Host.divsi x (broadcastInDim S8 ![] bcast_S_S8 (id d)))

def groupTiles (gi : IVec S8192 32) : IVec S8 32 := floorDiv (tilesArg gi) (constantI S_ 32 512#32)

/-- jnp's `cumsum` of eight words: a window of eight padded seven low. -/
def cumsum8 (x : IVec S8 32) : IVec S8 32 :=
  Host.reduceWindow IntOp.addi ![8] ![1] ![7] ![0] x (broadcastInDim S_ ![] bcast_S_S_ (constantI S_ 32 0#32))
    reduceWindows_S8_S8_w8s1p7_0 h_S_

def cumTiles (gi : IVec S8192 32) : IVec S8 32 := subi (cumsum8 (groupTiles gi)) (groupTiles gi)
def cumCount (gi : IVec S8192 32) : IVec S8 32 := subi (cumsum8 (counts gi)) (counts gi)

def perm (gi : IVec S8192 32) : IVec S8192 32 :=
  (Host.sort2 S8192 0 comparator_i32_i32_d0 gi (iotaInDim S8192 32 0)).2

def sortedG (gi : IVec S8192 32) : IVec S8192 32 :=
  Host.gather gather_S8192_S8192x1_S8192_n_0_n_n_0_1_1 gi (col (wrap 8192#32 (perm gi)))

def rank (gi : IVec S8192 32) : IVec S8192 32 :=
  subi (iotaInDim S8192 32 0) (Host.gather gather_S8_S8192x1_S8192_n_0_n_n_0_1_1 (cumCount gi) (col (wrap 8#32 (sortedG gi))))

def targetRow (gi : IVec S8192 32) : IVec S8192 32 :=
  addi
    (muli (Host.gather gather_S8_S8192x1_S8192_n_0_n_n_0_1_1 (cumTiles gi) (col (wrap 8#32 (sortedG gi))))
      (broadcastInDim S8192 ![] bcast_S_S8192 (constantI S_ 32 512#32)))
    (rank gi)

/-- How many groups start at or before each tile, less one. -/
def tileStarts (gi : IVec S8192 32) : IVec S24 32 :=
  subi
    (Host.reduce IntOp.addi
      (extui 32
        (cmpi .sge
          (broadcastInDim S24x8 ![0, 1] bcast_S24x1_S24x8_0_1 (broadcastInDim S24x1 ![0] bcast_S24_S24x1_0 (iotaInDim S24 32 0)))
          (broadcastInDim S24x8 ![0, 1] bcast_S1x8_S24x8_0_1 (broadcastInDim S1x8 ![1] bcast_S8_S1x8_1 (cumTiles gi))))
        natLt_1_32)
      (constantI S_ 32 0#32) reducesTo_S24x8_S24_d1 h_S_)
    (broadcastInDim S24 ![] bcast_S_S24 (constantI S_ 32 1#32))

/-- jnp's `clip` to 0 … 7. -/
def clip07 (z : IVec S24 32) : IVec S24 32 :=
  minsi (broadcastInDim S24 ![] bcast_S_S24 (id (constantI S_ 32 7#32)))
    (maxsi (broadcastInDim S24 ![] bcast_S_S24 (id (constantI S_ 32 0#32))) z)

def tileGroup (gi : IVec S8192 32) : IVec S24 32 := clip07 (tileStarts gi)

/-- The rows in sorted order, rounded to bf16. -/
def sortedX (x : FVec F S8192x1024 .f32) (gi : IVec S8192 32) : FVec F S8192x1024 .bf16 :=
  truncf .bf16 (Host.gather gather_S8192x1024_S8192x1_S8192x1024_1_0_n_n_0_1_11024 x (col (wrap 8192#32 (perm gi)))) bitsLt_bf16_f32

def paddedX (x : FVec F S8192x1024 .f32) (gi : IVec S8192 32) : FVec F S12288x1024 .bf16 :=
  Host.scatter scatter_S12288x1024_S8192x1_S8192x1024_1_0_0_1 (fun _ b => b)
    (broadcastInDim S12288x1024 ![] bcast_S_S12288x1024 (constant S_ .bf16 0x0000#16))
    (col (wrap 12288#32 (targetRow gi))) (sortedX x gi)

/-- The result rows: the padded output read at the padded positions, written back at the original row numbers. -/
def unpermuted (po : FVec F S12288x4096 .f32) (gi : IVec S8192 32) : FVec F S8192x4096 .f32 :=
  Host.scatter scatter_S8192x4096_S8192x1_S8192x4096_1_0_0_1 (fun _ b => b)
    (broadcastInDim S8192x4096 ![] bcast_S_S8192x4096 (constant S_ .f32 0x00000000#32))
    (col (wrap 8192#32 (perm gi)))
    (Host.gather gather_S12288x4096_S8192x1_S8192x4096_1_0_n_n_0_1_14096 po (col (wrap 12288#32 (targetRow gi))))

end Cert.KernelIdeal.Words

end
-- ==== Proof.PrefixChain.lean ====
/-
  What the kernel's region finds in the buffers the host lines before it wrote, as the routing functions of the
  argument arrays: the tile table, the sorted rows' padded positions, the sorting permutation, the padded input, the
  weights rounded to bf16 and the bias with a unit axis inserted.
-/
import proofs.«409940_j76802605187558_3_alg».proof.Proof.Gen.KernelIdeal.Frame
import proofs.«409940_j76802605187558_3_alg».proof.Proof.PrefixWords
import Idealize.ShloMosaic.Lib.StableHlo.Run

set_option maxRecDepth 65536
set_option maxHeartbeats 2000000

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Words

variable {F : FTy → Type} [FloatOps F]
variable (m : (ℓ : Loc nD τ sig) → Buf (Elt F) ℓ)

/-- The argument arrays as launched. -/
abbrev giOf (c : Dev nD) : IVec S8192 32 := m ((c : Thread nD τ).loc main_arg1)
abbrev xOf (c : Dev nD) : FVec F S8192x1024 .f32 := m ((c : Thread nD τ).loc main_arg0)
abbrev wOf (c : Dev nD) : FVec F S8x1024x4096 .f32 := m ((c : Thread nD τ).loc main_arg2)
abbrev bOf (c : Dev nD) : FVec F S8x4096 .f32 := m ((c : Thread nD τ).loc main_arg3)

theorem tileTable_eq (c : Dev nD) : (V m c main_v54 : IVec S24 32) = tileGroup (giOf m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]
  unfold tileGroup clip07 tileStarts cumTiles groupTiles floorDiv tilesArg cumsum8 counts
  try rfl

theorem targetRow_eq (c : Dev nD) : (V m c main_v43 : IVec S8192 32) = targetRow (giOf m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]
  unfold targetRow rank sortedG perm cumTiles cumCount groupTiles floorDiv tilesArg cumsum8 counts col wrap zero8192
  try rfl

theorem perm_eq (c : Dev nD) : (V m c main_v17 : IVec S8192 32) = perm (giOf m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]
  unfold perm
  try rfl

theorem paddedX_eq (c : Dev nD) : (V m c main_v70 : FVec F S12288x1024 .bf16) = paddedX (xOf m c) (giOf m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]
  unfold paddedX sortedX targetRow rank sortedG perm cumTiles cumCount groupTiles floorDiv tilesArg cumsum8 counts col wrap zero8192
  try rfl

theorem wBf_eq (c : Dev nD) : (V m c main_v71 : FVec F S8x1024x4096 .bf16) = truncf .bf16 (wOf m c) bitsLt_bf16_f32 := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]

  try rfl

theorem b3_eq (c : Dev nD) : (V m c main_v72 : FVec F S8x1x4096 .f32) = shapeCast S8x1x4096 (bOf m c) shapeCasts_S8x4096_S8x1x4096 := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]

  try rfl

end Cert.KernelIdeal.Chain

end
-- ==== Proof.Tail.lean ====
/-
  The kernel program's run with its result named. After the region the host reads the padded output at the sorted
  rows' padded positions and writes those rows back at their original row numbers; so the result buffer ends at
  `unpermuted` of the padded output array the region leaves, and the argument arrays end as launched.
-/
import proofs.«409940_j76802605187558_3_alg».proof.Proof.PrefixChain
import Idealize.ShloMosaic.Lib.ValueIdx
import Idealize.ShloMosaic.Lib.SortFacts
import Idealize.ShloMosaic.Lib.Pipeline.Value

set_option maxRecDepth 1000000
set_option maxHeartbeats 4000000

noncomputable section

namespace Cert.KernelIdeal.Tail

open Idealize.ShloMosaic Idealize.ShloMosaic.TcCoe Idealize.ShloMosaic.ValueIdx Idealize.SL.Sem Idealize.ShloMosaic.StableHlo
open Cert.KernelIdeal Cert.KernelIdeal.Gen Cert.KernelIdeal.Words Cert.KernelIdeal.Chain
open Idealize.ShloMosaic.Pipeline (Dat Cfg Window)

variable (m : (ℓ : Loc nD τ sig) → Buf (Elt Ideal) ℓ) (ρ : Dev nD → PrngReg)

/-- The host lines after the region as one function of the padded output, the sorted rows' padded positions and the
    sorting permutation: the rows gathered at the (normalised) padded positions, scattered into zeros at the
    (normalised) original row numbers. -/
private def tailFn (po : FVec Ideal S12288x4096 .f32) (tr pm : IVec S8192 32) : FVec Ideal S8192x4096 .f32 :=
  Host.scatter scatter_S8192x4096_S8192x1_S8192x4096_1_0_0_1 (fun _ b => b)
    (broadcastInDim S8192x4096 ![] bcast_S_S8192x4096 (constant S_ .f32 0x00000000#32))
    (col (wrap 8192#32 pm))
    (Host.gather gather_S12288x4096_S8192x1_S8192x4096_1_0_n_n_0_1_14096 po (col (wrap 12288#32 tr)))

/-- `unpermuted` is that function at the padded positions and the permutation the group words determine. -/
private theorem unpermuted_eq (po : FVec Ideal S12288x4096 .f32) (gi : IVec S8192 32) :
    unpermuted (F := Ideal) po gi = tailFn po (targetRow gi) (perm gi) := rfl

/-- The result buffer after the host lines that follow the region, for ANY admissible table contents, proof data and
    region-entry contents: the tail function of the output array the region leaves (the proof data's array 3 after
    the last point) and of the two index buffers, which are no array of the pipeline and so still hold their
    region-entry contents. -/
private theorem tail_gen (a : (pcfg0 (F := Ideal)).Adm)
    (dats : (p : Fin 1) → (c : Dev nD) → Dat τ (Elt Ideal) Unit ℕ (UR sig nD τ) ℕ ((Pipeline.pin pcfgs fun _ => a) p) c)
    (V₀ : Dev nD → Valuation τ sig (Elt Ideal)) (c : Dev nD) :
    Pipeline.afterTail pcfgs (fun _ => a) dats 0 V₀ [hostOps1] c main_v88
      = tailFn ((dats 0 c).arrAt 3 (cfg0 a).N) (V₀ c (Proc.devRef .tc main_v43)) (V₀ c (Proc.devRef .tc main_v17)) := by
  unfold Pipeline.afterTail
  simp only [hostOps1, List.flatten_cons, List.flatten_nil, List.append_nil, List.cons_append, List.nil_append]
  after_results_simp
  have h43 := Pipeline.withArrays_of_ne (Pipeline.pin pcfgs (fun _ => a) 0).spec c (V₀ c) (fun w => (dats 0 c).arrAt w (Pipeline.pin pcfgs (fun _ => a) 0).N) main_v43 (by exact (by decide : ∀ w, Pipeline.arrRef spec0 w ≠ main_v43))
  have h17 := Pipeline.withArrays_of_ne (Pipeline.pin pcfgs (fun _ => a) 0).spec c (V₀ c) (fun w => (dats 0 c).arrAt w (Pipeline.pin pcfgs (fun _ => a) 0).N) main_v17 (by exact (by decide : ∀ w, Pipeline.arrRef spec0 w ≠ main_v17))
  have h73 : Pipeline.withArrays (Pipeline.pin pcfgs (fun _ => a) 0).spec c (V₀ c) (fun w => (dats 0 c).arrAt w (Pipeline.pin pcfgs (fun _ => a) 0).N) (Proc.devRef .tc main_v73) = (dats 0 c).arrAt 3 (cfg0 a).N :=
    Pipeline.withArrays_arr (Pipeline.pin pcfgs (fun _ => a) 0).spec (launch0 (F := Ideal)).win.arr_inj c (V₀ c) (fun w => (dats 0 c).arrAt w (Pipeline.pin pcfgs (fun _ => a) 0).N) 3
  rw [h43, h17, h73]
  rfl

/-- At the tables read off the launch memory: the index buffers the region finds are the padded positions and the
    permutation of the group words, so the result buffer ends at `unpermuted` of the padded output array. -/
private theorem tail_eq (hO : Ok m) (c : Dev nD) :
    Pipeline.afterTail pcfgs (fun _ => adm m hO) (dats m hO) 0 (V0 m) [hostOps1] c main_v88
      = unpermuted (F := Ideal) ((dats m hO 0 c).arrAt 3 (cfgM m hO).N : FVec Ideal S12288x4096 .f32) (giOf m c) := by
  exact (tail_gen (adm m hO) (dats m hO) (V0 m) c).trans
    ((congrArg₂ (tailFn ((dats m hO 0 c).arrAt 3 (cfgM m hO).N)) (targetRow_eq m c) (perm_eq m c)).trans
      (unpermuted_eq ((dats m hO 0 c).arrAt 3 (cfgM m hO).N) (giOf m c)).symm)

theorem run_out (hO : Ok m) :
    θ_run defs (onTc (τ := τ) (main (F := Ideal))) ⟨m, fun _ => 0, ρ⟩ (fun r => ∀ c : Dev nD,
      r.2.mem ((c.tc : Thread nD τ).loc main_v88)
          = unpermuted (F := Ideal) ((dats m hO 0 c).arrAt 3 (cfgM m hO).N : FVec Ideal S12288x4096 .f32) (giOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v88 (by decide : main_v88 ∈ Pipeline.restRefs sig spec0)).trans (tail_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c)⟩)
    (run_main m ρ hO)

end Cert.KernelIdeal.Tail

end
-- ==== Proof.TileValue.lean ====
/-
  What the kernel leaves in the padded output, as one function of what the region finds. Grid point (ci, ri) computes
  the 512 × 2048 tile at rows 512·ri …, columns 2048·ci … : the padded input's 512 rows against the 1024 × 2048 column
  block of the weights of the group the tile table names for row tile ri, plus that group's bias columns. The tiles
  cover the padded output, each written once, so the whole array is
      padOut (r, j) = Σ_k X (r, k) · W (tg (r / 512), k, j) + B (tg (r / 512), 0, j).
-/
import proofs.«409940_j76802605187558_3_alg».proof.Proof.PrefixChain
import Idealize.ShloMosaic.Lib.ValueIdx
import Idealize.ShloMosaic.Lib.SortFacts
import Idealize.ShloMosaic.Lib.Pipeline.Value
import Idealize.ShloMosaic.Lib.ValueLayout
import Idealize.ShloMosaic.PureOps.Ideal.Laws

set_option maxRecDepth 16384

noncomputable section

namespace Cert.KernelIdeal.TileValue

open Idealize.ShloMosaic Idealize.ShloMosaic.TcCoe Idealize.ShloMosaic.ValueIdx Idealize.SL.Sem Idealize.ShloMosaic.StableHlo
open Cert.KernelIdeal Cert.KernelIdeal.Gen Cert.KernelIdeal.Words Cert.KernelIdeal.Chain
open Idealize.ShloMosaic.Pipeline (Dat Cfg Window)

/-- The row tile of a padded row. -/
def tileOf (r : Fin 12288) : Fin 24 := ⟨r.val / 512, Nat.div_lt_of_lt_mul (by have := r.isLt; omega)⟩

/-- The padded output as one function of the padded input, the weights, the bias and the tiles' groups. -/
def padOut (X : FVec Ideal S12288x1024 .bf16) (W : FVec Ideal S8x1024x4096 .bf16) (B : FVec Ideal S8x1x4096 .f32)
    (tg : Fin 24 → Fin 8) : FVec Ideal S12288x4096 .f32 :=
  fun i => (∑ k : Fin 1024, (X (ix2 (i 0) k) : EReal) * (W (ix3 (tg (tileOf (i 0))) k (i 1)) : EReal))
    + (B (ix3 (tg (tileOf (i 0))) (0 : Fin 1) (i 1)) : EReal)

private theorem hz2 : (![0, 0] : Fin 2 → Nat) = fun _ => 0 := funext fun a => by fin_cases a <;> rfl
private theorem hz3 : (![0, 0, 0] : Fin 3 → Nat) = fun _ => 0 := funext fun a => by fin_cases a <;> rfl

/-- The body's one store leaves its payload in the output tile. -/
private theorem tile_eq {F : FTy → Type} [FloatOps F] (c : Dev nD) (i : grid0.Coords)
    (arg3 : Memref sig .tc .vmem S512x1024 .bf16) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S512x2048 .f32) (harg6 : arg6.IsWhole)
    (x0 : Vec F S512x1024 .bf16) (x1 : Vec F S1x1024x2048 .bf16) (x2 : Vec F S1x1x2048 .f32) (xt0 : TbBuf0 (F := F) c tbM0_0) :
    out0_A_3 c i arg3 harg3 arg4 harg4 arg5 harg5 arg6 harg6 x0 x1 x2 xt0 = k0_pay1 x0 x1 x2 := by
  unfold out0_A_3
  rw [View.read_writes_eq_canon _ _ _ (cover0_A_3 c i arg3 harg3 arg4 harg4 arg5 harg5 arg6 harg6 x0 x1 x2 xt0)]
  unfold kernelRun0_A
  dsimp only
  sl_unfold_words
  rw [View.canon_unit_zero hz2]
  simp only [View.readAt_eq_ld, harg3.read_unread, harg4.read_unread, harg5.read_unread,
    View.ld_unit_zero (S := S512x1024) hz2, View.ld_unit_zero (S := S1x1024x2048) hz3, View.ld_unit_zero (S := S1x1x2048) hz3]

/-! The contraction's operand indices, axis by axis. -/
private theorem lhs_axis0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
private theorem lhs_axis1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
private theorem rhs_axis0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
private theorem rhs_axis1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The tile's product into the zero accumulator, at an entry: the sum over the contracted axis. -/
private theorem matmul_at (y0 : FVec Ideal S512x1024 .bf16) (y1 : FVec Ideal S1024x2048 .bf16) (p : Fin 512) (q : Fin 2048) :
    matmul dot_S512x1024_S1024x2048_S512x2048_1_0_0_1_n_n none y0 y1 (constant (F := Ideal) S512x2048 .f32 0x00000000#32) (ix2 p q)
      = ∑ k : Fin 1024, y0 (ix2 p k) * y1 (ix2 k q) := by
  show FloatOps.matmul dot_S512x1024_S1024x2048_S512x2048_1_0_0_1_n_n none y0 y1 (constant (F := Ideal) S512x2048 .f32 0x00000000#32) (ix2 p q) = _
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p q) ((contrEquiv1 dot_S512x1024_S1024x2048_S512x2048_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x2048_S512x2048_1_0_0_1_n_n.rhsIdx (ix2 p q) ((contrEquiv1 dot_S512x1024_S1024x2048_S512x2048_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The tile at an entry: row p of the input block against column q of the weight block, plus the bias at column q. -/
private theorem pay_at (x0 : Vec Ideal S512x1024 .bf16) (x1 : Vec Ideal S1x1024x2048 .bf16) (x2 : Vec Ideal S1x1x2048 .f32)
    (p : Fin 512) (q : Fin 2048) :
    k0_pay1 (F := Ideal) x0 x1 x2 (ix2 p q)
      = (∑ k : Fin 1024, (x0 (ix2 p k) : EReal) * (x1 (ix3 (0 : Fin 1) k q) : EReal)) + (x2 (ix3 (0 : Fin 1) (0 : Fin 1) q) : EReal) := by
  unfold k0_pay1
  refine (addf_apply _ _ _).trans ?_
  refine congrArg₂ (· + ·) ?_ ?_
  · refine (matmul_at _ _ p q).trans ?_
    refine Finset.sum_congr rfl fun k _ => ?_
    refine congrArg₂ (· * ·) ?_ ?_
    · exact congrFun (shapeCast_self x0 _) _
    · exact shapeCast_apply x1 _ (ix2 k q) (ix3 (0 : Fin 1) k q) (by
        rewrite [Shape.rowMajor_val_three, Shape.rowMajor_val_two]
        show (0 * 1024 + k.val) * 2048 + q.val = k.val * 2048 + q.val
        omega)
  · refine (broadcastTo_apply _ _ (ix2 p q) (ix2 (0 : Fin 1) q) ?_).trans ?_
    · intro a
      match a with
      | ⟨0, _⟩ => rfl
      | ⟨1, _⟩ => rfl
    · exact shapeCast_apply x2 _ (ix2 (0 : Fin 1) q) (ix3 (0 : Fin 1) (0 : Fin 1) q) (by
        rewrite [Shape.rowMajor_val_three, Shape.rowMajor_val_two]
        show (0 * 1 + 0) * 2048 + q.val = 0 * 2048 + q.val
        omega)

/-! The index maps at a grid point: the input's and the output's read the grid alone; the weights' and the bias's
    read the tile table at the row tile. -/

private theorem row_word : ∀ r : Fin 24, (Scalar.indexCast (BitVec.ofNat 32 r.val)).toNat = r.val := by decide
private theorem col_word : ∀ r : Fin 2, (BitVec.ofNat 32 r.val).toNat = r.val := by decide

private theorem wmap (pf : pre0.Contents (Elt Ideal)) (i : grid0.Coords) (ri : Fin 24) (hri : (i 1).val = ri.val) :
    cc0_transform_1 Facts₀.k0_off1_inb Facts₀.numel1_S1 pf i (0 : Fin 3) = ((pf 0 : IVec S24 32) (Shape.Idx.ofFin ri)).toNat
    ∧ cc0_transform_1 Facts₀.k0_off1_inb Facts₀.numel1_S1 pf i (1 : Fin 3) = 0
    ∧ cc0_transform_1 Facts₀.k0_off1_inb Facts₀.numel1_S1 pf i (2 : Fin 3) = (i 0).val := by
  have hrow : (Scalar.indexCast (BitVec.ofNat 32 (i 1).val)).toNat = ri.val := by rw [hri]; exact row_word ri
  have hcol : (BitVec.ofNat 32 (i 0).val).toNat = (i 0).val := col_word (i 0)
  have hidx : (Rect.unit (s := S24) ![(Scalar.indexCast (BitVec.ofNat 32 (i 1).val)).toNat] S1.size (Facts₀.k0_off1_inb i)).emb
      (Shape.Idx.first (Facts₀.numel1_S1.symm ▸ Nat.one_pos)) = Shape.Idx.ofFin ri := by
    funext b
    obtain rfl : b = 0 := Subsingleton.elim _ _
    refine Fin.ext ?_
    show (Scalar.indexCast (BitVec.ofNat 32 (i 1).val)).toNat + 1 * 0 = ri.val
    omega
  have e : cc0_transform_1 Facts₀.k0_off1_inb Facts₀.numel1_S1 pf i
      = ![((pf 0 : IVec S24 32) (Shape.Idx.ofFin ri)).toNat, 0, (i 0).val] := by
    unfold cc0_transform_1
    dsimp only
    rw [hcol]
    refine congrArg (fun w : BitVec 32 => ![w.toNat, 0, (i 0).val]) ?_
    exact congrArg (pf 0) hidx
  exact ⟨congrFun e (0 : Fin 3), congrFun e (1 : Fin 3), congrFun e (2 : Fin 3)⟩

private theorem bmap (pf : pre0.Contents (Elt Ideal)) (i : grid0.Coords) (ri : Fin 24) (hri : (i 1).val = ri.val) :
    cc0_transform_2 Facts₀.k0_off1_inb Facts₀.numel1_S1 pf i (0 : Fin 3) = ((pf 0 : IVec S24 32) (Shape.Idx.ofFin ri)).toNat
    ∧ cc0_transform_2 Facts₀.k0_off1_inb Facts₀.numel1_S1 pf i (1 : Fin 3) = 0
    ∧ cc0_transform_2 Facts₀.k0_off1_inb Facts₀.numel1_S1 pf i (2 : Fin 3) = (i 0).val := by
  have hrow : (Scalar.indexCast (BitVec.ofNat 32 (i 1).val)).toNat = ri.val := by rw [hri]; exact row_word ri
  have hcol : (BitVec.ofNat 32 (i 0).val).toNat = (i 0).val := col_word (i 0)
  have hidx : (Rect.unit (s := S24) ![(Scalar.indexCast (BitVec.ofNat 32 (i 1).val)).toNat] S1.size (Facts₀.k0_off1_inb i)).emb
      (Shape.Idx.first (Facts₀.numel1_S1.symm ▸ Nat.one_pos)) = Shape.Idx.ofFin ri := by
    funext b
    obtain rfl : b = 0 := Subsingleton.elim _ _
    refine Fin.ext ?_
    show (Scalar.indexCast (BitVec.ofNat 32 (i 1).val)).toNat + 1 * 0 = ri.val
    omega
  have e : cc0_transform_2 Facts₀.k0_off1_inb Facts₀.numel1_S1 pf i
      = ![((pf 0 : IVec S24 32) (Shape.Idx.ofFin ri)).toNat, 0, (i 0).val] := by
    unfold cc0_transform_2
    dsimp only
    rw [hcol]
    refine congrArg (fun w : BitVec 32 => ![w.toNat, 0, (i 0).val]) ?_
    exact congrArg (pf 0) hidx
  exact ⟨congrFun e (0 : Fin 3), congrFun e (1 : Fin 3), congrFun e (2 : Fin 3)⟩

/-- The input's and the output's block indices, decided over the grid. -/
private theorem io_index (a : (pcfg0 (F := Ideal)).Adm) : ∀ t : Fin (cfg0 a).N,
    ((cfg0 a).win 0).index t (0 : Fin 2) = ((grid0.coords t) 1).val ∧ ((cfg0 a).win 0).index t (1 : Fin 2) = 0
    ∧ ((cfg0 a).win 3).index t (0 : Fin 2) = ((grid0.coords t) 1).val ∧ ((cfg0 a).win 3).index t (1 : Fin 2) = ((grid0.coords t) 0).val :=
  (by decide +kernel : ∀ t : Fin grid0.N,
    cc0_transform_0 (grid0.coords t) (0 : Fin 2) = ((grid0.coords t) 1).val ∧ cc0_transform_0 (grid0.coords t) (1 : Fin 2) = 0
    ∧ cc0_transform_3 (grid0.coords t) (0 : Fin 2) = ((grid0.coords t) 1).val ∧ cc0_transform_3 (grid0.coords t) (1 : Fin 2) = ((grid0.coords t) 0).val)

/-- Every pair of an output row tile and column half is some point's. -/
private theorem out_onto (a : (pcfg0 (F := Ideal)).Adm) : ∀ (q0 : Fin 24) (q1 : Fin 2), ∃ t : Fin (cfg0 a).N,
    ((cfg0 a).win 3).index t = ![q0.val, q1.val] :=
  (by decide +kernel : ∀ (q0 : Fin 24) (q1 : Fin 2), ∃ t : Fin grid0.N, cc0_transform_3 (grid0.coords t) = ![q0.val, q1.val])

/-- The weights' and the bias's block indices: the table's word at the row tile, 0, the column half. -/
private theorem w_index (a : (pcfg0 (F := Ideal)).Adm) (t : Fin (cfg0 a).N) (ri : Fin 24) (hri : ((grid0.coords t) 1).val = ri.val) :
    ((cfg0 a).win 1).index t (0 : Fin 3) = ((a.1 0 : IVec S24 32) (Shape.Idx.ofFin ri)).toNat
    ∧ ((cfg0 a).win 1).index t (1 : Fin 3) = 0 ∧ ((cfg0 a).win 1).index t (2 : Fin 3) = ((grid0.coords t) 0).val :=
  wmap a.1 (grid0.coords t) ri hri
private theorem b_index (a : (pcfg0 (F := Ideal)).Adm) (t : Fin (cfg0 a).N) (ri : Fin 24) (hri : ((grid0.coords t) 1).val = ri.val) :
    ((cfg0 a).win 2).index t (0 : Fin 3) = ((a.1 0 : IVec S24 32) (Shape.Idx.ofFin ri)).toNat
    ∧ ((cfg0 a).win 2).index t (1 : Fin 3) = 0 ∧ ((cfg0 a).win 2).index t (2 : Fin 3) = ((grid0.coords t) 0).val :=
  bmap a.1 (grid0.coords t) ri hri

/-! A block read at a point is the array at block index × block size + the entry's coordinate in the block. -/

private theorem read_x (a : (pcfg0 (F := Ideal)).Adm) (X : FVec Ideal S12288x1024 .bf16) (t : Fin (cfg0 a).N)
    (p : Fin 512) (k : Fin 1024) (r : Fin 12288) (hr : r.val = ((cfg0 a).win 0).index t (0 : Fin 2) * 512 + p.val)
    (h1 : ((cfg0 a).win 0).index t (1 : Fin 2) = 0) :
    (((cfg0 a).win 0).blk t).view.read (Elt Ideal) X (ix2 p k) = X (ix2 r k) := by
  show X ((((cfg0 a).win 0).blk t).view.emb (ix2 p k)) = X (ix2 r k)
  refine congrArg X (funext fun b => Fin.ext ?_)
  match b with
  | ⟨0, _⟩ => show ((cfg0 a).win 0).index t (0 : Fin 2) * 512 + 1 * p.val = r.val; omega
  | ⟨1, _⟩ => show ((cfg0 a).win 0).index t (1 : Fin 2) * 1024 + 1 * k.val = k.val; omega

private theorem read_w (a : (pcfg0 (F := Ideal)).Adm) (W : FVec Ideal S8x1024x4096 .bf16) (t : Fin (cfg0 a).N)
    (k : Fin 1024) (q : Fin 2048) (g : Fin 8) (col : Fin 4096)
    (h0 : ((cfg0 a).win 1).index t (0 : Fin 3) = g.val) (h1 : ((cfg0 a).win 1).index t (1 : Fin 3) = 0)
    (h2 : col.val = ((cfg0 a).win 1).index t (2 : Fin 3) * 2048 + q.val) :
    (((cfg0 a).win 1).blk t).view.read (Elt Ideal) W (ix3 (0 : Fin 1) k q) = W (ix3 g k col) := by
  show W ((((cfg0 a).win 1).blk t).view.emb (ix3 (0 : Fin 1) k q)) = W (ix3 g k col)
  refine congrArg W (funext fun b => Fin.ext ?_)
  match b with
  | ⟨0, _⟩ => show ((cfg0 a).win 1).index t (0 : Fin 3) * 1 + 1 * 0 = g.val; omega
  | ⟨1, _⟩ => show ((cfg0 a).win 1).index t (1 : Fin 3) * 1024 + 1 * k.val = k.val; omega
  | ⟨2, _⟩ => show ((cfg0 a).win 1).index t (2 : Fin 3) * 2048 + 1 * q.val = col.val; omega

private theorem read_b (a : (pcfg0 (F := Ideal)).Adm) (B : FVec Ideal S8x1x4096 .f32) (t : Fin (cfg0 a).N)
    (q : Fin 2048) (g : Fin 8) (col : Fin 4096)
    (h0 : ((cfg0 a).win 2).index t (0 : Fin 3) = g.val) (h1 : ((cfg0 a).win 2).index t (1 : Fin 3) = 0)
    (h2 : col.val = ((cfg0 a).win 2).index t (2 : Fin 3) * 2048 + q.val) :
    (((cfg0 a).win 2).blk t).view.read (Elt Ideal) B (ix3 (0 : Fin 1) (0 : Fin 1) q) = B (ix3 g (0 : Fin 1) col) := by
  show B ((((cfg0 a).win 2).blk t).view.emb (ix3 (0 : Fin 1) (0 : Fin 1) q)) = B (ix3 g (0 : Fin 1) col)
  refine congrArg B (funext fun b => Fin.ext ?_)
  match b with
  | ⟨0, _⟩ => show ((cfg0 a).win 2).index t (0 : Fin 3) * 1 + 1 * 0 = g.val; omega
  | ⟨1, _⟩ => show ((cfg0 a).win 2).index t (1 : Fin 3) * 1 + 1 * 0 = 0; omega
  | ⟨2, _⟩ => show ((cfg0 a).win 2).index t (2 : Fin 3) * 2048 + 1 * q.val = col.val; omega

private theorem read_o (a : (pcfg0 (F := Ideal)).Adm) (G : FVec Ideal S12288x4096 .f32) (t : Fin (cfg0 a).N)
    (p : Fin 512) (q : Fin 2048) (r : Fin 12288) (col : Fin 4096)
    (hr : r.val = ((cfg0 a).win 3).index t (0 : Fin 2) * 512 + p.val)
    (hc : col.val = ((cfg0 a).win 3).index t (1 : Fin 2) * 2048 + q.val) :
    (((cfg0 a).win 3).blk t).view.read (Elt Ideal) G (ix2 p q) = G (ix2 r col) := by
  show G ((((cfg0 a).win 3).blk t).view.emb (ix2 p q)) = G (ix2 r col)
  refine congrArg G (funext fun b => Fin.ext ?_)
  match b with
  | ⟨0, _⟩ => show ((cfg0 a).win 3).index t (0 : Fin 2) * 512 + 1 * p.val = r.val; omega
  | ⟨1, _⟩ => show ((cfg0 a).win 3).index t (1 : Fin 2) * 2048 + 1 * q.val = col.val; omega

/-- The tile's entry is the padded output's entry at the tile's place, once each block entry read is the array's. -/
private theorem tile_value (x0 : Vec Ideal S512x1024 .bf16) (x1 : Vec Ideal S1x1024x2048 .bf16) (x2 : Vec Ideal S1x1x2048 .f32)
    (X : FVec Ideal S12288x1024 .bf16) (W : FVec Ideal S8x1024x4096 .bf16) (B : FVec Ideal S8x1x4096 .f32) (tg : Fin 24 → Fin 8)
    (ri : Fin 24) (p : Fin 512) (q : Fin 2048) (r : Fin 12288) (col : Fin 4096) (hr : r.val = ri.val * 512 + p.val)
    (h0 : ∀ k : Fin 1024, x0 (ix2 p k) = X (ix2 r k))
    (h1 : ∀ k : Fin 1024, x1 (ix3 (0 : Fin 1) k q) = W (ix3 (tg ri) k col))
    (h2 : x2 (ix3 (0 : Fin 1) (0 : Fin 1) q) = B (ix3 (tg ri) (0 : Fin 1) col)) :
    k0_pay1 (F := Ideal) x0 x1 x2 (ix2 p q) = padOut X W B tg (ix2 r col) := by
  have ht : tileOf r = ri := Fin.ext (by show r.val / 512 = ri.val; have := p.isLt; omega)
  refine (pay_at x0 x1 x2 p q).trans ?_
  show _ = (∑ k : Fin 1024, (X (ix2 r k) : EReal) * (W (ix3 (tg (tileOf r)) k col) : EReal))
    + (B (ix3 (tg (tileOf r)) (0 : Fin 1) col) : EReal)
  rw [ht]
  refine congrArg₂ (· + ·) (Finset.sum_congr rfl fun k _ => ?_) h2
  exact congrArg₂ (· * ·) (h0 k) (h1 k)

/-- At a point, the tile of what the four windows read is the padded output's tile there, for any table whose words
    read as the groups `tg`. -/
private theorem tile_at (a : (pcfg0 (F := Ideal)).Adm) (X : FVec Ideal S12288x1024 .bf16) (W : FVec Ideal S8x1024x4096 .bf16)
    (B : FVec Ideal S8x1x4096 .f32) (tg : Fin 24 → Fin 8)
    (htg : ∀ t : Fin 24, ((a.1 0 : IVec S24 32) (Shape.Idx.ofFin t)).toNat = (tg t).val)
    (t : Fin (cfg0 a).N) (p : Fin 512) (q : Fin 2048) :
    k0_pay1 (F := Ideal) ((((cfg0 a).win 0).blk t).view.read (Elt Ideal) X) ((((cfg0 a).win 1).blk t).view.read (Elt Ideal) W)
        ((((cfg0 a).win 2).blk t).view.read (Elt Ideal) B) (ix2 p q)
      = (((cfg0 a).win 3).blk t).view.read (Elt Ideal) (padOut X W B tg) (ix2 p q) := by
  have hp := p.isLt
  have hq := q.isLt
  have hri : ((grid0.coords t) 1).val < 24 := ((grid0.coords t) 1).isLt
  have hci : ((grid0.coords t) 0).val < 2 := ((grid0.coords t) 0).isLt
  obtain ⟨i00, i01, i30, i31⟩ := io_index a t
  obtain ⟨hw0, hw1, hw2⟩ := w_index a t ⟨((grid0.coords t) 1).val, hri⟩ rfl
  obtain ⟨hb0, hb1, hb2⟩ := b_index a t ⟨((grid0.coords t) 1).val, hri⟩ rfl
  refine (tile_value _ _ _ X W B tg ⟨((grid0.coords t) 1).val, hri⟩ p q ⟨((grid0.coords t) 1).val * 512 + p.val, by omega⟩
    ⟨((grid0.coords t) 0).val * 2048 + q.val, by omega⟩ rfl ?_ ?_ ?_).trans ?_
  · intro k
    exact read_x a X t p k _ (by rw [i00]) i01
  · intro k
    exact read_w a W t k q _ _ (hw0.trans (htg _)) hw1 (by rw [hw2])
  · exact read_b a B t q _ _ (hb0.trans (htg _)) hb1 (by rw [hb2])
  · exact (read_o a (padOut X W B tg) t p q _ _ (by rw [i30]) (by rw [i31])).symm

variable (m : (ℓ : Loc nD τ sig) → Buf (Elt Ideal) ℓ)

/-- What a point writes back is its tile of the padded output. -/
private theorem flushed_eq (hO : Ok m) (c : Dev nD) (tg : Fin 24 → Fin 8)
    (htg : ∀ t : Fin 24, ((tbl m 0 : IVec S24 32) (Shape.Idx.ofFin t)).toNat = (tg t).val) (t : Fin (cfgM m hO).N) :
    (dats m hO 0 c).flushed 3 t
      = (((cfgM m hO).win 3).blk t).view.read (Elt Ideal) (padOut (V m c main_v70) (V m c main_v71) (V m c main_v72) tg) := by
  show ((cfgM m hO).win 3).cut (grid0.coords t) ((dats m hO 0 c).after 3 t) = _
  rw [after0_3]
  unfold outsAt0
  refine funext fun (j : S512x2048.Idx) => ?_
  obtain ⟨p, q, rfl⟩ : ∃ (p : Fin 512) (q : Fin 2048), j = ix2 p q := ⟨j 0, j 1, eq_ix2 j⟩
  refine Eq.trans (b := k0_pay1 (F := Ideal) (iblk m hO c 0 t) (iblk m hO c 1 t) (iblk m hO c 2 t) (ix2 p q)) ?_ ?_
  · exact congrFun (tile_eq (F := Ideal) c (grid0.coords t) (ms0_0 m hO t) (hs0_0 m hO t) (ms0_1 m hO t) (hs0_1 m hO t)
      (ms0_2 m hO t) (hs0_2 m hO t) (ms0_3 m hO t) (hs0_3 m hO t) (iblk m hO c 0 t) (iblk m hO c 1 t) (iblk m hO c 2 t) (tbl m 0)) (ix2 p q)
  · exact tile_at (adm m hO) (V m c main_v70) (V m c main_v71) (V m c main_v72) tg htg t p q

/-- Every entry of the padded output lies in the tile of its row tile and column half. -/
private theorem covered (hO : Ok m) (i : S12288x4096.Idx) :
    ∃ t : Fin (cfgM m hO).N, ((cfgM m hO).win 3).flush t = true ∧ i ∈ (((cfgM m hO).win 3).blk t).view.set := by
  have hi0 : (i 0).val < 12288 := (i 0).isLt
  have hi1 : (i 1).val < 4096 := (i 1).isLt
  obtain ⟨t, ht⟩ := out_onto (adm m hO) ⟨(i 0).val / 512, by omega⟩ ⟨(i 1).val / 2048, by omega⟩
  have q0 : ((cfgM m hO).win 3).index t (0 : Fin 2) = (i 0).val / 512 := congrFun ht (0 : Fin 2)
  have q1 : ((cfgM m hO).win 3).index t (1 : Fin 2) = (i 1).val / 2048 := congrFun ht (1 : Fin 2)
  refine ⟨t, flush0_3 (adm m hO) t, ?_⟩
  refine (Finset.ext_iff.mp (View.set_slice_whole main_v73 (((cfgM m hO).win 3).rect t)) i).mpr ?_
  refine Rect.mem_set_unit.mpr fun b => ?_
  match b with
  | ⟨0, _⟩ =>
    show ((cfgM m hO).win 3).index t (0 : Fin 2) * 512 ≤ (i 0).val ∧ (i 0).val < ((cfgM m hO).win 3).index t (0 : Fin 2) * 512 + 512
    omega
  | ⟨1, _⟩ =>
    show ((cfgM m hO).win 3).index t (1 : Fin 2) * 2048 ≤ (i 1).val ∧ (i 1).val < ((cfgM m hO).win 3).index t (1 : Fin 2) * 2048 + 2048
    omega

/-- After the region the padded output array holds `padOut` of what the region found, for any reading `tg` of the
    tile table's words as groups. -/
theorem arrAt_eq (hO : Ok m) (c : Dev nD) (tg : Fin 24 → Fin 8)
    (htg : ∀ t : Fin 24, ((tbl m 0 : IVec S24 32) (Shape.Idx.ofFin t)).toNat = (tg t).val) :
    ((dats m hO 0 c).arrAt 3 (cfgM m hO).N : FVec Ideal S12288x4096 .f32)
      = padOut (V m c main_v70) (V m c main_v71) (V m c main_v72) tg :=
  (dats m hO 0 c).arrAt_eq_of_cover 3 (padOut (V m c main_v70) (V m c main_v71) (V m c main_v72) tg)
    (fun t _ => flushed_eq m hO c tg htg t) (covered m hO)

end Cert.KernelIdeal.TileValue

end
-- ==== Proof.TableRange.lean ====
/-
  Every entry of the tile table is a number below 8, whatever the group words are: the table is a signed minimum
  with 7 of a signed maximum with 0.
-/
import proofs.«409940_j76802605187558_3_alg».proof.Proof.PrefixWords
import Idealize.ShloMosaic.Lib.StableHlo.Predicate
import Idealize.ShloMosaic.Lib.WordArith
import Idealize.ShloMosaic.Lib.SortFacts

noncomputable section

namespace Cert.KernelIdeal.TableRange

open Idealize.ShloMosaic Cert.KernelIdeal Cert.KernelIdeal.Gen Cert.KernelIdeal.Words

/-- A signed minimum with 7 of a signed maximum with 0 is a number below 8. -/
private theorem word_lt (x : BitVec 32) : (IntOp.minsi 7#32 (IntOp.maxsi 0#32 x)).toNat < 8 := by
  have h7 : (7#32 : BitVec 32).toInt = 7 := by decide
  have h7n : (7#32 : BitVec 32).toNat = 7 := by decide
  have hi := WordArith.toInt_maxsi_zero x
  generalize IntOp.maxsi 0#32 x = y at hi ⊢
  have e := BitVec.toInt_eq_toNat_cond y
  have hl := y.isLt
  unfold IntOp.minsi
  by_cases h : (7#32 : BitVec 32).slt y = true
  · rw [if_pos h]; omega
  · rw [if_neg h]
    rw [BitVec.slt_iff_toInt_lt, h7] at h
    split at e <;> omega

/-- The clip, entry by entry: the scalars 7 and 0 are read at every position. -/
private theorem clip07_apply (z : IVec S24 32) (t : S24.Idx) :
    clip07 z t = IntOp.minsi 7#32 (IntOp.maxsi 0#32 (z t)) := rfl

theorem clip07_lt (z : IVec S24 32) (t : S24.Idx) : (clip07 z t).toNat < 8 := by
  rw [clip07_apply]
  exact word_lt _

theorem tileGroup_lt (gi : IVec S8192 32) (t : S24.Idx) : (tileGroup gi t).toNat < 8 :=
  clip07_lt _ t

end Cert.KernelIdeal.TableRange

end
-- ==== Proof.TableOk.lean ====
/-
  The pipeline's side condition on the tile table: the weights' and the bias's blocks are chosen by the table's
  words, and every word is a number below 8, so each block lies inside its array of 8 groups (and the transfers
  are of whole words). It holds for every launch memory: the table is clipped on the host.
-/
import proofs.«409940_j76802605187558_3_alg».proof.Proof.PrefixChain
import Idealize.ShloMosaic.Lib.ValueIdx
import Idealize.ShloMosaic.Lib.SortFacts
import proofs.«409940_j76802605187558_3_alg».proof.Proof.TableRange

set_option maxRecDepth 16384

noncomputable section

namespace Cert.KernelIdeal.TableOk

open Idealize.ShloMosaic Idealize.ShloMosaic.TcCoe Idealize.ShloMosaic.ValueIdx Idealize.SL.Sem Idealize.ShloMosaic.StableHlo
open Cert.KernelIdeal Cert.KernelIdeal.Gen Cert.KernelIdeal.Words Cert.KernelIdeal.Chain

variable {F : FTy → Type} [FloatOps F]
variable (m : (ℓ : Loc nD τ sig) → Buf (Elt F) ℓ)

/-- The table the region reads is the host's tile table of the group words. -/
private theorem tbl_eq : (tbl m 0 : IVec S24 32) = tileGroup (giOf m (0 : Dev nD)) :=
  Chain.tileTable_eq m (0 : Dev nD)

/-- The table the region reads holds numbers below 8. -/
theorem tbl_lt (t : S24.Idx) : ((tbl m 0 : IVec S24 32) t).toNat < 8 := by
  rw [tbl_eq m]
  exact TableRange.tileGroup_lt _ t

/-- A grid point's first coordinate is 0 or 1. -/
private theorem coord0_lt (i : grid0.Coords) : (i 0).val < 2 := (i 0).isLt

/-- The side condition at ANY table whose words are below 8: the block index along the groups is the word read,
    the middle one is 0 and the last is the grid's first coordinate, 0 or 1. -/
private theorem ok_of_lt (pf : pre0.Contents (Elt F)) (h : ∀ t : S24.Idx, ((pf 0 : IVec S24 32) t).toNat < 8) :
    ok0 pf := by
  refine ⟨fun i => ?_, fun i => ?_⟩
  · obtain ⟨w, hw, e⟩ : ∃ w : BitVec 32, w.toNat < 8 ∧
        cc0_transform_1 Facts₀.k0_off1_inb Facts₀.numel1_S1 pf i = ![w.toNat, 0, (BitVec.ofNat 32 (i 0).val).toNat] :=
      ⟨_, h _, rfl⟩
    have hi := coord0_lt i
    refine ⟨fun a => ?_, Or.inr (Affine.block_words_dvd (of_decide_eq_true rfl) (by decide))⟩
    rw [e]
    fin_cases a <;> simp [S1x1024x2048, S8x1024x4096] <;> omega
  · obtain ⟨w, hw, e⟩ : ∃ w : BitVec 32, w.toNat < 8 ∧
        cc0_transform_2 Facts₀.k0_off1_inb Facts₀.numel1_S1 pf i = ![w.toNat, 0, (BitVec.ofNat 32 (i 0).val).toNat] :=
      ⟨_, h _, rfl⟩
    have hi := coord0_lt i
    refine ⟨fun a => ?_, Or.inl rfl⟩
    rw [e]
    fin_cases a <;> simp [S1x1x2048, S8x1x4096] <;> omega

/-- The pipeline's side condition, from the table's range. -/
theorem ok : Ok m := ok_of_lt (tbl m) (tbl_lt m)

end Cert.KernelIdeal.TableOk

end
-- ==== Proof.TileRouting.lean ====
/-
  Routing sorted rows into whole tiles, on natural numbers.

  `n` rows carry a group `g i` out of `G`; `π` lists the rows so that the groups ascend. Group `j` has `cnt g j` rows
  and is given `tiles (cnt g j)` tiles of `T` rows, the groups' tiles laid one after another: group `j`'s first tile
  is number `tilesBelow g j`, and its rows sit at sorted positions `below g j … below g j + cnt g j - 1`. Sorted
  position `s` (row `π s`, group `g (π s)`) is sent to padded row
      slot s = tilesBelow g (g (π s)) · T + (s − below g (g (π s))).
  Shown here: the offset inside the group is below the group's count; `slot` is injective; every slot is below
  (n / T + G) · T; and the tile `slot s / T` belongs to group `g (π s)`: exactly `g (π s) + 1` groups start at or
  before it.
-/
import Mathlib.Data.Fintype.Card
import Mathlib.Data.Fintype.BigOperators
import Mathlib.Algebra.BigOperators.Fin
import Mathlib.Order.Monotone.Basic
import Mathlib.Tactic

namespace Cert.TileRouting

variable {n G : ℕ}

/-- How many rows carry group `j`. -/
def cnt (g : Fin n → Fin G) (j : Fin G) : ℕ := (Finset.univ.filter (fun i => g i = j)).card

/-- Tiles of `T` rows needed for `c` rows. -/
def tiles (T c : ℕ) : ℕ := (c + (T - 1)) / T

/-- Rows in the groups before `j`. -/
def below (g : Fin n → Fin G) (j : Fin G) : ℕ := ∑ j' ∈ Finset.univ.filter (fun j' => j' < j), cnt g j'

/-- Tiles of the groups before `j`. -/
def tilesBelow (T : ℕ) (g : Fin n → Fin G) (j : Fin G) : ℕ :=
  ∑ j' ∈ Finset.univ.filter (fun j' => j' < j), tiles T (cnt g j')

/-- The padded row of sorted position `s`. -/
def slot (T : ℕ) (g : Fin n → Fin G) (π : Fin n → Fin n) (s : Fin n) : ℕ :=
  tilesBelow T g (g (π s)) * T + (s.val - below g (g (π s)))

/-- Relabelling the rows by the bijection `π` keeps the number of rows whose group satisfies `p`. -/
private theorem card_comp (g : Fin n → Fin G) (π : Fin n → Fin n) (hπ : Function.Bijective π)
    (p : Fin G → Prop) [DecidablePred p] :
    (Finset.univ.filter (fun s => p (g (π s)))).card = (Finset.univ.filter (fun i => p (g i))).card := by
  apply Finset.card_bijective π hπ
  intro i
  simp

/-- The rows before group `j` are the rows whose group is below `j`. -/
private theorem below_eq (g : Fin n → Fin G) (j : Fin G) :
    below g j = (Finset.univ.filter (fun i => g i < j)).card := by
  unfold below cnt
  rw [Finset.card_eq_sum_card_fiberwise (f := g) (s := Finset.univ.filter (fun i => g i < j))
    (t := Finset.univ.filter (fun j' => j' < j))]
  · apply Finset.sum_congr rfl
    intro b hb
    rw [Finset.mem_filter] at hb
    congr 1
    ext a
    simp only [Finset.mem_filter, Finset.mem_univ, true_and]
    constructor
    · intro h; exact ⟨h ▸ hb.2, h⟩
    · intro h; exact h.2
  · intro x hx
    simpa using hx

/-- The rows up to and including group `j`. -/
private theorem below_add_cnt (g : Fin n → Fin G) (j : Fin G) :
    below g j + cnt g j = (Finset.univ.filter (fun i => g i ≤ j)).card := by
  rw [below_eq]
  unfold cnt
  rw [← Finset.card_union_of_disjoint]
  · congr 1
    ext a
    simp only [Finset.mem_union, Finset.mem_filter, Finset.mem_univ, true_and]
    exact le_iff_lt_or_eq.symm
  · rw [Finset.disjoint_filter]
    intro a _ h1 h2
    exact absurd h2 (ne_of_lt h1)

private theorem card_lt_fin (s : Fin n) : (Finset.univ.filter (fun s' : Fin n => s' < s)).card = s.val := by
  have : Finset.univ.filter (fun s' : Fin n => s' < s) = Finset.Iio s := by
    ext a; simp
  rw [this, Fin.card_Iio]

private theorem card_le_fin {m : ℕ} (s : Fin m) :
    (Finset.univ.filter (fun s' : Fin m => s' ≤ s)).card = s.val + 1 := by
  have : Finset.univ.filter (fun s' : Fin m => s' ≤ s) = Finset.Iic s := by
    ext a; simp
  rw [this, Fin.card_Iic]

/-- The tiles given to `c` rows hold them all. -/
private theorem le_tiles_mul (T : ℕ) (hT : 0 < T) (c : ℕ) : c ≤ tiles T c * T := by
  unfold tiles
  have h1 := Nat.div_add_mod (c + (T - 1)) T
  have h2 := Nat.mod_lt (c + (T - 1)) hT
  rw [Nat.mul_comm]
  omega

private theorem tiles_le (T : ℕ) (hT : 0 < T) (c : ℕ) : tiles T c ≤ c / T + 1 := by
  unfold tiles
  calc (c + (T - 1)) / T ≤ (c + T) / T := Nat.div_le_div_right (by omega)
    _ = c / T + 1 := Nat.add_div_right c hT

/-- The tiles of group `j` end where those of any later group start. -/
private theorem tilesBelow_step (T : ℕ) (g : Fin n → Fin G) (j j' : Fin G) (h : j < j') :
    tilesBelow T g j + tiles T (cnt g j) ≤ tilesBelow T g j' := by
  unfold tilesBelow
  have hnot : j ∉ Finset.univ.filter (fun j'' : Fin G => j'' < j) := by simp
  rw [Nat.add_comm, ← Finset.sum_insert (f := fun j'' => tiles T (cnt g j'')) hnot]
  apply Finset.sum_le_sum_of_subset
  intro x hx
  rw [Finset.mem_insert, Finset.mem_filter] at hx
  rw [Finset.mem_filter]
  rcases hx with hx | hx
  · exact ⟨Finset.mem_univ _, hx ▸ h⟩
  · exact ⟨Finset.mem_univ _, lt_trans hx.2 h⟩

private theorem tilesBelow_mono (T : ℕ) (g : Fin n → Fin G) (j j' : Fin G) (h : j ≤ j') :
    tilesBelow T g j ≤ tilesBelow T g j' := by
  rcases lt_or_eq_of_le h with h | h
  · exact le_trans (Nat.le_add_right _ _) (tilesBelow_step T g j j' h)
  · rw [h]

/-- All the rows together. -/
private theorem sum_cnt (g : Fin n → Fin G) : ∑ j : Fin G, cnt g j = n := by
  unfold cnt
  rw [← Finset.card_eq_sum_card_fiberwise (f := g) (s := Finset.univ) (t := Finset.univ)
    (fun x _ => Finset.mem_univ _)]
  simp

/-- All the tiles together fit in `n / T + G`. -/
private theorem tiles_total (T : ℕ) (hT : 0 < T) (g : Fin n → Fin G) :
    ∑ j : Fin G, tiles T (cnt g j) ≤ n / T + G := by
  calc ∑ j : Fin G, tiles T (cnt g j) ≤ ∑ j : Fin G, (cnt g j / T + 1) :=
        Finset.sum_le_sum (fun j _ => tiles_le T hT _)
    _ = ∑ j : Fin G, (cnt g j / T) + G := by
        rw [Finset.sum_add_distrib]; simp
    _ ≤ n / T + G := by
        apply Nat.add_le_add_right
        rw [Nat.le_div_iff_mul_le hT, Finset.sum_mul]
        calc ∑ j : Fin G, cnt g j / T * T ≤ ∑ j : Fin G, cnt g j :=
              Finset.sum_le_sum (fun j _ => Nat.div_mul_le_self _ _)
          _ = n := sum_cnt g

private theorem tilesBelow_total (T : ℕ) (g : Fin n → Fin G) (j : Fin G) :
    tilesBelow T g j + tiles T (cnt g j) ≤ ∑ j' : Fin G, tiles T (cnt g j') := by
  unfold tilesBelow
  have hnot : j ∉ Finset.univ.filter (fun j'' : Fin G => j'' < j) := by simp
  rw [Nat.add_comm, ← Finset.sum_insert (f := fun j'' => tiles T (cnt g j'')) hnot]
  exact Finset.sum_le_sum_of_subset (Finset.subset_univ _)

variable (T : ℕ) (hT : 0 < T) (g : Fin n → Fin G) (π : Fin n → Fin n) (hπ : Function.Bijective π)
  (hmono : ∀ s s' : Fin n, s ≤ s' → g (π s) ≤ g (π s'))

include hπ hmono in
/-- The groups before `g (π s)` fill the sorted positions before `s`. -/
theorem below_le (s : Fin n) : below g (g (π s)) ≤ s.val := by
  rw [below_eq, ← card_comp g π hπ (fun j => j < g (π s)), ← card_lt_fin s]
  apply Finset.card_le_card
  intro s' hs'
  rw [Finset.mem_filter] at hs' ⊢
  refine ⟨Finset.mem_univ _, ?_⟩
  by_contra hge
  exact absurd (hmono s s' (not_lt.mp hge)) (not_le.mpr hs'.2)

include hπ hmono in
/-- Position `s`'s offset inside its group is below the group's count. -/
theorem offset_lt (s : Fin n) : s.val - below g (g (π s)) < cnt g (g (π s)) := by
  have h1 : s.val + 1 ≤ below g (g (π s)) + cnt g (g (π s)) := by
    rw [below_add_cnt, ← card_comp g π hπ (fun j => j ≤ g (π s)), ← card_le_fin s]
    apply Finset.card_le_card
    intro s' hs'
    rw [Finset.mem_filter] at hs' ⊢
    exact ⟨Finset.mem_univ _, hmono s' s hs'.2⟩
  have h2 := below_le g π hπ hmono s
  omega

include hT hπ hmono in
/-- Every slot is inside the padded array of `n / T + G` tiles. -/
theorem slot_lt (s : Fin n) : slot T g π s < (n / T + G) * T := by
  have hoff := offset_lt g π hπ hmono s
  have hfit := le_tiles_mul T hT (cnt g (g (π s)))
  have htot := le_trans (tilesBelow_total T g (g (π s))) (tiles_total T hT g)
  have hmul := Nat.mul_le_mul_right T htot
  rw [Nat.add_mul] at hmul
  unfold slot
  omega

include hT hπ hmono in
/-- No two sorted positions share a slot. -/
theorem slot_injective : Function.Injective (slot T g π) := by
  have key : ∀ s s' : Fin n, g (π s) < g (π s') → slot T g π s < slot T g π s' := by
    intro s s' hlt
    have hoff := offset_lt g π hπ hmono s
    have hfit := le_tiles_mul T hT (cnt g (g (π s)))
    have hstep := Nat.mul_le_mul_right T (tilesBelow_step T g _ _ hlt)
    rw [Nat.add_mul] at hstep
    unfold slot
    omega
  intro s s' heq
  rcases lt_trichotomy (g (π s)) (g (π s')) with hlt | hgeq | hgt
  · exact absurd heq (ne_of_lt (key s s' hlt))
  · have hb := below_le g π hπ hmono s
    have hb' := below_le g π hπ hmono s'
    unfold slot at heq
    rw [hgeq] at heq hb
    apply Fin.ext
    omega
  · exact absurd heq.symm (ne_of_lt (key s' s hgt))

include hT hπ hmono in
/-- The slot's tile is one of its group's: the groups whose first tile is at or before it are `0 … g (π s)`. -/
theorem slot_tile (s : Fin n) :
    (Finset.univ.filter (fun j : Fin G => tilesBelow T g j ≤ slot T g π s / T)).card = (g (π s)).val + 1 := by
  have hoff := offset_lt g π hπ hmono s
  have hfit := le_tiles_mul T hT (cnt g (g (π s)))
  have hlo : tilesBelow T g (g (π s)) ≤ slot T g π s / T := by
    rw [Nat.le_div_iff_mul_le hT]
    unfold slot
    omega
  have hhi : slot T g π s / T < tilesBelow T g (g (π s)) + tiles T (cnt g (g (π s))) := by
    rw [Nat.div_lt_iff_lt_mul hT, Nat.add_mul]
    unfold slot
    omega
  rw [← card_le_fin (g (π s))]
  congr 1
  ext j
  simp only [Finset.mem_filter, Finset.mem_univ, true_and]
  constructor
  · intro h
    by_contra hnot
    have hstep := tilesBelow_step T g _ _ (not_le.mp hnot)
    omega
  · intro h
    exact le_trans (tilesBelow_mono T g _ _ h) hlo

end Cert.TileRouting
-- ==== Proof.GroupedSpec.lean ====
/-
  The grouped linear map both programs compute, as one function of the argument arrays.

  Row `i` of the input carries a group `g i` (its word in `group_indices`, a number below 8); the result's row `i` is
  that row times the group's weight matrix plus the group's bias:
      out (i, j) = Σ_k x (i, k) · w (g i, k, j) + b (g i, j)
  on the extended reals.
-/
import Idealize.ShloMosaic.PureOps.Ideal
import Idealize.ShloMosaic.Lib.ValueIdx
import Idealize.ShloMosaic.Lib.SortFacts

noncomputable section

namespace Cert.GroupedSpec

open Idealize.ShloMosaic Idealize.ShloMosaic.ValueIdx

/-- The group of row `i`, as an index of the weights' leading axis. -/
def grp (gi : IVec ⟨1, ![8192]⟩ 32) (hgi : ∀ i, (gi i).toNat < 8) (i : Fin 8192) : Fin 8 :=
  ⟨(gi (Shape.Idx.ofFin i)).toNat, hgi _⟩

/-- Row `i`, column `j` of the grouped product: the row against its own group's matrix, plus that group's bias. -/
def entry (x : FVec Ideal ⟨2, ![8192, 1024]⟩ .f32) (w : FVec Ideal ⟨3, ![8, 1024, 4096]⟩ .f32)
    (b : FVec Ideal ⟨2, ![8, 4096]⟩ .f32) (i : Fin 8192) (γ : Fin 8) (j : Fin 4096) : EReal :=
  (∑ k : Fin 1024, (x (ix2 i k) : EReal) * (w (ix3 γ k j) : EReal)) + (b (ix2 γ j) : EReal)

/-- The whole result array. -/
def grouped (x : FVec Ideal ⟨2, ![8192, 1024]⟩ .f32) (gi : IVec ⟨1, ![8192]⟩ 32)
    (w : FVec Ideal ⟨3, ![8, 1024, 4096]⟩ .f32) (b : FVec Ideal ⟨2, ![8, 4096]⟩ .f32) (hgi : ∀ i, (gi i).toNat < 8) :
    FVec Ideal ⟨2, ![8192, 4096]⟩ .f32 :=
  fun i => entry x w b (i 0) (grp gi hgi (i 0)) (i 1)

/-- The grouped product of equal arguments is the same array, whichever proofs of the range accompany them. -/
theorem grouped_congr {x x' : FVec Ideal ⟨2, ![8192, 1024]⟩ .f32} {gi gi' : IVec ⟨1, ![8192]⟩ 32}
    {w w' : FVec Ideal ⟨3, ![8, 1024, 4096]⟩ .f32} {b b' : FVec Ideal ⟨2, ![8, 4096]⟩ .f32}
    (hx : x = x') (hg : gi = gi') (hw : w = w') (hb : b = b') (h : ∀ i, (gi i).toNat < 8) (h' : ∀ i, (gi' i).toNat < 8) :
    grouped x gi w b h = grouped x' gi' w' b' h' := by
  subst hx hg hw hb; rfl

end Cert.GroupedSpec

end
-- ==== Proof.LibArgsort.lean ====
/-
  `jnp.argsort` of a rank-1 table of words, as a permutation.

  The stable sort of the pairs (key, position) by a signed "less than" on the keys, carrying an iota, returns in its
  second component the source position of each sorted entry. That map of positions is a bijection (a stable sort
  permutes the fiber), the result's word at `s` is the number `π s`, and the keys read through it ascend.
-/
import Idealize.ShloMosaic.PureOps
import Idealize.ShloMosaic.Lib.SortFacts
import Idealize.ShloMosaic.Lib.StableHlo.Predicate

namespace Idealize.ShloMosaic.Argsort

open Idealize.ShloMosaic

/-- The source position of sorted entry `s` under the keys `key` compared signed. -/
noncomputable def srcPos {n : Nat} (key : IVec ⟨1, ![n]⟩ 32) (s : Fin n) : Fin n :=
  sortedFrom (fun k k' => IntOp.cmpi .slt (key (Shape.Idx.ofFin k)) (key (Shape.Idx.ofFin k')) == 1#1) s

theorem srcPos_bijective {n : Nat} (key : IVec ⟨1, ![n]⟩ 32) : Function.Bijective (srcPos key) :=
  ⟨sortedFrom_injective _, sortedFrom_surjective _⟩

/-- The argsort's word at sorted position `s` is the source position, as a number. -/
theorem argsort_apply {n : Nat} (key : IVec ⟨1, ![n]⟩ 32)
    (cmp : BitVec 32 × BitVec 32 → BitVec 32 × BitVec 32 → BitVec 1)
    (hcmp : ∀ l r, cmp l r = IntOp.cmpi .slt l.1 r.1) (s : Fin n) :
    (Host.sort2 ⟨1, ![n]⟩ 0 cmp key (iotaInDim ⟨1, ![n]⟩ 32 0)).2 (Shape.Idx.ofFin s)
      = BitVec.ofNat 32 (srcPos key s).val := by
  unfold Host.sort2
  rw [dif_pos (show 0 < (⟨1, ![n]⟩ : Shape).rank from Nat.one_pos)]
  simp [hcmp]
  rfl

/-- The signed "less than" bit is set exactly when the signed integers are in strict order. -/
private theorem slt_bit_eq_true_iff (a b : BitVec 32) :
    ((IntOp.cmpi .slt a b == 1#1) = true) ↔ a.toInt < b.toInt := by
  unfold IntOp.cmpi
  simp only [BitVec.slt]
  by_cases h : a.toInt < b.toInt <;> simp [h]

private theorem slt_bit_eq_false_iff (a b : BitVec 32) :
    ((IntOp.cmpi .slt a b == 1#1) = false) ↔ ¬ a.toInt < b.toInt := by
  rw [← slt_bit_eq_true_iff]; simp

/-- The keys read through the sort ascend (as signed integers). -/
theorem key_srcPos_mono {n : Nat} (key : IVec ⟨1, ![n]⟩ 32) (s s' : Fin n) (h : s ≤ s') :
    (key (Shape.Idx.ofFin (srcPos key s))).toInt ≤ (key (Shape.Idx.ofFin (srcPos key s'))).toInt := by
  rcases lt_or_eq_of_le h with hlt | rfl
  · -- a stable sort under a strict weak order leaves no inversion
    have hno := sortedFrom_noInversion
      (fun k k' => IntOp.cmpi .slt (key (Shape.Idx.ofFin k)) (key (Shape.Idx.ofFin k')) == 1#1)
      (fun k k' => IntOp.cmpi .slt (key (Shape.Idx.ofFin k)) (key (Shape.Idx.ofFin k')) == 1#1)
      (fun a b hab => by
        rw [slt_bit_eq_true_iff] at hab
        rw [slt_bit_eq_false_iff]
        omega)
      (fun _ _ hab => hab)
      (fun a b c hab hbc => by
        rw [slt_bit_eq_false_iff] at hab hbc ⊢
        omega)
      s s' hlt
    rw [slt_bit_eq_false_iff] at hno
    exact not_lt.mp hno
  · exact le_refl _

end Idealize.ShloMosaic.Argsort
-- ==== Proof.DecodeCounts.lean ====
/-
  The per-group tables as numbers. With every group word below 8 (`g := grp gi hgi`): `counts` holds the rows per
  group, `groupTiles` the tiles of 512 rows each group needs, `cumTiles` and `cumCount` the tiles and the rows of the
  groups before each group. No word wraps: every count is at most 8192.
-/
import proofs.«409940_j76802605187558_3_alg».proof.Proof.PrefixWords
import proofs.«409940_j76802605187558_3_alg».proof.Proof.TileRouting
import proofs.«409940_j76802605187558_3_alg».proof.Proof.GroupedSpec
import proofs.«409940_j76802605187558_3_alg».proof.Proof.LibArgsort
import Idealize.ShloMosaic.Lib.StableHlo.Predicate
import Idealize.ShloMosaic.Lib.WordArith

noncomputable section

namespace Cert.KernelIdeal.Decode

open Idealize.ShloMosaic Idealize.ShloMosaic.ValueIdx Idealize.ShloMosaic.Argsort
open Cert.KernelIdeal Cert.KernelIdeal.Gen Cert.KernelIdeal.Words Cert.TileRouting Cert.GroupedSpec

variable (gi : IVec S8192 32) (hgi : ∀ i, (gi i).toNat < 8)

theorem counts_toNat (j : Fin 8) : (counts gi (Shape.Idx.ofFin j)).toNat = cnt (grp gi hgi) j := by
  unfold counts
  rw [StableHlo.Predicate.toNat_reduce_count_rows (by norm_num)]
  unfold cnt
  congr 1
  apply Finset.filter_congr
  intro p _
  rw [Shape.Idx.ofFin_zero]
  show IntOp.cmpi .eq _ _ = 1#1 ↔ _
  rw [StableHlo.Predicate.cmpi_eq_iff, StableHlo.Predicate.bcast_rows, StableHlo.Predicate.bcast_cols,
    StableHlo.Predicate.iota_apply]
  unfold grp
  rw [Fin.ext_iff]
  show _ ↔ (gi (Shape.Idx.ofFin p)).toNat = j.val
  constructor
  · intro h
    rw [h, BitVec.toNat_ofNat]
    have := j.isLt
    omega
  · intro h
    apply BitVec.eq_of_toNat_eq
    rw [BitVec.toNat_ofNat, h]
    have := j.isLt
    omega

/-- A group has at most all the rows. -/
private theorem cnt_le (g : Fin 8192 → Fin 8) (j : Fin 8) : cnt g j ≤ 8192 := by
  unfold cnt
  calc _ ≤ (Finset.univ : Finset (Fin 8192)).card := Finset.card_filter_le _ _
    _ = 8192 := by simp

/-- The dividend of the tile count is count + 511: neither word operation wraps. -/
private theorem tilesArg_toNat (j : Fin 8) :
    (tilesArg gi (Shape.Idx.ofFin j)).toNat = cnt (grp gi hgi) j + 511 := by
  have hc := counts_toNat gi hgi j
  have hle := cnt_le (grp gi hgi) j
  show (IntOp.subi (IntOp.addi (counts gi (Shape.Idx.ofFin j)) 512#32) 1#32).toNat = _
  unfold IntOp.subi IntOp.addi
  simp only [BitVec.toNat_sub, BitVec.toNat_add, BitVec.toNat_ofNat, hc]
  omega

/-- A positive word below 2³¹ divided by 512: the signed quotient is the quotient of the values. -/
private theorem divsi_512 (x : BitVec 32) (hx : x.toNat < 2 ^ 31) : (IntOp.divsi .host x 512#32).toNat = x.toNat / 512 := by
  have hcorner : ¬ IntOp.SDivCorner x 512#32 := by
    intro hc; rcases hc with hc | ⟨_, hc⟩ <;> exact absurd hc (by decide)
  have hm : x.msb = false := BitVec.msb_eq_false_iff_two_mul_lt.mpr (by omega)
  simp only [IntOp.divsi, if_neg hcorner, BitVec.sdiv_eq, hm, show (512#32 : BitVec 32).msb = false from by decide, BitVec.udiv_eq,
    BitVec.toNat_udiv, BitVec.toNat_ofNat]

theorem groupTiles_toNat (j : Fin 8) : (groupTiles gi (Shape.Idx.ofFin j)).toNat = tiles 512 (cnt (grp gi hgi) j) := by
  have hx := tilesArg_toNat gi hgi j
  have hle := cnt_le (grp gi hgi) j
  have hsign : signi (tilesArg gi) (Shape.Idx.ofFin j) = 1#32 := by
    show (if tilesArg gi (Shape.Idx.ofFin j) = 0 then 0 else if (tilesArg gi (Shape.Idx.ofFin j)).msb then -1 else 1) = 1#32
    have hne : tilesArg gi (Shape.Idx.ofFin j) ≠ 0 := by
      intro h
      rw [h] at hx
      simp at hx
    have hm : (tilesArg gi (Shape.Idx.ofFin j)).msb = false := BitVec.msb_eq_false_iff_two_mul_lt.mpr (by omega)
    rw [if_neg hne, hm]
    rfl
  have hsel : groupTiles gi (Shape.Idx.ofFin j) = IntOp.divsi .host (tilesArg gi (Shape.Idx.ofFin j)) 512#32 := by
    have hs2 : broadcastInDim S8 ![] bcast_S_S8 (signi (id (constantI S_ 32 512#32))) (Shape.Idx.ofFin j) = 1#32 := by
      show (if (512#32 : BitVec 32) = 0 then 0 else if (512#32 : BitVec 32).msb then -1 else 1) = 1#32
      decide
    show Scalar.select (IntOp.andi (IntOp.cmpi .ne (signi (tilesArg gi) (Shape.Idx.ofFin j))
      (broadcastInDim S8 ![] bcast_S_S8 (signi (id (constantI S_ 32 512#32))) (Shape.Idx.ofFin j))) _) _ _ = _
    rw [hsign, hs2, show IntOp.cmpi .ne (1#32 : BitVec 32) 1#32 = 0#1 from by decide]
    unfold IntOp.andi
    rw [BitVec.zero_and, select_zero]
    rfl
  rw [hsel, divsi_512 _ (by omega), hx]
  unfold tiles
  omega

private theorem finRange8 : List.finRange 8 = [0, 1, 2, 3, 4, 5, 6, 7] := by decide

/-- The window sum at entry `j`: the left fold, over the eight window positions `n`, of the operand at `j + n − 7`
    where that is an entry and of zero where it is padding. -/
private theorem cumsum8_fold (x : IVec S8 32) (j : Fin 8) :
    cumsum8 x (Shape.Idx.ofFin j)
      = (List.finRange 8).foldl (fun r (n : Fin 8) =>
          r + (if h : 7 ≤ j.val + n.val ∧ j.val + n.val - 7 < 8 then x (Shape.Idx.ofFin ⟨j.val + n.val - 7, h.2⟩) else 0#32)) 0#32 := by
  unfold cumsum8 Host.reduceWindow
  show List.foldl _ _ (List.finRange 8) = _
  congr 1
  funext r n
  show r + _ = r + _
  congr 1
  have hn : ∀ a : Fin 1, (((⟨1, ![8]⟩ : Shape).rowMajor.symm n) a).val = n.val := by
    intro a
    have ha : a = 0 := Subsingleton.elim _ _
    subst ha
    show n.val / 1 = n.val
    simp
  have hj : ∀ a : Fin 1, ((Shape.Idx.ofFin j : S8.Idx) a).val = j.val := by
    intro a
    have ha : a = 0 := Subsingleton.elim _ _
    subst ha
    rfl
  by_cases h : 7 ≤ j.val + n.val ∧ j.val + n.val - 7 < 8
  · rw [dif_pos h, dif_pos]
    · congr 1
      funext a
      apply Fin.ext
      have ha : a = 0 := Subsingleton.elim _ _
      subst ha
      show ((Shape.Idx.ofFin j : S8.Idx) _).val * 1 + (((⟨1, ![8]⟩ : Shape).rowMajor.symm n) 0).val - 7 = j.val + n.val - 7
      rw [hn, hj]
      simp
    · intro a
      have ha : a = 0 := Subsingleton.elim _ _
      subst ha
      show 7 ≤ ((Shape.Idx.ofFin j : S8.Idx) _).val * 1 + (((⟨1, ![8]⟩ : Shape).rowMajor.symm n) 0).val
        ∧ ((Shape.Idx.ofFin j : S8.Idx) _).val * 1 + (((⟨1, ![8]⟩ : Shape).rowMajor.symm n) 0).val - 7 < 8
      rw [hn, hj]
      simpa using h
  · rw [dif_neg h, dif_neg]
    · rfl
    · intro hall
      apply h
      have := hall 0
      change 7 ≤ ((Shape.Idx.ofFin j : S8.Idx) _).val * 1 + (((⟨1, ![8]⟩ : Shape).rowMajor.symm n) 0).val
        ∧ ((Shape.Idx.ofFin j : S8.Idx) _).val * 1 + (((⟨1, ![8]⟩ : Shape).rowMajor.symm n) 0).val - 7 < 8 at this
      rw [hn, hj] at this
      simpa using this

/-- The eight entries read by position, zero past the end. -/
private def ext8 (x : IVec S8 32) (k : ℕ) : BitVec 32 := if h : k < 8 then x (Shape.Idx.ofFin ⟨k, h⟩) else 0#32

private theorem ext8_val (x : IVec S8 32) (k : Fin 8) : x (Shape.Idx.ofFin k) = ext8 x k.val := by
  unfold ext8
  rw [dif_pos k.isLt]

private theorem cumsum8_fold' (x : IVec S8 32) (j : Fin 8) :
    cumsum8 x (Shape.Idx.ofFin j)
      = (List.finRange 8).foldl (fun r (n : Fin 8) =>
          r + (if 7 ≤ j.val + n.val ∧ j.val + n.val - 7 < 8 then ext8 x (j.val + n.val - 7) else 0#32)) 0#32 := by
  rw [cumsum8_fold]
  congr 1
  funext r n
  congr 1
  by_cases h : 7 ≤ j.val + n.val ∧ j.val + n.val - 7 < 8
  · rw [dif_pos h, if_pos h, ext8, dif_pos h.2]
  · rw [dif_neg h, if_neg h]

/-- The inclusive running sum less the entry itself holds the values of the entries before `j`, when the eight values
    together stay below 2³². -/
private theorem exclusive_toNat (x : IVec S8 32) (hx : ∑ k : Fin 8, (x (Shape.Idx.ofFin k)).toNat < 2 ^ 32) (j : Fin 8) :
    (subi (cumsum8 x) x (Shape.Idx.ofFin j)).toNat
      = ∑ k ∈ Finset.univ.filter (fun k : Fin 8 => k < j), (x (Shape.Idx.ofFin k)).toNat := by
  show (IntOp.subi (cumsum8 x (Shape.Idx.ofFin j)) (x (Shape.Idx.ofFin j))).toNat = _
  rw [cumsum8_fold', finRange8, Finset.sum_filter]
  simp only [ext8_val] at hx ⊢
  rw [Fin.sum_univ_eight] at hx ⊢
  unfold IntOp.subi
  fin_cases j <;> simp [List.foldl, BitVec.toNat_sub, BitVec.toNat_add] at hx ⊢ <;> omega

include hgi in
/-- The eight counts together stay far below 2³². -/
private theorem sum_counts_lt : ∑ k : Fin 8, (counts gi (Shape.Idx.ofFin k)).toNat < 2 ^ 32 := by
  calc ∑ k : Fin 8, (counts gi (Shape.Idx.ofFin k)).toNat
      ≤ ∑ _k : Fin 8, 8192 := Finset.sum_le_sum (fun k _ => by rw [counts_toNat gi hgi k]; exact cnt_le _ k)
    _ < 2 ^ 32 := by simp

include hgi in
/-- So do the eight tile counts: each is at most 17. -/
private theorem sum_groupTiles_lt : ∑ k : Fin 8, (groupTiles gi (Shape.Idx.ofFin k)).toNat < 2 ^ 32 := by
  calc ∑ k : Fin 8, (groupTiles gi (Shape.Idx.ofFin k)).toNat
      ≤ ∑ _k : Fin 8, 17 := Finset.sum_le_sum (fun k _ => by
        rw [groupTiles_toNat gi hgi k]
        have := cnt_le (grp gi hgi) k
        unfold tiles
        omega)
    _ < 2 ^ 32 := by simp

theorem cumTiles_toNat (j : Fin 8) : (cumTiles gi (Shape.Idx.ofFin j)).toNat = tilesBelow 512 (grp gi hgi) j := by
  unfold cumTiles tilesBelow
  rw [exclusive_toNat (groupTiles gi) (sum_groupTiles_lt gi hgi) j]
  exact Finset.sum_congr rfl (fun k _ => groupTiles_toNat gi hgi k)

theorem cumCount_toNat (j : Fin 8) : (cumCount gi (Shape.Idx.ofFin j)).toNat = below (grp gi hgi) j := by
  unfold cumCount below
  rw [exclusive_toNat (counts gi) (sum_counts_lt gi hgi) j]
  exact Finset.sum_congr rfl (fun k _ => counts_toNat gi hgi k)

end Cert.KernelIdeal.Decode

end
-- ==== Proof.DecodeRows.lean ====
/-
  The per-row tables as numbers. `perm` is the stable argsort `π := srcPos gi` of the rows by group; `sortedG` reads
  the groups through it, ascending; and `targetRow` at sorted position `s` is the padded row
  `slot 512 g π s` = (tiles before the row's group) · 512 + (s − rows before the row's group), below 12288.
-/
import proofs.«409940_j76802605187558_3_alg».proof.Proof.DecodeCounts

noncomputable section

namespace Cert.KernelIdeal.Decode

open Idealize.ShloMosaic Idealize.ShloMosaic.ValueIdx Idealize.ShloMosaic.Argsort
open Cert.KernelIdeal Cert.KernelIdeal.Gen Cert.KernelIdeal.Words Cert.TileRouting Cert.GroupedSpec

variable (gi : IVec S8192 32) (hgi : ∀ i, (gi i).toNat < 8)

/-- The index normalisation leaves a word below 2³¹ as it is: such a word is not negative. -/
private theorem wrap_of_small (N : BitVec 32) (x : IVec S8192 32) (i : S8192.Idx) (hx : (x i).toNat < 2 ^ 31) :
    wrap N x i = x i := by
  unfold wrap
  rw [select_apply]
  have h : cmpi .slt x zero8192 i = 0#1 := by
    apply eq_zero_of_ne_one
    intro h1
    have h2 : IntOp.cmpi .slt (x i) 0#32 = 1#1 := h1
    rw [StableHlo.Predicate.slt_iff_toNat hx (by decide)] at h2
    simp at h2
  rw [h, select_zero]

/-- The start-index column of a normalised vector whose word at `s` is the small number `k` reads `k` at row `s`. -/
private theorem col_wrap_apply (N : BitVec 32) (x : IVec S8192 32) (s : Fin 8192) (k : ℕ) (hk : k < 2 ^ 31)
    (hx : x (Shape.Idx.ofFin s) = BitVec.ofNat 32 k) :
    (col (wrap N x) (StableHlo.Predicate.ixP s)).toInt.toNat = k := by
  have hk' : (x (Shape.Idx.ofFin s)).toNat = k := by
    rw [hx, BitVec.toNat_ofNat]; exact Nat.mod_eq_of_lt (by omega)
  unfold col
  rw [StableHlo.Predicate.bcast_col1, wrap_of_small N x _ (by omega),
    StableHlo.Predicate.toInt_eq_toNat_of_lt (by omega), hk']
  simp

theorem perm_apply (s : Fin 8192) : perm gi (Shape.Idx.ofFin s) = BitVec.ofNat 32 (srcPos gi s).val := by
  unfold perm
  exact argsort_apply gi comparator_i32_i32_d0 (fun _ _ => rfl) s

include hgi in
theorem sortedG_apply (s : Fin 8192) : sortedG gi (Shape.Idx.ofFin s) = gi (Shape.Idx.ofFin (srcPos gi s)) := by
  unfold sortedG
  rw [StableHlo.Predicate.gather_take gather_S8192_S8192x1_S8192_n_0_n_n_0_1_1 rfl rfl rfl rfl gi _ s (by norm_num)]
  refine congrArg gi (congrArg Shape.Idx.ofFin (Fin.ext ?_))
  have hlt := (srcPos gi s).isLt
  show min _ _ = _
  rw [col_wrap_apply 8192#32 (perm gi) s (srcPos gi s).val (by omega) (perm_apply gi s)]
  omega

/-- The groups read through the sort ascend. -/
theorem grp_mono (s s' : Fin 8192) (h : s ≤ s') : grp gi hgi (srcPos gi s) ≤ grp gi hgi (srcPos gi s') := by
  have hm := key_srcPos_mono gi s s' h
  rw [StableHlo.Predicate.toInt_eq_toNat_of_lt (by have := hgi (Shape.Idx.ofFin (srcPos gi s)); omega),
    StableHlo.Predicate.toInt_eq_toNat_of_lt (by have := hgi (Shape.Idx.ofFin (srcPos gi s')); omega)] at hm
  rw [Fin.le_def]
  show (gi (Shape.Idx.ofFin (srcPos gi s))).toNat ≤ (gi (Shape.Idx.ofFin (srcPos gi s'))).toNat
  exact_mod_cast hm

theorem slot_lt_padded (s : Fin 8192) : slot 512 (grp gi hgi) (srcPos gi) s < 12288 := by
  have h := slot_lt 512 (by norm_num) (grp gi hgi) (srcPos gi) (srcPos_bijective gi) (grp_mono gi hgi) s
  have e : (8192 / 512 + 8) * 512 = 12288 := by norm_num
  omega

/-- The take from a table of eight words at the start-index column of a normalised vector whose word at `s` is the
    group number `j`: it reads entry `j`. -/
private theorem gather8_apply (t : IVec S8 32) (x : IVec S8192 32) (s : Fin 8192) (j : Fin 8)
    (hx : x (Shape.Idx.ofFin s) = BitVec.ofNat 32 j.val) :
    Host.gather gather_S8_S8192x1_S8192_n_0_n_n_0_1_1 t (col (wrap 8#32 x)) (Shape.Idx.ofFin s)
      = t (Shape.Idx.ofFin j) := by
  rw [StableHlo.Predicate.gather_take gather_S8_S8192x1_S8192_n_0_n_n_0_1_1 rfl rfl rfl rfl t _ s (by norm_num)]
  refine congrArg t (congrArg Shape.Idx.ofFin (Fin.ext ?_))
  have hlt := j.isLt
  show min _ _ = _
  rw [col_wrap_apply 8#32 x s j.val (by omega) hx]
  omega

theorem targetRow_apply (s : Fin 8192) :
    targetRow gi (Shape.Idx.ofFin s) = BitVec.ofNat 32 (slot 512 (grp gi hgi) (srcPos gi) s) := by
  have hsg : sortedG gi (Shape.Idx.ofFin s) = BitVec.ofNat 32 (grp gi hgi (srcPos gi s)).val := by
    rw [sortedG_apply gi hgi s]
    show _ = BitVec.ofNat 32 (gi (Shape.Idx.ofFin (srcPos gi s))).toNat
    rw [BitVec.ofNat_toNat, BitVec.setWidth_eq]
  have hT := gather8_apply (cumTiles gi) (sortedG gi) s (grp gi hgi (srcPos gi s)) hsg
  have hC := gather8_apply (cumCount gi) (sortedG gi) s (grp gi hgi (srcPos gi s)) hsg
  have hTn := cumTiles_toNat gi hgi (grp gi hgi (srcPos gi s))
  have hCn := cumCount_toNat gi hgi (grp gi hgi (srcPos gi s))
  have hbl := below_le (grp gi hgi) (srcPos gi) (srcPos_bijective gi) (grp_mono gi hgi) s
  have hsl := slot_lt_padded gi hgi s
  have hs := s.isLt
  unfold slot at hsl ⊢
  show IntOp.addi (IntOp.muli (Host.gather _ (cumTiles gi) _ (Shape.Idx.ofFin s)) 512#32)
      (IntOp.subi (BitVec.ofNat 32 s.val) (Host.gather _ (cumCount gi) _ (Shape.Idx.ofFin s))) = _
  rw [hT, hC]
  apply BitVec.eq_of_toNat_eq
  show (cumTiles gi (Shape.Idx.ofFin (grp gi hgi (srcPos gi s))) * 512#32
      + (BitVec.ofNat 32 s.val - cumCount gi (Shape.Idx.ofFin (grp gi hgi (srcPos gi s))))).toNat = _
  rw [BitVec.toNat_add, BitVec.toNat_mul, BitVec.toNat_sub, BitVec.toNat_ofNat, BitVec.toNat_ofNat, BitVec.toNat_ofNat,
    hTn, hCn]
  omega

end Cert.KernelIdeal.Decode

end
-- ==== Proof.DecodeTable.lean ====
/-
  The tile table as numbers. With every group word below 8, the tile that holds sorted position `s`'s padded row belongs to that row's group:
  the groups whose first tile is at or before it are exactly `0 … g (π s)`.
-/
import proofs.«409940_j76802605187558_3_alg».proof.Proof.DecodeRows

noncomputable section

namespace Cert.KernelIdeal.Decode

open Idealize.ShloMosaic Idealize.ShloMosaic.ValueIdx Idealize.ShloMosaic.Argsort
open Cert.KernelIdeal Cert.KernelIdeal.Gen Cert.KernelIdeal.Words Cert.TileRouting Cert.GroupedSpec

variable (gi : IVec S8192 32) (hgi : ∀ i, (gi i).toNat < 8)

open Idealize.ShloMosaic.StableHlo.Predicate

/-- A crude bound: each of at most eight groups has at most 8192 rows, hence at most 16 tiles. -/
private theorem tilesBelow_le (g : Fin 8192 → Fin 8) (j : Fin 8) : tilesBelow 512 g j ≤ 128 := by
  unfold tilesBelow
  have hterm : ∀ j' ∈ Finset.univ.filter (fun j' : Fin 8 => j' < j), tiles 512 (cnt g j') ≤ 16 := by
    intro j' _
    have hc : cnt g j' ≤ 8192 := by
      unfold cnt
      exact le_trans (Finset.card_le_univ _) (by simp)
    unfold tiles
    omega
  have h := Finset.sum_le_card_nsmul _ _ 16 hterm
  have hcard : (Finset.univ.filter (fun j' : Fin 8 => j' < j)).card ≤ 8 :=
    le_trans (Finset.card_le_univ _) (by simp)
  simp only [smul_eq_mul] at h
  omega

/-- The sum over the columns at row `t` counts the groups whose first tile is at or before tile `t`. -/
private theorem starts_count (t : Fin 24) :
    (Host.reduce IntOp.addi
      (extui 32
        (cmpi .sge
          (broadcastInDim S24x8 ![0, 1] bcast_S24x1_S24x8_0_1 (broadcastInDim S24x1 ![0] bcast_S24_S24x1_0 (iotaInDim S24 32 0)))
          (broadcastInDim S24x8 ![0, 1] bcast_S1x8_S24x8_0_1 (broadcastInDim S1x8 ![1] bcast_S8_S1x8_1 (cumTiles gi))))
        natLt_1_32)
      (constantI S_ 32 0#32) reducesTo_S24x8_S24_d1 h_S_ (Shape.Idx.ofFin t)).toNat
    = (Finset.univ.filter (fun j : Fin 8 => tilesBelow 512 (grp gi hgi) j ≤ t.val)).card := by
  rw [toNat_reduce_count_cols (by norm_num) _ natLt_1_32 reducesTo_S24x8_S24_d1 h_S_ (Shape.Idx.ofFin t)]
  congr 1
  apply Finset.filter_congr
  intro q _
  rw [Shape.Idx.ofFin_zero]
  show IntOp.cmpi .sge _ _ = 1#1 ↔ _
  rw [bcast_rows, bcast_cols, iota_apply]
  have hb := tilesBelow_le (grp gi hgi) q
  have ht := t.isLt
  rw [sge_iff_toNat (by rw [WordArith.toNat_ofNat_of_lt _ (by omega)]; omega)
      (by rw [cumTiles_toNat gi hgi]; omega),
    cumTiles_toNat gi hgi, WordArith.toNat_ofNat_of_lt _ (by omega)]

/-- One less than a count `k + 1` with `k` below 8, clipped to 0 … 7, is `k`: nothing wraps and the clip is idle. -/
private theorem clip_pred (R : BitVec 32) (k : ℕ) (hk : k < 8) (hR : R.toNat = k + 1) :
    (IntOp.minsi 7#32 (IntOp.maxsi 0#32 (IntOp.subi R 1#32))).toNat = k := by
  have hz : (IntOp.subi R 1#32).toNat = k := by
    show (R - 1#32).toNat = k
    rw [BitVec.toNat_sub, hR]
    simp
    omega
  have hzi : (IntOp.subi R 1#32).toInt = (k : Int) := by
    rw [toInt_eq_toNat_of_lt (by omega), hz]
  have hm : (IntOp.maxsi 0#32 (IntOp.subi R 1#32)).toNat = k := by
    rw [WordArith.toNat_maxsi_zero, hzi]; simp
  rw [WordArith.toNat_minsi_of_lt _ _ (by decide) (by omega), hm]
  show min 7 k = k
  omega

/-- The tile table at any tile index equal to the tile of sorted position `s`. -/
private theorem tileGroup_at (s : Fin 8192) (t : Fin 24)
    (h : t.val = slot 512 (grp gi hgi) (srcPos gi) s / 512) :
    (tileGroup gi (Shape.Idx.ofFin t)).toNat = (grp gi hgi (srcPos gi s)).val := by
  have hc := starts_count gi hgi t
  rw [h, slot_tile 512 (by norm_num) (grp gi hgi) (srcPos gi) (srcPos_bijective gi) (grp_mono gi hgi) s] at hc
  have hk := (grp gi hgi (srcPos gi s)).isLt
  exact clip_pred _ _ hk hc

theorem tileGroup_slot (s : Fin 8192) :
    (tileGroup gi (Shape.Idx.ofFin ⟨slot 512 (grp gi hgi) (srcPos gi) s / 512,
        Nat.div_lt_of_lt_mul (by have := slot_lt_padded gi hgi s; omega)⟩)).toNat
      = (grp gi hgi (srcPos gi s)).val := by
  exact tileGroup_at gi hgi s _ rfl

end Cert.KernelIdeal.Decode

end
-- ==== Proof.LibRowScatter.lean ====
/-
  Rows moved by a start-index column, read at an index.

  `x.at[rows].set(v)` over a rank-2 array prints as a scatter whose start indices are an [n × 1] column, whose update
  window is one whole row (window axis 1, inserted axis 0) and whose body returns the update; `x[rows]` prints as the
  gather with the same column, offset axis 1, collapsed axis 0 and slices of one row. When row `s` of the column
  holds the row number `r s`:
  * the gather's row `s` is row `r s` of the operand (no clamping happens: the row is inside the array);
  * when moreover `r` is injective, the scatter's row `r s` is row `s` of the updates — every other update lands on
    another row, so the fold over the updates meets position `(r s, c)` exactly once.
-/
import Idealize.ShloMosaic.PureOps
import Idealize.ShloMosaic.Lib.ValueIdx

namespace Idealize.ShloMosaic.RowMoves

open Idealize.ShloMosaic Idealize.ShloMosaic.ValueIdx

/-- A left fold of single-position overwrites, read at a position that exactly one step (among those that land
    there) writes: the value that step wrote. -/
theorem foldl_overwrite_unique {ι κ α : Type} [DecidableEq κ] (pos : ι → Option κ) (val : ι → α) (x : κ → α)
    (L : List ι) (i : κ) (n₀ : ι) (hmem : n₀ ∈ L) (hpos : pos n₀ = some i)
    (huniq : ∀ n ∈ L, pos n = some i → n = n₀) :
    L.foldl (fun r n => match pos n with
        | some i₁ => fun i' => if i' = i₁ then val n else r i'
        | none => r) x i = val n₀ := by
  induction L using List.reverseRecOn with
  | nil => cases hmem
  | append_singleton L a ih =>
    rw [List.foldl_append, List.foldl_cons, List.foldl_nil]
    by_cases ha : pos a = some i
    · have haeq : a = n₀ := huniq a (by simp) ha
      subst haeq
      simp only [ha, if_true]
    · have hmem' : n₀ ∈ L := by
        rcases List.mem_append.1 hmem with h | h
        · exact h
        · have hna : n₀ = a := by simpa using h
          subst hna; exact absurd hpos ha
      have ih' := ih hmem' (fun n hn => huniq n (List.mem_append_left _ hn))
      cases hpa : pos a with
      | none => simp only; exact ih'
      | some i₁ =>
        have hne : i ≠ i₁ := fun h => ha (by rw [hpa, h])
        simp only [if_neg hne]; exact ih'

/-- An entry of a one-element list is that element. -/
private theorem getElem_of_eq_singleton {β : Type} {l : List β} {x : β} (h : l = [x]) (k : Nat) (hk : k < l.length) :
    l[k] = x := by
  subst h
  have hk0 : k = 0 := by simpa using hk
  subst hk0; rfl

/-- Row `s` of `x[rows]`: the operand's row `r`, when the column's entry `s` is the row number `r`. -/
theorem gather_rows {α : Type} {R C n w : Nat}
    (d : GatherDims ⟨2, ![R, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![R, C]⟩ : Shape).Idx → α) (idx : IVec ⟨2, ![n, 1]⟩ w)
    (s : Fin n) (c : Fin C) (r : Fin R) (hidx : (idx (ix2 s (0 : Fin 1))).toInt = (r.val : Int)) :
    Host.gather d x idx (ix2 s c) = x (ix2 r c) := by
  have hb : ∀ a : Fin 2, a ∉ d.operandBatchingDims := fun a => by rw [hob]; exact List.not_mem_nil
  -- the result's batch axes: axis 0 alone
  have hbd : d.batchDims = [0] := by
    show (⟨2, ![n, C]⟩ : Shape).kept d.offsetDims = [0]
    rw [hoff]; rfl
  -- the start index row `s` reads sits at (s, 0)
  have hsi : ∀ c' : Fin d.startIndexMap.length, d.siIdx (ix2 s c) c' = ix2 s (0 : Fin 1) := by
    intro c'
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      have hlen : d.startIndexMap.length = 1 := by rw [hsim]; rfl
      have hc' := c'.isLt
      show c'.val = 0
      omega
  -- axis 0: start-indexed and collapsed
  have h0 : (d.operandIdx (ix2 s c) idx 0).val = r.val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    rw [hsi, hidx, hsl]
    show min (r.val : Int).toNat (R - 1) = r.val
    have := r.isLt
    simp only [Int.toNat_natCast]
    omega
  -- axis 1: the offset axis
  have h1 : (d.operandIdx (ix2 s c) idx 1).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), GatherDims.start, dif_neg hm,
      Nat.zero_add, Nat.add_zero]
    unfold GatherDims.offCoord
    rw [dif_pos hk, getElem_of_eq_singleton hoff]
    rfl
  unfold Host.gather
  congr 1
  funext a
  match a with
  | ⟨0, _⟩ => exact Fin.ext h0
  | ⟨1, _⟩ => exact Fin.ext h1

/-- Row `r s` of `x.at[rows].set(v)`: the updates' row `s`, when the column's entries are the row numbers `r` and
    no two entries name one row. -/
theorem scatter_rows_set {α : Type} {R C n w : Nat}
    (d : ScatterDims ⟨2, ![R, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : (⟨2, ![R, C]⟩ : Shape).Idx → α) (idx : IVec ⟨2, ![n, 1]⟩ w) (upd : (⟨2, ![n, C]⟩ : Shape).Idx → α)
    (r : Fin n → Fin R) (hr : Function.Injective r)
    (hidx : ∀ s : Fin n, (idx (ix2 s (0 : Fin 1))).toInt = ((r s).val : Int))
    (s : Fin n) (c : Fin C) :
    Host.scatter d (fun _ b => b) x idx upd (ix2 (r s) c) = upd (ix2 s c) := by
  -- the updates' scatter axes: axis 0 alone; the operand's window axes: axis 1 alone
  have hus : d.uScatter = [0] := by
    show (⟨2, ![n, C]⟩ : Shape).kept d.updateWindowDims = [0]
    rw [huw]; rfl
  have hsk : d.sKept = [1] := by
    show (⟨2, ![R, C]⟩ : Shape).kept d.insertedWindowDims = [1]
    rw [hiw]; rfl
  -- update (s', c') lands on (r s', c')
  have hres : ∀ (s' : Fin n) (c' : Fin C), d.resultIdx? (ix2 s' c') idx = some (ix2 (r s') c') := by
    intro s' c'
    have hsi : ∀ k : Fin d.scatterDimsToOperandDims.length, d.siIdx (ix2 s' c') k = ix2 s' (0 : Fin 1) := by
      intro k
      funext b
      match b with
      | ⟨0, _⟩ =>
        unfold ScatterDims.siIdx
        rw [dif_neg (by rw [hivd]; simp)]
        unfold ScatterDims.siCoord
        apply Fin.ext
        simp only [Fin.val_cast]
        rw [getElem_of_eq_singleton hus]
        rfl
      | ⟨1, _⟩ =>
        unfold ScatterDims.siIdx
        rw [dif_pos (by rw [hivd])]
        apply Fin.ext
        have hlen : d.scatterDimsToOperandDims.length = 1 := by rw [hsd]; rfl
        have hk := k.isLt
        show k.val = 0
        omega
    have hm0 : (0 : Fin 2) ∈ d.scatterDimsToOperandDims := by rw [hsd]; exact List.mem_singleton.mpr rfl
    have hm1 : (1 : Fin 2) ∉ d.scatterDimsToOperandDims := by rw [hsd]; simp
    have hk0 : (0 : Fin 2) ∉ d.sKept := by rw [hsk]; simp
    have hk1 : (1 : Fin 2) ∈ d.sKept := by rw [hsk]; simp
    have hst0 : d.start (ix2 s' c') idx 0 = ((r s').val : Int) := by
      unfold ScatterDims.start
      rw [dif_pos hm0, hsi, hidx]
    have hst1 : d.start (ix2 s' c') idx 1 = 0 := by
      unfold ScatterDims.start
      rw [dif_neg hm1]
    have hw0 : d.window (ix2 s' c') 0 = 0 := by
      unfold ScatterDims.window
      rw [dif_neg hk0]
    have hw1 : d.window (ix2 s' c') 1 = c'.val := by
      unfold ScatterDims.window
      rw [dif_pos hk1, getElem_of_eq_singleton huw]
      rfl
    have hrs := (r s').isLt
    have hc' := c'.isLt
    have hall : ∀ a : Fin 2, 0 ≤ d.start (ix2 s' c') idx a + d.window (ix2 s' c') a ∧
        d.start (ix2 s' c') idx a + d.window (ix2 s' c') a < (⟨2, ![R, C]⟩ : Shape).size a := by
      intro a
      match a with
      | ⟨0, _⟩ =>
        show 0 ≤ d.start (ix2 s' c') idx 0 + d.window (ix2 s' c') 0 ∧
          d.start (ix2 s' c') idx 0 + d.window (ix2 s' c') 0 < (R : Int)
        rw [hst0, hw0]; omega
      | ⟨1, _⟩ =>
        show 0 ≤ d.start (ix2 s' c') idx 1 + d.window (ix2 s' c') 1 ∧
          d.start (ix2 s' c') idx 1 + d.window (ix2 s' c') 1 < (C : Int)
        rw [hst1, hw1]; omega
    unfold ScatterDims.resultIdx?
    rw [dif_pos hall]
    congr 1
    funext a
    match a with
    | ⟨0, _⟩ =>
      apply Fin.ext
      show (d.start (ix2 s' c') idx 0 + d.window (ix2 s' c') 0).toNat = (r s').val
      rw [hst0, hw0]; omega
    | ⟨1, _⟩ =>
      apply Fin.ext
      show (d.start (ix2 s' c') idx 1 + d.window (ix2 s' c') 1).toNat = c'.val
      rw [hst1, hw1]; omega
  -- the fold meets (r s, c) at update (s, c) alone
  have key := foldl_overwrite_unique
    (fun m => d.resultIdx? ((⟨2, ![n, C]⟩ : Shape).rowMajor.symm m) idx)
    (fun m => upd ((⟨2, ![n, C]⟩ : Shape).rowMajor.symm m)) x
    (List.finRange (⟨2, ![n, C]⟩ : Shape).numel) (ix2 (r s) c) ((⟨2, ![n, C]⟩ : Shape).rowMajor (ix2 s c))
    (List.mem_finRange _)
    (by simp only [Equiv.symm_apply_apply]; exact hres s c)
    (by
      intro m _ hm
      obtain ⟨a, b, hj⟩ : ∃ (a : Fin n) (b : Fin C), (⟨2, ![n, C]⟩ : Shape).rowMajor.symm m = ix2 a b :=
        ⟨_, _, eq_ix2 _⟩
      rw [hj, hres] at hm
      have he := Option.some.inj hm
      have e0 : r a = r s := congrFun he 0
      have e1 : b = c := congrFun he 1
      have e0' := hr e0
      rw [e0', e1] at hj
      rw [← hj, Equiv.apply_symm_apply])
  rw [Equiv.symm_apply_apply] at key
  unfold Host.scatter
  convert key
  rename_i rr m
  cases d.resultIdx? ((⟨2, ![n, C]⟩ : Shape).rowMajor.symm m) idx with
  | none => rfl
  | some i =>
    funext i'
    by_cases hi : i' = i
    · simp [hi]
    · simp [hi]

end Idealize.ShloMosaic.RowMoves
-- ==== Proof.DecodeMoves.lean ====
/-
  The two row moves at the ideal instance (a change of float format is the identity there). The padded input holds,
  at the padded row of sorted position `s`, the input's row `π s`; and the result holds, at row `π s`, the padded
  output's row at that padded position. Both rest on the padded positions being distinct and inside the padded
  array, and on `π` being a bijection.
-/
import proofs.«409940_j76802605187558_3_alg».proof.Proof.DecodeRows
import proofs.«409940_j76802605187558_3_alg».proof.Proof.LibRowScatter

noncomputable section

namespace Cert.KernelIdeal.Decode

open Idealize.ShloMosaic Idealize.ShloMosaic.ValueIdx Idealize.ShloMosaic.Argsort
open Cert.KernelIdeal Cert.KernelIdeal.Gen Cert.KernelIdeal.Words Cert.TileRouting Cert.GroupedSpec

open Idealize.ShloMosaic.RowMoves

variable (gi : IVec S8192 32) (hgi : ∀ i, (gi i).toNat < 8)

/-- A word below 2³¹ is not negative, so the index normalisation leaves it. -/
private theorem wrap_of_nonneg (N : BitVec 32) (y : IVec S8192 32) (s : Fin 8192)
    (h : (y (Shape.Idx.ofFin s)).toNat < 2 ^ 31) :
    wrap N y (Shape.Idx.ofFin s) = y (Shape.Idx.ofFin s) := by
  unfold wrap
  rw [select_apply]
  have hc : cmpi .slt y zero8192 (Shape.Idx.ofFin s) = 0#1 := by
    show IntOp.cmpi .slt (y (Shape.Idx.ofFin s)) 0#32 = 0#1
    have hi := StableHlo.Predicate.toInt_eq_toNat_of_lt h
    unfold IntOp.cmpi
    have h0 : (0#32 : BitVec 32).toInt = 0 := by decide
    have hn : ¬ ((y (Shape.Idx.ofFin s)).toInt < (0#32 : BitVec 32).toInt) := by omega
    simp only [BitVec.slt, decide_eq_false hn]
    rfl
  rw [hc, select_zero]

/-- The start-index column at row `s` holds the vector's entry `s`. -/
private theorem col_apply (y : IVec S8192 32) (s : Fin 8192) :
    col y (ix2 s (0 : Fin 1)) = y (Shape.Idx.ofFin s) := by
  have e : (ix2 s (0 : Fin 1) : S8192x1.Idx) = StableHlo.Predicate.ixP s := by
    funext a; match a with | ⟨0, _⟩ => rfl | ⟨1, _⟩ => rfl
  rw [e]
  exact StableHlo.Predicate.bcast_col1 _ y s

/-- The padded-position column: at row `s` it holds the padded position of sorted position `s`. -/
private theorem targetCol_toInt (s : Fin 8192) :
    (col (wrap 12288#32 (targetRow gi)) (ix2 s (0 : Fin 1))).toInt
      = ((slot 512 (grp gi hgi) (srcPos gi) s : ℕ) : Int) := by
  have hlt := slot_lt_padded gi hgi s
  rw [col_apply, wrap_of_nonneg _ _ _ (by rw [targetRow_apply gi hgi, BitVec.toNat_ofNat]; omega),
    targetRow_apply gi hgi]
  exact StableHlo.Predicate.toInt_ofNat_small _ (by omega)

/-- The sort column: at row `s` it holds the row number `π s`. -/
private theorem permCol_toInt (s : Fin 8192) :
    (col (wrap 8192#32 (perm gi)) (ix2 s (0 : Fin 1))).toInt = (((srcPos gi s).val : ℕ) : Int) := by
  have hlt := (srcPos gi s).isLt
  rw [col_apply, wrap_of_nonneg _ _ _ (by rw [perm_apply gi, BitVec.toNat_ofNat]; omega),
    perm_apply gi]
  exact StableHlo.Predicate.toInt_ofNat_small _ (by omega)

/-- Distinct sorted positions have distinct padded positions. -/
private theorem padRow_injective :
    Function.Injective
      (fun s : Fin 8192 => (⟨slot 512 (grp gi hgi) (srcPos gi) s, slot_lt_padded gi hgi s⟩ : Fin 12288)) := by
  intro a b hab
  exact slot_injective 512 (by norm_num) (grp gi hgi) (srcPos gi) (srcPos_bijective gi) (grp_mono gi hgi)
    (congrArg Fin.val hab)

theorem paddedX_apply (x : FVec Ideal S8192x1024 .f32) (s : Fin 8192) (k : Fin 1024) :
    paddedX (F := Ideal) x gi (ix2 (⟨slot 512 (grp gi hgi) (srcPos gi) s, slot_lt_padded gi hgi s⟩ : Fin 12288) k)
      = x (ix2 (srcPos gi s) k) := by
  unfold paddedX
  have hs := scatter_rows_set scatter_S12288x1024_S8192x1_S8192x1024_1_0_0_1 rfl rfl rfl rfl
    (broadcastInDim S12288x1024 ![] bcast_S_S12288x1024 (constant (F := Ideal) S_ .bf16 0x0000#16))
    (col (wrap 12288#32 (targetRow gi))) (sortedX (F := Ideal) x gi)
    (fun s : Fin 8192 => (⟨slot 512 (grp gi hgi) (srcPos gi) s, slot_lt_padded gi hgi s⟩ : Fin 12288))
    (padRow_injective gi hgi) (targetCol_toInt gi hgi) s k
  rw [hs]
  unfold sortedX
  rw [truncf_apply]
  exact gather_rows gather_S8192x1024_S8192x1_S8192x1024_1_0_n_n_0_1_11024 rfl rfl rfl rfl rfl rfl
    x (col (wrap 8192#32 (perm gi))) s k (srcPos gi s) (permCol_toInt gi s)

theorem unpermuted_apply (po : FVec Ideal S12288x4096 .f32) (s : Fin 8192) (j : Fin 4096) :
    unpermuted (F := Ideal) po gi (ix2 (srcPos gi s) j)
      = po (ix2 (⟨slot 512 (grp gi hgi) (srcPos gi) s, slot_lt_padded gi hgi s⟩ : Fin 12288) j) := by
  unfold unpermuted
  have hs := scatter_rows_set scatter_S8192x4096_S8192x1_S8192x4096_1_0_0_1 rfl rfl rfl rfl
    (broadcastInDim S8192x4096 ![] bcast_S_S8192x4096 (constant (F := Ideal) S_ .f32 0x00000000#32))
    (col (wrap 8192#32 (perm gi)))
    (Host.gather gather_S12288x4096_S8192x1_S8192x4096_1_0_n_n_0_1_14096 po (col (wrap 12288#32 (targetRow gi))))
    (srcPos gi) (srcPos_bijective gi).injective (permCol_toInt gi) s j
  rw [hs]
  exact gather_rows gather_S12288x4096_S8192x1_S8192x4096_1_0_n_n_0_1_14096 rfl rfl rfl rfl rfl rfl
    po (col (wrap 12288#32 (targetRow gi))) s j
    (⟨slot 512 (grp gi hgi) (srcPos gi) s, slot_lt_padded gi hgi s⟩ : Fin 12288) (targetCol_toInt gi hgi s)

end Cert.KernelIdeal.Decode

end
-- ==== Proof.KernelValue.lean ====
/-
  The kernel program computes the grouped linear map. Sorted position `s` carries row `π s` of the input; the host
  places that row at padded row `slot s`, whose tile the table gives the row's own group `g (π s)`; the kernel's
  tile product therefore leaves, at padded row `slot s`, the row times its group's matrix plus its group's bias
  (rounding to bf16 is the identity on the extended reals); and the host writes that padded row back at row `π s`.
  `π` is onto, so every row of the result is the grouped product's.
-/
import proofs.«409940_j76802605187558_3_alg».proof.Proof.Tail
import proofs.«409940_j76802605187558_3_alg».proof.Proof.TileValue
import proofs.«409940_j76802605187558_3_alg».proof.Proof.TableOk
import proofs.«409940_j76802605187558_3_alg».proof.Proof.DecodeTable
import proofs.«409940_j76802605187558_3_alg».proof.Proof.DecodeMoves
import proofs.«409940_j76802605187558_3_alg».proof.Proof.GroupedSpec
import Idealize.ShloMosaic.Lib.ValueLayout
import Idealize.ShloMosaic.Lib.Pipeline.Value

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.KernelIdeal.Words Cert.KernelIdeal.Chain
open Cert.KernelIdeal.Decode Cert.KernelIdeal.TileValue Cert.TileRouting Cert.GroupedSpec Idealize.ShloMosaic.Argsort

variable (m : (ℓ : Loc nD τ sig) → Buf (Elt Ideal) ℓ) (ρ : Dev nD → PrngReg)

/-- The tile table's words as groups. -/
def tgOf (t : Fin 24) : Fin 8 := ⟨((tbl m 0 : IVec S24 32) (Shape.Idx.ofFin t)).toNat, TableOk.tbl_lt m _⟩

/-- The bias with a unit axis inserted, read at (γ, 0, j). -/
theorem b3_apply (b : FVec Ideal S8x4096 .f32) (γ : Fin 8) (j : Fin 4096) :
    (shapeCast S8x1x4096 b shapeCasts_S8x4096_S8x1x4096 : FVec Ideal S8x1x4096 .f32) (ix3 γ (0 : Fin 1) j) = b (ix2 γ j) :=
  shapeCast_apply b _ _ _ (by
    rw [Shape.rowMajor_val_two, Shape.rowMajor_val_three]
    show γ.val * 4096 + j.val = (γ.val * 1 + 0) * 4096 + j.val
    omega)

/-- One entry, for any arrays and any reading `tg` of the tile table's words as groups: the padded output's row at
    the padded position of sorted position `s`, written back at row `π s`, is row `π s` of the input against its own
    group's matrix plus its own group's bias. The padded row holds the input's row `π s`; its tile's group is
    `g (π s)`; rounding to bf16 changes nothing on the extended reals; the unit axis of the bias is read through. -/
private theorem entry_eq (gi : IVec S8192 32) (hgi : ∀ i, (gi i).toNat < 8)
    (x : FVec Ideal S8192x1024 .f32) (w : FVec Ideal S8x1024x4096 .f32) (b : FVec Ideal S8x4096 .f32)
    (tg : Fin 24 → Fin 8)
    (htg : ∀ t : Fin 24, (tileGroup gi (Shape.Idx.ofFin t)).toNat = (tg t).val)
    (s : Fin 8192) (j : Fin 4096) :
    unpermuted (F := Ideal)
        (padOut (paddedX (F := Ideal) x gi) (truncf .bf16 w bitsLt_bf16_f32)
          (shapeCast S8x1x4096 b shapeCasts_S8x4096_S8x1x4096) tg) gi (ix2 (srcPos gi s) j)
      = grouped x gi w b hgi (ix2 (srcPos gi s) j) := by
  rw [unpermuted_apply gi hgi _ s j]
  have hT : tg (tileOf (⟨slot 512 (grp gi hgi) (srcPos gi) s, slot_lt_padded gi hgi s⟩ : Fin 12288))
      = grp gi hgi (srcPos gi s) :=
    Fin.ext ((htg _).symm.trans (tileGroup_slot gi hgi s))
  show (∑ k : Fin 1024,
        (paddedX (F := Ideal) x gi (ix2 (⟨slot 512 (grp gi hgi) (srcPos gi) s, slot_lt_padded gi hgi s⟩ : Fin 12288) k) : EReal)
          * ((truncf .bf16 w bitsLt_bf16_f32 : FVec Ideal S8x1024x4096 .bf16)
              (ix3 (tg (tileOf (⟨slot 512 (grp gi hgi) (srcPos gi) s, slot_lt_padded gi hgi s⟩ : Fin 12288))) k j) : EReal))
      + ((shapeCast S8x1x4096 b shapeCasts_S8x4096_S8x1x4096 : FVec Ideal S8x1x4096 .f32)
          (ix3 (tg (tileOf (⟨slot 512 (grp gi hgi) (srcPos gi) s, slot_lt_padded gi hgi s⟩ : Fin 12288))) (0 : Fin 1) j) : EReal)
    = (∑ k : Fin 1024, (x (ix2 (srcPos gi s) k) : EReal) * (w (ix3 (grp gi hgi (srcPos gi s)) k j) : EReal))
      + (b (ix2 (grp gi hgi (srcPos gi s)) j) : EReal)
  rw [hT, b3_apply]
  refine congrArg (· + (b (ix2 (grp gi hgi (srcPos gi s)) j) : EReal)) ?_
  exact Finset.sum_congr rfl fun k _ => by rw [paddedX_apply gi hgi x s k, truncf_apply]

/-- The whole array, every row being `π s` for some sorted position `s`. -/
private theorem array_eq (gi : IVec S8192 32) (hgi : ∀ i, (gi i).toNat < 8)
    (x : FVec Ideal S8192x1024 .f32) (w : FVec Ideal S8x1024x4096 .f32) (b : FVec Ideal S8x4096 .f32)
    (tg : Fin 24 → Fin 8)
    (htg : ∀ t : Fin 24, (tileGroup gi (Shape.Idx.ofFin t)).toNat = (tg t).val) :
    unpermuted (F := Ideal)
        (padOut (paddedX (F := Ideal) x gi) (truncf .bf16 w bitsLt_bf16_f32)
          (shapeCast S8x1x4096 b shapeCasts_S8x4096_S8x1x4096) tg) gi
      = grouped x gi w b hgi := by
  funext i
  obtain ⟨s, hs⟩ := (srcPos_bijective gi).2 (i 0)
  have h := entry_eq gi hgi x w b tg htg s (i 1)
  rw [hs] at h
  rw [eq_ix2 i]
  exact h

/-- The table the region reads is the host's tile table of the group words. -/
private theorem tbl_eq : (tbl m 0 : IVec S24 32) = tileGroup (giOf m 0) := Chain.tileTable_eq m 0

/-- The group a tile's word names is that word as a number. -/
private theorem tgOf_val (t : Fin 24) :
    (tgOf m t).val = ((tbl m 0 : IVec S24 32) (Shape.Idx.ofFin t)).toNat := by
  unfold tgOf
  exact Fin.val_mk _

/-- The host's tile table, read as groups. -/
private theorem tile_tg (t : Fin 24) :
    (tileGroup (giOf m 0) (Shape.Idx.ofFin t)).toNat = (tgOf m t).val :=
  ((congrArg (fun v : IVec S24 32 => (v (Shape.Idx.ofFin t)).toNat) (tbl_eq m)).symm).trans (tgOf_val m t).symm

/-- The padded output as a function of the argument arrays. -/
private theorem pad_eq (hO : Ok m) :
    ((dats m hO 0 0).arrAt 3 (cfgM m hO).N : FVec Ideal S12288x4096 .f32)
      = padOut (paddedX (F := Ideal) (xOf m 0) (giOf m 0)) (truncf .bf16 (wOf m 0) bitsLt_bf16_f32)
          (shapeCast S8x1x4096 (bOf m 0) shapeCasts_S8x4096_S8x1x4096) (tgOf m) :=
  (TileValue.arrAt_eq m hO 0 (tgOf m) (fun t => (tgOf_val m t).symm)).trans
    (congrFun (congr (congr (congrArg padOut (Chain.paddedX_eq m 0)) (Chain.wBf_eq m 0)) (Chain.b3_eq m 0)) (tgOf m))

/-- What the host writes back is the grouped product. -/
theorem out_eq (hO : Ok m) (c : Dev nD) (hgi : ∀ i, (giOf m c i).toNat < 8) :
    unpermuted (F := Ideal) ((dats m hO 0 c).arrAt 3 (cfgM m hO).N : FVec Ideal S12288x4096 .f32) (giOf m c)
      = grouped (xOf m c) (giOf m c) (wOf m c) (bOf m c) hgi := by
  obtain rfl : c = 0 := Subsingleton.elim _ _
  exact (congrArg (fun po => unpermuted (F := Ideal) po (giOf m 0)) (pad_eq m hO)).trans
    (array_eq (giOf m 0) hgi (xOf m 0) (wOf m 0) (bOf m 0) (tgOf m) (tile_tg m))

/-- The kernel program's run, its result the grouped product of its arguments. -/
theorem run (hgi : ∀ (c : Dev nD) i, (giOf m c i).toNat < 8) :
    θ_run defs (onTc (τ := τ) (main (F := Ideal))) ⟨m, fun _ => 0, ρ⟩ (fun r => ∀ c : Dev nD,
      r.2.mem ((c.tc : Thread nD τ).loc main_v88) = grouped (xOf m c) (giOf m c) (wOf m c) (bOf m c) (hgi c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (out_eq m (TableOk.ok m) c (hgi c)), (h c).2⟩)
    (Tail.run_out m ρ (TableOk.ok m))

end Cert.KernelIdeal.KernelValue

end
-- ==== Proof.RefValue.lean ====
/-
  The reference's result is the grouped linear map. The reference adds, group by group, the rows masked to the
  group times the group's matrix and the group's bias masked to the group's rows, onto zeros. A row's word equals
  exactly one group number (every word is below 8), so at every other group the masked row is zero — its products
  and their sum are zero on the extended reals, whatever the weights — and the masked bias is zero; what is left is the
  row against its own group's matrix plus that group's bias.
-/
import proofs.«409940_j76802605187558_3_alg».proof.Proof.Gen.ReferenceIdeal.Read
import proofs.«409940_j76802605187558_3_alg».proof.Proof.GroupedSpec
import Idealize.ShloMosaic.Lib.StableHlo.Predicate

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.GroupedSpec

/-- A select on "the word is c" is the if on that equation. -/
private theorem sel_cmp_eq {α : Type} (a c : BitVec 32) (A B : α) :
    Scalar.select (IntOp.cmpi .eq a c) A B = if a = c then A else B := by
  unfold Scalar.select IntOp.cmpi
  by_cases h : a = c
  · subst h; simp
  · have hb : (a == c) = false := beq_eq_false_iff_ne.mpr h
    simp [h, hb]

/-- The integer zero converts to the extended real zero. -/
private theorem sitofp_zero : (FloatOps.sitofp (F := Ideal) .f32 (0#32 : BitVec 32) : EReal) = 0 := by
  show (((0#32 : BitVec 32).toInt : ℝ) : EReal) = 0
  simp

/-- A rank-1 index is the one at its coordinate. -/
private theorem ix1_of {n : Nat} (j : (⟨1, ![n]⟩ : Shape).Idx) (p : Fin n) (h : (j 0).val = p.val) :
    j = Shape.Idx.ofFin p := by
  rw [Shape.Idx.eq_ofFin j]; exact congrArg _ (Fin.ext h)

/-- A rank-2 index is the one at its two coordinates. -/
private theorem ix2_of {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-3 index is the one at its three coordinates. -/
private theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d
  match d with
  | ⟨0, _⟩ => exact Fin.ext h0
  | ⟨1, _⟩ => exact Fin.ext h1
  | ⟨2, _⟩ => exact Fin.ext h2

/-- A row masked to zero contributes the zero sum, whatever the other factor; an unmasked row its product sum. -/
private theorem masked_dot (c : Prop) [Decidable c] (f g : Fin 1024 → EReal) (z : EReal) (hz : z = 0) :
    ∑ k, (if c then f k else z) * g k = if c then ∑ k, f k * g k else 0 := by
  subst hz
  by_cases h : c
  · simp only [if_pos h]
  · simp only [if_neg h, zero_mul, Finset.sum_const_zero]

/-- The accumulation over the eight groups, where the row's word selects one group: every other group's
    two terms are zero, and zero is neutral for the extended reals' addition. -/
private theorem collapse (G : BitVec 32) (hG : G.toNat < 8) (d β : Fin 8 → EReal) :
    ((((((((((((((((0 + (if G = 0#32 then d 0 else 0)) + (if G = 0#32 then β 0 else 0))
      + (if G = 1#32 then d 1 else 0)) + (if G = 1#32 then β 1 else 0))
      + (if G = 2#32 then d 2 else 0)) + (if G = 2#32 then β 2 else 0))
      + (if G = 3#32 then d 3 else 0)) + (if G = 3#32 then β 3 else 0))
      + (if G = 4#32 then d 4 else 0)) + (if G = 4#32 then β 4 else 0))
      + (if G = 5#32 then d 5 else 0)) + (if G = 5#32 then β 5 else 0))
      + (if G = 6#32 then d 6 else 0)) + (if G = 6#32 then β 6 else 0))
      + (if G = 7#32 then d 7 else 0)) + (if G = 7#32 then β 7 else 0))
      = d ⟨G.toNat, hG⟩ + β ⟨G.toNat, hG⟩ := by
  have hval : G = BitVec.ofNat 32 G.toNat := by simp
  generalize G.toNat = n at hG hval
  subst hval
  interval_cases n <;> simp <;> rfl

private theorem dot0 (x : FVec Ideal S8192x1024 .f32) (gi : IVec S8192 32) (w : FVec Ideal S8x1024x4096 .f32)
    (p : Fin 8192) (q : Fin 4096) :
    val_main_v7 (F := Ideal) x gi w (ix2 p q) =
      if gi (Shape.Idx.ofFin p) = 0#32 then ∑ k : Fin 1024, (x (ix2 p k) : EReal) * (w (ix3 (0 : Fin 8) k q) : EReal) else 0 := by
  rw [val_main_v7_apply]
  simp only [val_main_v4_apply, val_main_call0_v1_apply, val_main_v3_apply, val_main_v2_apply, val_main_v1_apply, val_main_c_apply, val_main_call0_v2_apply, val_main_call0_v0_apply, val_main_c_0_apply, val_main_v6_apply, val_main_v5_apply]
  have e2 : ∀ k, lidx_main_v7 (ix2 p q) k = ix2 p k := fun k => ix2_of _ p k rfl rfl
  have e1 : ∀ k : Fin 1024, idx_main_v3 (idx_main_call0_v1 (ix2 p k)) = Shape.Idx.ofFin p :=
    fun k => ix1_of _ p rfl
  have e3 : ∀ k, idx_main_v5 (idx_main_v6 (ridx_main_v7 (ix2 p q) k)) = ix3 (0 : Fin 8) k q :=
    fun k => ix3_of _ _ k q rfl
      (by show (k.val * 4096 + q.val) / 4096 % 1024 = k.val; omega)
      (by show (k.val * 4096 + q.val) % 4096 = q.val; omega)
  simp only [e2, e1, e3, sel_cmp_eq]
  exact masked_dot (gi (Shape.Idx.ofFin p) = 0#32) _ _ _ sitofp_zero

private theorem bias0 (gi : IVec S8192 32) (b : FVec Ideal S8x4096 .f32) (p : Fin 8192) (q : Fin 4096) :
    val_main_v11 (F := Ideal) gi b (ix2 p q) =
      if gi (Shape.Idx.ofFin p) = 0#32 then (b (ix2 (0 : Fin 8) q) : EReal) else 0 := by
  simp only [val_main_v11_apply, val_main_call1_v1_apply, val_main_v3_apply, val_main_v2_apply, val_main_v1_apply, val_main_c_apply, val_main_call1_v2_apply, val_main_v10_apply, val_main_v9_apply, val_main_call1_v3_apply, val_main_call1_v0_apply, val_main_c_1_apply]
  have e1 : idx_main_v3 (idx_main_call1_v1 (ix2 p q)) = Shape.Idx.ofFin p := ix1_of _ p rfl
  have e2 : idx_main_v9 (idx_main_v10 (idx_main_call1_v2 (ix2 p q))) = ix2 (0 : Fin 8) q :=
    ix2_of _ _ q rfl (by show q.val % 4096 = q.val; omega)
  rw [e1, e2, sel_cmp_eq, sitofp_zero]

private theorem dot1 (x : FVec Ideal S8192x1024 .f32) (gi : IVec S8192 32) (w : FVec Ideal S8x1024x4096 .f32)
    (p : Fin 8192) (q : Fin 4096) :
    val_main_v19 (F := Ideal) x gi w (ix2 p q) =
      if gi (Shape.Idx.ofFin p) = 1#32 then ∑ k : Fin 1024, (x (ix2 p k) : EReal) * (w (ix3 (1 : Fin 8) k q) : EReal) else 0 := by
  rw [val_main_v19_apply]
  simp only [val_main_v16_apply, val_main_call2_v1_apply, val_main_v15_apply, val_main_v14_apply, val_main_v13_apply, val_main_c_2_apply, val_main_call2_v2_apply, val_main_call2_v0_apply, val_main_c_3_apply, val_main_v18_apply, val_main_v17_apply]
  have e2 : ∀ k, lidx_main_v19 (ix2 p q) k = ix2 p k := fun k => ix2_of _ p k rfl rfl
  have e1 : ∀ k : Fin 1024, idx_main_v15 (idx_main_call2_v1 (ix2 p k)) = Shape.Idx.ofFin p :=
    fun k => ix1_of _ p rfl
  have e3 : ∀ k, idx_main_v17 (idx_main_v18 (ridx_main_v19 (ix2 p q) k)) = ix3 (1 : Fin 8) k q :=
    fun k => ix3_of _ _ k q rfl
      (by show (k.val * 4096 + q.val) / 4096 % 1024 = k.val; omega)
      (by show (k.val * 4096 + q.val) % 4096 = q.val; omega)
  simp only [e2, e1, e3, sel_cmp_eq]
  exact masked_dot (gi (Shape.Idx.ofFin p) = 1#32) _ _ _ sitofp_zero

private theorem bias1 (gi : IVec S8192 32) (b : FVec Ideal S8x4096 .f32) (p : Fin 8192) (q : Fin 4096) :
    val_main_v23 (F := Ideal) gi b (ix2 p q) =
      if gi (Shape.Idx.ofFin p) = 1#32 then (b (ix2 (1 : Fin 8) q) : EReal) else 0 := by
  simp only [val_main_v23_apply, val_main_call3_v1_apply, val_main_v15_apply, val_main_v14_apply, val_main_v13_apply, val_main_c_2_apply, val_main_call3_v2_apply, val_main_v22_apply, val_main_v21_apply, val_main_call3_v3_apply, val_main_call3_v0_apply, val_main_c_4_apply]
  have e1 : idx_main_v15 (idx_main_call3_v1 (ix2 p q)) = Shape.Idx.ofFin p := ix1_of _ p rfl
  have e2 : idx_main_v21 (idx_main_v22 (idx_main_call3_v2 (ix2 p q))) = ix2 (1 : Fin 8) q :=
    ix2_of _ _ q rfl (by show q.val % 4096 = q.val; omega)
  rw [e1, e2, sel_cmp_eq, sitofp_zero]

private theorem dot2 (x : FVec Ideal S8192x1024 .f32) (gi : IVec S8192 32) (w : FVec Ideal S8x1024x4096 .f32)
    (p : Fin 8192) (q : Fin 4096) :
    val_main_v31 (F := Ideal) x gi w (ix2 p q) =
      if gi (Shape.Idx.ofFin p) = 2#32 then ∑ k : Fin 1024, (x (ix2 p k) : EReal) * (w (ix3 (2 : Fin 8) k q) : EReal) else 0 := by
  rw [val_main_v31_apply]
  simp only [val_main_v28_apply, val_main_call4_v1_apply, val_main_v27_apply, val_main_v26_apply, val_main_v25_apply, val_main_c_5_apply, val_main_call4_v2_apply, val_main_call4_v0_apply, val_main_c_6_apply, val_main_v30_apply, val_main_v29_apply]
  have e2 : ∀ k, lidx_main_v31 (ix2 p q) k = ix2 p k := fun k => ix2_of _ p k rfl rfl
  have e1 : ∀ k : Fin 1024, idx_main_v27 (idx_main_call4_v1 (ix2 p k)) = Shape.Idx.ofFin p :=
    fun k => ix1_of _ p rfl
  have e3 : ∀ k, idx_main_v29 (idx_main_v30 (ridx_main_v31 (ix2 p q) k)) = ix3 (2 : Fin 8) k q :=
    fun k => ix3_of _ _ k q rfl
      (by show (k.val * 4096 + q.val) / 4096 % 1024 = k.val; omega)
      (by show (k.val * 4096 + q.val) % 4096 = q.val; omega)
  simp only [e2, e1, e3, sel_cmp_eq]
  exact masked_dot (gi (Shape.Idx.ofFin p) = 2#32) _ _ _ sitofp_zero

private theorem bias2 (gi : IVec S8192 32) (b : FVec Ideal S8x4096 .f32) (p : Fin 8192) (q : Fin 4096) :
    val_main_v35 (F := Ideal) gi b (ix2 p q) =
      if gi (Shape.Idx.ofFin p) = 2#32 then (b (ix2 (2 : Fin 8) q) : EReal) else 0 := by
  simp only [val_main_v35_apply, val_main_call5_v1_apply, val_main_v27_apply, val_main_v26_apply, val_main_v25_apply, val_main_c_5_apply, val_main_call5_v2_apply, val_main_v34_apply, val_main_v33_apply, val_main_call5_v3_apply, val_main_call5_v0_apply, val_main_c_7_apply]
  have e1 : idx_main_v27 (idx_main_call5_v1 (ix2 p q)) = Shape.Idx.ofFin p := ix1_of _ p rfl
  have e2 : idx_main_v33 (idx_main_v34 (idx_main_call5_v2 (ix2 p q))) = ix2 (2 : Fin 8) q :=
    ix2_of _ _ q rfl (by show q.val % 4096 = q.val; omega)
  rw [e1, e2, sel_cmp_eq, sitofp_zero]

private theorem dot3 (x : FVec Ideal S8192x1024 .f32) (gi : IVec S8192 32) (w : FVec Ideal S8x1024x4096 .f32)
    (p : Fin 8192) (q : Fin 4096) :
    val_main_v43 (F := Ideal) x gi w (ix2 p q) =
      if gi (Shape.Idx.ofFin p) = 3#32 then ∑ k : Fin 1024, (x (ix2 p k) : EReal) * (w (ix3 (3 : Fin 8) k q) : EReal) else 0 := by
  rw [val_main_v43_apply]
  simp only [val_main_v40_apply, val_main_call6_v1_apply, val_main_v39_apply, val_main_v38_apply, val_main_v37_apply, val_main_c_8_apply, val_main_call6_v2_apply, val_main_call6_v0_apply, val_main_c_9_apply, val_main_v42_apply, val_main_v41_apply]
  have e2 : ∀ k, lidx_main_v43 (ix2 p q) k = ix2 p k := fun k => ix2_of _ p k rfl rfl
  have e1 : ∀ k : Fin 1024, idx_main_v39 (idx_main_call6_v1 (ix2 p k)) = Shape.Idx.ofFin p :=
    fun k => ix1_of _ p rfl
  have e3 : ∀ k, idx_main_v41 (idx_main_v42 (ridx_main_v43 (ix2 p q) k)) = ix3 (3 : Fin 8) k q :=
    fun k => ix3_of _ _ k q rfl
      (by show (k.val * 4096 + q.val) / 4096 % 1024 = k.val; omega)
      (by show (k.val * 4096 + q.val) % 4096 = q.val; omega)
  simp only [e2, e1, e3, sel_cmp_eq]
  exact masked_dot (gi (Shape.Idx.ofFin p) = 3#32) _ _ _ sitofp_zero

private theorem bias3 (gi : IVec S8192 32) (b : FVec Ideal S8x4096 .f32) (p : Fin 8192) (q : Fin 4096) :
    val_main_v47 (F := Ideal) gi b (ix2 p q) =
      if gi (Shape.Idx.ofFin p) = 3#32 then (b (ix2 (3 : Fin 8) q) : EReal) else 0 := by
  simp only [val_main_v47_apply, val_main_call7_v1_apply, val_main_v39_apply, val_main_v38_apply, val_main_v37_apply, val_main_c_8_apply, val_main_call7_v2_apply, val_main_v46_apply, val_main_v45_apply, val_main_call7_v3_apply, val_main_call7_v0_apply, val_main_c_10_apply]
  have e1 : idx_main_v39 (idx_main_call7_v1 (ix2 p q)) = Shape.Idx.ofFin p := ix1_of _ p rfl
  have e2 : idx_main_v45 (idx_main_v46 (idx_main_call7_v2 (ix2 p q))) = ix2 (3 : Fin 8) q :=
    ix2_of _ _ q rfl (by show q.val % 4096 = q.val; omega)
  rw [e1, e2, sel_cmp_eq, sitofp_zero]

private theorem dot4 (x : FVec Ideal S8192x1024 .f32) (gi : IVec S8192 32) (w : FVec Ideal S8x1024x4096 .f32)
    (p : Fin 8192) (q : Fin 4096) :
    val_main_v55 (F := Ideal) x gi w (ix2 p q) =
      if gi (Shape.Idx.ofFin p) = 4#32 then ∑ k : Fin 1024, (x (ix2 p k) : EReal) * (w (ix3 (4 : Fin 8) k q) : EReal) else 0 := by
  rw [val_main_v55_apply]
  simp only [val_main_v52_apply, val_main_call8_v1_apply, val_main_v51_apply, val_main_v50_apply, val_main_v49_apply, val_main_c_11_apply, val_main_call8_v2_apply, val_main_call8_v0_apply, val_main_c_12_apply, val_main_v54_apply, val_main_v53_apply]
  have e2 : ∀ k, lidx_main_v55 (ix2 p q) k = ix2 p k := fun k => ix2_of _ p k rfl rfl
  have e1 : ∀ k : Fin 1024, idx_main_v51 (idx_main_call8_v1 (ix2 p k)) = Shape.Idx.ofFin p :=
    fun k => ix1_of _ p rfl
  have e3 : ∀ k, idx_main_v53 (idx_main_v54 (ridx_main_v55 (ix2 p q) k)) = ix3 (4 : Fin 8) k q :=
    fun k => ix3_of _ _ k q rfl
      (by show (k.val * 4096 + q.val) / 4096 % 1024 = k.val; omega)
      (by show (k.val * 4096 + q.val) % 4096 = q.val; omega)
  simp only [e2, e1, e3, sel_cmp_eq]
  exact masked_dot (gi (Shape.Idx.ofFin p) = 4#32) _ _ _ sitofp_zero

private theorem bias4 (gi : IVec S8192 32) (b : FVec Ideal S8x4096 .f32) (p : Fin 8192) (q : Fin 4096) :
    val_main_v59 (F := Ideal) gi b (ix2 p q) =
      if gi (Shape.Idx.ofFin p) = 4#32 then (b (ix2 (4 : Fin 8) q) : EReal) else 0 := by
  simp only [val_main_v59_apply, val_main_call9_v1_apply, val_main_v51_apply, val_main_v50_apply, val_main_v49_apply, val_main_c_11_apply, val_main_call9_v2_apply, val_main_v58_apply, val_main_v57_apply, val_main_call9_v3_apply, val_main_call9_v0_apply, val_main_c_13_apply]
  have e1 : idx_main_v51 (idx_main_call9_v1 (ix2 p q)) = Shape.Idx.ofFin p := ix1_of _ p rfl
  have e2 : idx_main_v57 (idx_main_v58 (idx_main_call9_v2 (ix2 p q))) = ix2 (4 : Fin 8) q :=
    ix2_of _ _ q rfl (by show q.val % 4096 = q.val; omega)
  rw [e1, e2, sel_cmp_eq, sitofp_zero]

private theorem dot5 (x : FVec Ideal S8192x1024 .f32) (gi : IVec S8192 32) (w : FVec Ideal S8x1024x4096 .f32)
    (p : Fin 8192) (q : Fin 4096) :
    val_main_v67 (F := Ideal) x gi w (ix2 p q) =
      if gi (Shape.Idx.ofFin p) = 5#32 then ∑ k : Fin 1024, (x (ix2 p k) : EReal) * (w (ix3 (5 : Fin 8) k q) : EReal) else 0 := by
  rw [val_main_v67_apply]
  simp only [val_main_v64_apply, val_main_call10_v1_apply, val_main_v63_apply, val_main_v62_apply, val_main_v61_apply, val_main_c_14_apply, val_main_call10_v2_apply, val_main_call10_v0_apply, val_main_c_15_apply, val_main_v66_apply, val_main_v65_apply]
  have e2 : ∀ k, lidx_main_v67 (ix2 p q) k = ix2 p k := fun k => ix2_of _ p k rfl rfl
  have e1 : ∀ k : Fin 1024, idx_main_v63 (idx_main_call10_v1 (ix2 p k)) = Shape.Idx.ofFin p :=
    fun k => ix1_of _ p rfl
  have e3 : ∀ k, idx_main_v65 (idx_main_v66 (ridx_main_v67 (ix2 p q) k)) = ix3 (5 : Fin 8) k q :=
    fun k => ix3_of _ _ k q rfl
      (by show (k.val * 4096 + q.val) / 4096 % 1024 = k.val; omega)
      (by show (k.val * 4096 + q.val) % 4096 = q.val; omega)
  simp only [e2, e1, e3, sel_cmp_eq]
  exact masked_dot (gi (Shape.Idx.ofFin p) = 5#32) _ _ _ sitofp_zero

private theorem bias5 (gi : IVec S8192 32) (b : FVec Ideal S8x4096 .f32) (p : Fin 8192) (q : Fin 4096) :
    val_main_v71 (F := Ideal) gi b (ix2 p q) =
      if gi (Shape.Idx.ofFin p) = 5#32 then (b (ix2 (5 : Fin 8) q) : EReal) else 0 := by
  simp only [val_main_v71_apply, val_main_call11_v1_apply, val_main_v63_apply, val_main_v62_apply, val_main_v61_apply, val_main_c_14_apply, val_main_call11_v2_apply, val_main_v70_apply, val_main_v69_apply, val_main_call11_v3_apply, val_main_call11_v0_apply, val_main_c_16_apply]
  have e1 : idx_main_v63 (idx_main_call11_v1 (ix2 p q)) = Shape.Idx.ofFin p := ix1_of _ p rfl
  have e2 : idx_main_v69 (idx_main_v70 (idx_main_call11_v2 (ix2 p q))) = ix2 (5 : Fin 8) q :=
    ix2_of _ _ q rfl (by show q.val % 4096 = q.val; omega)
  rw [e1, e2, sel_cmp_eq, sitofp_zero]

private theorem dot6 (x : FVec Ideal S8192x1024 .f32) (gi : IVec S8192 32) (w : FVec Ideal S8x1024x4096 .f32)
    (p : Fin 8192) (q : Fin 4096) :
    val_main_v79 (F := Ideal) x gi w (ix2 p q) =
      if gi (Shape.Idx.ofFin p) = 6#32 then ∑ k : Fin 1024, (x (ix2 p k) : EReal) * (w (ix3 (6 : Fin 8) k q) : EReal) else 0 := by
  rw [val_main_v79_apply]
  simp only [val_main_v76_apply, val_main_call12_v1_apply, val_main_v75_apply, val_main_v74_apply, val_main_v73_apply, val_main_c_17_apply, val_main_call12_v2_apply, val_main_call12_v0_apply, val_main_c_18_apply, val_main_v78_apply, val_main_v77_apply]
  have e2 : ∀ k, lidx_main_v79 (ix2 p q) k = ix2 p k := fun k => ix2_of _ p k rfl rfl
  have e1 : ∀ k : Fin 1024, idx_main_v75 (idx_main_call12_v1 (ix2 p k)) = Shape.Idx.ofFin p :=
    fun k => ix1_of _ p rfl
  have e3 : ∀ k, idx_main_v77 (idx_main_v78 (ridx_main_v79 (ix2 p q) k)) = ix3 (6 : Fin 8) k q :=
    fun k => ix3_of _ _ k q rfl
      (by show (k.val * 4096 + q.val) / 4096 % 1024 = k.val; omega)
      (by show (k.val * 4096 + q.val) % 4096 = q.val; omega)
  simp only [e2, e1, e3, sel_cmp_eq]
  exact masked_dot (gi (Shape.Idx.ofFin p) = 6#32) _ _ _ sitofp_zero

private theorem bias6 (gi : IVec S8192 32) (b : FVec Ideal S8x4096 .f32) (p : Fin 8192) (q : Fin 4096) :
    val_main_v83 (F := Ideal) gi b (ix2 p q) =
      if gi (Shape.Idx.ofFin p) = 6#32 then (b (ix2 (6 : Fin 8) q) : EReal) else 0 := by
  simp only [val_main_v83_apply, val_main_call13_v1_apply, val_main_v75_apply, val_main_v74_apply, val_main_v73_apply, val_main_c_17_apply, val_main_call13_v2_apply, val_main_v82_apply, val_main_v81_apply, val_main_call13_v3_apply, val_main_call13_v0_apply, val_main_c_19_apply]
  have e1 : idx_main_v75 (idx_main_call13_v1 (ix2 p q)) = Shape.Idx.ofFin p := ix1_of _ p rfl
  have e2 : idx_main_v81 (idx_main_v82 (idx_main_call13_v2 (ix2 p q))) = ix2 (6 : Fin 8) q :=
    ix2_of _ _ q rfl (by show q.val % 4096 = q.val; omega)
  rw [e1, e2, sel_cmp_eq, sitofp_zero]

private theorem dot7 (x : FVec Ideal S8192x1024 .f32) (gi : IVec S8192 32) (w : FVec Ideal S8x1024x4096 .f32)
    (p : Fin 8192) (q : Fin 4096) :
    val_main_v91 (F := Ideal) x gi w (ix2 p q) =
      if gi (Shape.Idx.ofFin p) = 7#32 then ∑ k : Fin 1024, (x (ix2 p k) : EReal) * (w (ix3 (7 : Fin 8) k q) : EReal) else 0 := by
  rw [val_main_v91_apply]
  simp only [val_main_v88_apply, val_main_call14_v1_apply, val_main_v87_apply, val_main_v86_apply, val_main_v85_apply, val_main_c_20_apply, val_main_call14_v2_apply, val_main_call14_v0_apply, val_main_c_21_apply, val_main_v90_apply, val_main_v89_apply]
  have e2 : ∀ k, lidx_main_v91 (ix2 p q) k = ix2 p k := fun k => ix2_of _ p k rfl rfl
  have e1 : ∀ k : Fin 1024, idx_main_v87 (idx_main_call14_v1 (ix2 p k)) = Shape.Idx.ofFin p :=
    fun k => ix1_of _ p rfl
  have e3 : ∀ k, idx_main_v89 (idx_main_v90 (ridx_main_v91 (ix2 p q) k)) = ix3 (7 : Fin 8) k q :=
    fun k => ix3_of _ _ k q rfl
      (by show (k.val * 4096 + q.val) / 4096 % 1024 = k.val; omega)
      (by show (k.val * 4096 + q.val) % 4096 = q.val; omega)
  simp only [e2, e1, e3, sel_cmp_eq]
  exact masked_dot (gi (Shape.Idx.ofFin p) = 7#32) _ _ _ sitofp_zero

private theorem bias7 (gi : IVec S8192 32) (b : FVec Ideal S8x4096 .f32) (p : Fin 8192) (q : Fin 4096) :
    val_main_v95 (F := Ideal) gi b (ix2 p q) =
      if gi (Shape.Idx.ofFin p) = 7#32 then (b (ix2 (7 : Fin 8) q) : EReal) else 0 := by
  simp only [val_main_v95_apply, val_main_call15_v1_apply, val_main_v87_apply, val_main_v86_apply, val_main_v85_apply, val_main_c_20_apply, val_main_call15_v2_apply, val_main_v94_apply, val_main_v93_apply, val_main_call15_v3_apply, val_main_call15_v0_apply, val_main_c_22_apply]
  have e1 : idx_main_v87 (idx_main_call15_v1 (ix2 p q)) = Shape.Idx.ofFin p := ix1_of _ p rfl
  have e2 : idx_main_v93 (idx_main_v94 (idx_main_call15_v2 (ix2 p q))) = ix2 (7 : Fin 8) q :=
    ix2_of _ _ q rfl (by show q.val % 4096 = q.val; omega)
  rw [e1, e2, sel_cmp_eq, sitofp_zero]

theorem result_eq (x : FVec Ideal S8192x1024 .f32) (gi : IVec S8192 32) (w : FVec Ideal S8x1024x4096 .f32)
    (b : FVec Ideal S8x4096 .f32) (hgi : ∀ i, (gi i).toNat < 8) :
    val_main_v96 (F := Ideal) x gi w b = grouped x gi w b hgi := by
  funext i
  obtain ⟨p, q, rfl⟩ : ∃ p q, i = ix2 p q := ⟨i 0, i 1, eq_ix2 i⟩
  simp only [val_main_v96_apply, val_main_v92_apply, val_main_v84_apply, val_main_v80_apply, val_main_v72_apply,
    val_main_v68_apply, val_main_v60_apply, val_main_v56_apply, val_main_v48_apply, val_main_v44_apply,
    val_main_v36_apply, val_main_v32_apply, val_main_v24_apply, val_main_v20_apply, val_main_v12_apply,
    val_main_v8_apply, val_main_v0_apply, val_main_cst_apply, Ideal.addf_def, Ideal.ofBits_def, Ideal.ofBits_zero_f32,
    dot0, dot1, dot2, dot3, dot4, dot5, dot6, dot7, bias0, bias1, bias2, bias3, bias4, bias5, bias6, bias7]
  exact collapse (gi (Shape.Idx.ofFin p)) (hgi _)
    (fun γ => ∑ k : Fin 1024, (x (ix2 p k) : EReal) * (w (ix3 γ k q) : EReal)) (fun γ => (b (ix2 γ q) : EReal))

end Cert.ReferenceIdeal.RefValue

end
-- ==== Proof.PreRange.lean ====
/-
  What the precondition says of the group words: it holds (is the all-ones bit) only if every word, read signed, is at
  least 0 and below 8 — so every word is a number below 8.
-/
import proofs.«409940_j76802605187558_3_alg».proof.Pre_finite_inputs
import proofs.«409940_j76802605187558_3_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Range

open Idealize.ShloMosaic Cert.Pre_finite_inputs Cert.Pre_finite_inputs.Gen

/-- A shape of rank 0 has one index. -/
private instance : Subsingleton S_.Idx := ⟨fun a b => funext fun d => d.elim0⟩

theorem gi_lt {F : FTy → Type} [FloatOps F] (x : FVec F S8192x1024 .f32) (gi : IVec S8192 32)
    (w : FVec F S8x1024x4096 .f32) (b : FVec F S8x4096 .f32)
    (h : Cert.Pre_finite_inputs.fn (F := F) x gi w b = fun _ => 1#1) : ∀ i, (gi i).toNat < 8 := by
  intro i
  have e := congrFun h ValueIdx.ix0
  dsimp only [Cert.Pre_finite_inputs.fn, Cert.Pre_finite_inputs.fn_part1] at e
  simp only [andi] at e
  obtain ⟨⟨-, hge⟩, hlt⟩ := IntOp.andi_eq_one.1 e |>.imp_left IntOp.andi_eq_one.1
  have h0 := Host.reduce_andi_all _ _ _ _ _ hge i
  have h8 := Host.reduce_andi_all _ _ _ _ _ hlt i
  simp only [cmpi, broadcastInDim, constantI] at h0 h8
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hc := BitVec.toInt_eq_toNat_cond (gi i)
  have hl := (gi i).isLt
  split at hc <;> omega

end Cert.Pre_finite_inputs.Range

end
-- ==== Proof.PrefixWordsBits.lean ====
/-
  The routing tables the program computes on the host before the kernel runs, as functions of the group words.

  From `gi` (one 32-bit word per row): the rows per group (`counts`), the tiles of 512 rows each group needs
  (`groupTiles`, a floor division of count + 511 by 512 in jnp's lowered form), the running totals before each group
  (`cumTiles`, `cumCount`: an inclusive prefix sum less the entry itself), the stable argsort of the rows by group
  (`perm`), the sorted groups (`sortedG`), each sorted row's padded position (`targetRow`: its group's first tile
  times 512 plus its offset inside the group), the group of each of the 24 tiles (`tileGroup`: how many groups
  start at or before the tile, less one, clipped to 0 … 7), and the padded input (`paddedX`: the sorted rows
  written at their padded positions into zeros). `wrap N` is jnp's normalisation of a possibly negative index.
-/
import proofs.«409940_j76802605187558_3_alg».proof.Kernel
import proofs.«409940_j76802605187558_3_alg».proof.Proof.Gen.Kernel

noncomputable section

namespace Cert.Kernel.Words

open Idealize.ShloMosaic Cert.Kernel Cert.Kernel.Gen

variable {F : FTy → Type} [FloatOps F]

def zero8192 : IVec S8192 32 := broadcastInDim S8192 ![] bcast_S_S8192 (constantI S_ 32 0#32)

/-- jnp's index normalisation on 8192 positions: a negative word has `N` added. -/
def wrap (N : BitVec 32) (x : IVec S8192 32) : IVec S8192 32 :=
  select (cmpi .slt x zero8192) (addi x (broadcastInDim S8192 ![] bcast_S_S8192 (constantI S_ 32 N))) x

/-- A vector of 8192 words as the [8192 × 1] start-index column. -/
def col (x : IVec S8192 32) : IVec S8192x1 32 := broadcastInDim S8192x1 ![0] bcast_S8192_S8192x1_0 x

def counts (gi : IVec S8192 32) : IVec S8 32 :=
  Host.reduce IntOp.addi
    (extui 32
      (cmpi .eq
        (broadcastInDim S8192x8 ![0, 1] bcast_S8192x1_S8192x8_0_1 (broadcastInDim S8192x1 ![0] bcast_S8192_S8192x1_0 gi))
        (broadcastInDim S8192x8 ![0, 1] bcast_S1x8_S8192x8_0_1 (broadcastInDim S1x8 ![1] bcast_S8_S1x8_1 (iotaInDim S8 32 0))))
      natLt_1_32)
    (constantI S_ 32 0#32) reducesTo_S8192x8_S8_d0 h_S_

/-- count + 512 − 1, the dividend of the tile count. -/
def tilesArg (gi : IVec S8192 32) : IVec S8 32 :=
  subi (addi (counts gi) (broadcastInDim S8 ![] bcast_S_S8 (constantI S_ 32 512#32)))
    (broadcastInDim S8 ![] bcast_S_S8 (constantI S_ 32 1#32))

/-- jnp's lowered `floor_divide` by a scalar word: the truncated quotient, less one where the signs differ and the
    remainder is not zero. -/
def floorDiv (x : IVec S8 32) (d : IVec S_ 32) : IVec S8 32 :=
  select
    (andi
      (cmpi .ne (signi x) (broadcastInDim S8 ![] bcast_S_S8 (signi (id d))))
      (cmpi .ne (Host.remsi x (broadcastInDim S8 ![] bcast_S_S8 (id d))) (broadcastInDim S8 ![] bcast_S_S8 (constantI S_ 32 0#32))))
    (subi (Host.divsi x (broadcastInDim S8 ![] bcast_S_S8 (id d))) (broadcastInDim S8 ![] bcast_S_S8 (constantI S_ 32 1#32)))
    (Host.divsi x (broadcastInDim S8 ![] bcast_S_S8 (id d)))

def groupTiles (gi : IVec S8192 32) : IVec S8 32 := floorDiv (tilesArg gi) (constantI S_ 32 512#32)

/-- jnp's `cumsum` of eight words: a window of eight padded seven low. -/
def cumsum8 (x : IVec S8 32) : IVec S8 32 :=
  Host.reduceWindow IntOp.addi ![8] ![1] ![7] ![0] x (broadcastInDim S_ ![] bcast_S_S_ (constantI S_ 32 0#32))
    reduceWindows_S8_S8_w8s1p7_0 h_S_

def cumTiles (gi : IVec S8192 32) : IVec S8 32 := subi (cumsum8 (groupTiles gi)) (groupTiles gi)
def cumCount (gi : IVec S8192 32) : IVec S8 32 := subi (cumsum8 (counts gi)) (counts gi)

def perm (gi : IVec S8192 32) : IVec S8192 32 :=
  (Host.sort2 S8192 0 comparator_i32_i32_d0 gi (iotaInDim S8192 32 0)).2

def sortedG (gi : IVec S8192 32) : IVec S8192 32 :=
  Host.gather gather_S8192_S8192x1_S8192_n_0_n_n_0_1_1 gi (col (wrap 8192#32 (perm gi)))

def rank (gi : IVec S8192 32) : IVec S8192 32 :=
  subi (iotaInDim S8192 32 0) (Host.gather gather_S8_S8192x1_S8192_n_0_n_n_0_1_1 (cumCount gi) (col (wrap 8#32 (sortedG gi))))

def targetRow (gi : IVec S8192 32) : IVec S8192 32 :=
  addi
    (muli (Host.gather gather_S8_S8192x1_S8192_n_0_n_n_0_1_1 (cumTiles gi) (col (wrap 8#32 (sortedG gi))))
      (broadcastInDim S8192 ![] bcast_S_S8192 (constantI S_ 32 512#32)))
    (rank gi)

/-- How many groups start at or before each tile, less one. -/
def tileStarts (gi : IVec S8192 32) : IVec S24 32 :=
  subi
    (Host.reduce IntOp.addi
      (extui 32
        (cmpi .sge
          (broadcastInDim S24x8 ![0, 1] bcast_S24x1_S24x8_0_1 (broadcastInDim S24x1 ![0] bcast_S24_S24x1_0 (iotaInDim S24 32 0)))
          (broadcastInDim S24x8 ![0, 1] bcast_S1x8_S24x8_0_1 (broadcastInDim S1x8 ![1] bcast_S8_S1x8_1 (cumTiles gi))))
        natLt_1_32)
      (constantI S_ 32 0#32) reducesTo_S24x8_S24_d1 h_S_)
    (broadcastInDim S24 ![] bcast_S_S24 (constantI S_ 32 1#32))

/-- jnp's `clip` to 0 … 7. -/
def clip07 (z : IVec S24 32) : IVec S24 32 :=
  minsi (broadcastInDim S24 ![] bcast_S_S24 (id (constantI S_ 32 7#32)))
    (maxsi (broadcastInDim S24 ![] bcast_S_S24 (id (constantI S_ 32 0#32))) z)

def tileGroup (gi : IVec S8192 32) : IVec S24 32 := clip07 (tileStarts gi)

/-- The rows in sorted order, rounded to bf16. -/
def sortedX (x : FVec F S8192x1024 .f32) (gi : IVec S8192 32) : FVec F S8192x1024 .bf16 :=
  truncf .bf16 (Host.gather gather_S8192x1024_S8192x1_S8192x1024_1_0_n_n_0_1_11024 x (col (wrap 8192#32 (perm gi)))) bitsLt_bf16_f32

def paddedX (x : FVec F S8192x1024 .f32) (gi : IVec S8192 32) : FVec F S12288x1024 .bf16 :=
  Host.scatter scatter_S12288x1024_S8192x1_S8192x1024_1_0_0_1 (fun _ b => b)
    (broadcastInDim S12288x1024 ![] bcast_S_S12288x1024 (constant S_ .bf16 0x0000#16))
    (col (wrap 12288#32 (targetRow gi))) (sortedX x gi)

/-- The result rows: the padded output read at the padded positions, written back at the original row numbers. -/
def unpermuted (po : FVec F S12288x4096 .f32) (gi : IVec S8192 32) : FVec F S8192x4096 .f32 :=
  Host.scatter scatter_S8192x4096_S8192x1_S8192x4096_1_0_0_1 (fun _ b => b)
    (broadcastInDim S8192x4096 ![] bcast_S_S8192x4096 (constant S_ .f32 0x00000000#32))
    (col (wrap 8192#32 (perm gi)))
    (Host.gather gather_S12288x4096_S8192x1_S8192x4096_1_0_n_n_0_1_14096 po (col (wrap 12288#32 (targetRow gi))))

end Cert.Kernel.Words

end
-- ==== Proof.PrefixChainBits.lean ====
/-
  What the kernel's region finds in the buffers the host lines before it wrote, as the routing functions of the
  argument arrays: the tile table, the sorted rows' padded positions, the sorting permutation, the padded input, the
  weights rounded to bf16 and the bias with a unit axis inserted.
-/
import proofs.«409940_j76802605187558_3_alg».proof.Proof.Gen.Kernel.Frame
import proofs.«409940_j76802605187558_3_alg».proof.Proof.PrefixWordsBits
import Idealize.ShloMosaic.Lib.StableHlo.Run

set_option maxRecDepth 65536
set_option maxHeartbeats 2000000

noncomputable section

namespace Cert.Kernel.Chain

open Idealize.ShloMosaic Idealize.ShloMosaic.TcCoe Idealize.SL.Sem Idealize.ShloMosaic.StableHlo
open Cert.Kernel Cert.Kernel.Gen Cert.Kernel.Words

variable {F : FTy → Type} [FloatOps F]
variable (m : (ℓ : Loc nD τ sig) → Buf (Elt F) ℓ)

/-- The argument arrays as launched. -/
abbrev giOf (c : Dev nD) : IVec S8192 32 := m ((c : Thread nD τ).loc main_arg1)
abbrev xOf (c : Dev nD) : FVec F S8192x1024 .f32 := m ((c : Thread nD τ).loc main_arg0)
abbrev wOf (c : Dev nD) : FVec F S8x1024x4096 .f32 := m ((c : Thread nD τ).loc main_arg2)
abbrev bOf (c : Dev nD) : FVec F S8x4096 .f32 := m ((c : Thread nD τ).loc main_arg3)

theorem tileTable_eq (c : Dev nD) : (V m c main_v54 : IVec S24 32) = tileGroup (giOf m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]
  unfold tileGroup clip07 tileStarts cumTiles groupTiles floorDiv tilesArg cumsum8 counts
  try rfl

theorem targetRow_eq (c : Dev nD) : (V m c main_v43 : IVec S8192 32) = targetRow (giOf m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]
  unfold targetRow rank sortedG perm cumTiles cumCount groupTiles floorDiv tilesArg cumsum8 counts col wrap zero8192
  try rfl

theorem perm_eq (c : Dev nD) : (V m c main_v17 : IVec S8192 32) = perm (giOf m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]
  unfold perm
  try rfl

theorem paddedX_eq (c : Dev nD) : (V m c main_v70 : FVec F S12288x1024 .bf16) = paddedX (xOf m c) (giOf m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]
  unfold paddedX sortedX targetRow rank sortedG perm cumTiles cumCount groupTiles floorDiv tilesArg cumsum8 counts col wrap zero8192
  try rfl

theorem wBf_eq (c : Dev nD) : (V m c main_v71 : FVec F S8x1024x4096 .bf16) = truncf .bf16 (wOf m c) bitsLt_bf16_f32 := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]

  try rfl

theorem b3_eq (c : Dev nD) : (V m c main_v72 : FVec F S8x1x4096 .f32) = shapeCast S8x1x4096 (bOf m c) shapeCasts_S8x4096_S8x1x4096 := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp only [TRef.toBuf, TRef.ofBuf, cast_eq]

  try rfl

end Cert.Kernel.Chain

end
-- ==== Proof.TableRangeBits.lean ====
/-
  Every entry of the tile table is a number below 8, whatever the group words are: the table is a signed minimum
  with 7 of a signed maximum with 0.
-/
import proofs.«409940_j76802605187558_3_alg».proof.Proof.PrefixWordsBits
import Idealize.ShloMosaic.Lib.StableHlo.Predicate
import Idealize.ShloMosaic.Lib.WordArith
import Idealize.ShloMosaic.Lib.SortFacts

noncomputable section

namespace Cert.Kernel.TableRange

open Idealize.ShloMosaic Cert.Kernel Cert.Kernel.Gen Cert.Kernel.Words

/-- A signed minimum with 7 of a signed maximum with 0 is a number below 8. -/
private theorem word_lt (x : BitVec 32) : (IntOp.minsi 7#32 (IntOp.maxsi 0#32 x)).toNat < 8 := by
  have h7 : (7#32 : BitVec 32).toInt = 7 := by decide
  have h7n : (7#32 : BitVec 32).toNat = 7 := by decide
  have hi := WordArith.toInt_maxsi_zero x
  generalize IntOp.maxsi 0#32 x = y at hi ⊢
  have e := BitVec.toInt_eq_toNat_cond y
  have hl := y.isLt
  unfold IntOp.minsi
  by_cases h : (7#32 : BitVec 32).slt y = true
  · rw [if_pos h]; omega
  · rw [if_neg h]
    rw [BitVec.slt_iff_toInt_lt, h7] at h
    split at e <;> omega

/-- The clip, entry by entry: the scalars 7 and 0 are read at every position. -/
private theorem clip07_apply (z : IVec S24 32) (t : S24.Idx) :
    clip07 z t = IntOp.minsi 7#32 (IntOp.maxsi 0#32 (z t)) := rfl

theorem clip07_lt (z : IVec S24 32) (t : S24.Idx) : (clip07 z t).toNat < 8 := by
  rw [clip07_apply]
  exact word_lt _

theorem tileGroup_lt (gi : IVec S8192 32) (t : S24.Idx) : (tileGroup gi t).toNat < 8 :=
  clip07_lt _ t

end Cert.Kernel.TableRange

end
-- ==== Proof.TableOkBits.lean ====
/-
  The pipeline's side condition on the tile table: the weights' and the bias's blocks are chosen by the table's
  words, and every word is a number below 8, so each block lies inside its array of 8 groups (and the transfers
  are of whole words). It holds for every launch memory: the table is clipped on the host.
-/
import proofs.«409940_j76802605187558_3_alg».proof.Proof.PrefixChainBits
import Idealize.ShloMosaic.Lib.ValueIdx
import Idealize.ShloMosaic.Lib.SortFacts
import proofs.«409940_j76802605187558_3_alg».proof.Proof.TableRangeBits

set_option maxRecDepth 16384

noncomputable section

namespace Cert.Kernel.TableOk

open Idealize.ShloMosaic Idealize.ShloMosaic.TcCoe Idealize.ShloMosaic.ValueIdx Idealize.SL.Sem Idealize.ShloMosaic.StableHlo
open Cert.Kernel Cert.Kernel.Gen Cert.Kernel.Words Cert.Kernel.Chain

variable {F : FTy → Type} [FloatOps F]
variable (m : (ℓ : Loc nD τ sig) → Buf (Elt F) ℓ)

/-- The table the region reads is the host's tile table of the group words. -/
private theorem tbl_eq : (tbl m 0 : IVec S24 32) = tileGroup (giOf m (0 : Dev nD)) :=
  Chain.tileTable_eq m (0 : Dev nD)

/-- The table the region reads holds numbers below 8. -/
theorem tbl_lt (t : S24.Idx) : ((tbl m 0 : IVec S24 32) t).toNat < 8 := by
  rw [tbl_eq m]
  exact TableRange.tileGroup_lt _ t

/-- A grid point's first coordinate is 0 or 1. -/
private theorem coord0_lt (i : grid0.Coords) : (i 0).val < 2 := (i 0).isLt

/-- The side condition at ANY table whose words are below 8: the block index along the groups is the word read,
    the middle one is 0 and the last is the grid's first coordinate, 0 or 1. -/
private theorem ok_of_lt (pf : pre0.Contents (Elt F)) (h : ∀ t : S24.Idx, ((pf 0 : IVec S24 32) t).toNat < 8) :
    ok0 pf := by
  refine ⟨fun i => ?_, fun i => ?_⟩
  · obtain ⟨w, hw, e⟩ : ∃ w : BitVec 32, w.toNat < 8 ∧
        cc0_transform_1 Facts₀.k0_off1_inb Facts₀.numel1_S1 pf i = ![w.toNat, 0, (BitVec.ofNat 32 (i 0).val).toNat] :=
      ⟨_, h _, rfl⟩
    have hi := coord0_lt i
    refine ⟨fun a => ?_, Or.inr (Affine.block_words_dvd (of_decide_eq_true rfl) (by decide))⟩
    rw [e]
    fin_cases a <;> simp [S1x1024x2048, S8x1024x4096] <;> omega
  · obtain ⟨w, hw, e⟩ : ∃ w : BitVec 32, w.toNat < 8 ∧
        cc0_transform_2 Facts₀.k0_off1_inb Facts₀.numel1_S1 pf i = ![w.toNat, 0, (BitVec.ofNat 32 (i 0).val).toNat] :=
      ⟨_, h _, rfl⟩
    have hi := coord0_lt i
    refine ⟨fun a => ?_, Or.inl rfl⟩
    rw [e]
    fin_cases a <;> simp [S1x1x2048, S8x1x4096] <;> omega

/-- The pipeline's side condition, from the table's range. -/
theorem ok : Ok m := ok_of_lt (tbl m) (tbl_lt m)

end Cert.Kernel.TableOk

end
-- ==== Proof.lean ====
/-
  The certificate. Both programs compute the grouped linear map
      out (i, j) = Σ_k x (i, k) · w (g i, k, j) + b (g i, j)
  of their arguments on the extended reals, for group words `g i` in 0 … 7 (the precondition's range conjunct):
  the reference by eight masked products (RefValue), the kernel program by sorting the rows by group, padding each
  group to whole tiles, one tile product per grid point against the tile's group, and undoing the sort
  (KernelValue). The kernel's frames hold for every launch memory, the tile table being clipped to 0 … 7 on the
  host (TableOk); the reference's frame is its run with the result dropped; the idealization rewrote nothing.
-/
import proofs.«409940_j76802605187558_3_alg».proof.Defs
import proofs.«409940_j76802605187558_3_alg».proof.Proof.Gen.Kernel
import proofs.«409940_j76802605187558_3_alg».proof.Proof.Gen.Kernel.Skeleton
import proofs.«409940_j76802605187558_3_alg».proof.Proof.Gen.Kernel.Launch
import proofs.«409940_j76802605187558_3_alg».proof.Proof.Gen.Kernel.Points
import proofs.«409940_j76802605187558_3_alg».proof.Proof.Gen.Kernel.Frame
import proofs.«409940_j76802605187558_3_alg».proof.Proof.Gen.KernelIdeal
import proofs.«409940_j76802605187558_3_alg».proof.Proof.Gen.KernelIdeal.Skeleton
import proofs.«409940_j76802605187558_3_alg».proof.Proof.Gen.KernelIdeal.Launch
import proofs.«409940_j76802605187558_3_alg».proof.Proof.Gen.KernelIdeal.Points
import proofs.«409940_j76802605187558_3_alg».proof.Proof.Gen.KernelIdeal.Frame
import proofs.«409940_j76802605187558_3_alg».proof.Proof.Gen.ReferenceIdeal
import proofs.«409940_j76802605187558_3_alg».proof.Proof.Gen.ReferenceIdeal.Run
import proofs.«409940_j76802605187558_3_alg».proof.Proof.Gen.ReferenceIdeal.Read
import proofs.«409940_j76802605187558_3_alg».proof.Proof.Gen.Pre_finite_inputs
import proofs.«409940_j76802605187558_3_alg».proof.Proof.KernelValue
import proofs.«409940_j76802605187558_3_alg».proof.Proof.RefValue
import proofs.«409940_j76802605187558_3_alg».proof.Proof.PreRange
import proofs.«409940_j76802605187558_3_alg».proof.Proof.TableOkBits
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ (Cert.Kernel.TableOk.ok m)

theorem frame_kernelIdeal : @Cert.frame_KernelIdeal Cert.KernelIdeal.Gen.facts Cert.Pre_finite_inputs.Gen.facts :=
  fun m ρ _ => Cert.KernelIdeal.Gen.frame m ρ (Cert.KernelIdeal.TableOk.ok m)

theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Under the precondition both programs end at the grouped product of their (agreeing) arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hgi : ∀ (c : Dev Cert.KernelIdeal.nD) i, (Cert.KernelIdeal.Chain.giOf m c i).toNat < 8 := fun c =>
    Cert.Pre_finite_inputs.Range.gi_lt (F := Ideal) _ _ _ _ (hpre c)
  refine ⟨fun c => Cert.GroupedSpec.grouped (Cert.KernelIdeal.Chain.xOf m c) (Cert.KernelIdeal.Chain.giOf m c)
      (Cert.KernelIdeal.Chain.wOf m c) (Cert.KernelIdeal.Chain.bOf m c) (hgi c),
    Cert.KernelIdeal.KernelValue.run m ρ hgi, ?_⟩
  refine (θ_run Cert.ReferenceIdeal.defs _ _).mono (fun _ h c => ⟨(h c).1.trans ?_, (h c).2⟩)
    (Cert.ReferenceIdeal.Value.run (F := Ideal) m' ρ')
  have hgi' : ∀ i, (m' ((c.tc : Thread Cert.ReferenceIdeal.nD Cert.ReferenceIdeal.τ).loc Cert.ReferenceIdeal.main_arg1) i).toNat < 8 := by
    rw [(hagree c).2.1]; exact hgi c
  rw [Cert.ReferenceIdeal.Read.val_main_v96_eq, Cert.ReferenceIdeal.RefValue.result_eq _ _ _ _ hgi']
  exact Cert.GroupedSpec.grouped_congr (hagree c).1 (hagree c).2.1 (hagree c).2.2.1 (hagree c).2.2.2 _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
